-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v62)) (v3 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v62) = v2 c
          ∧ r.2.mem ((c.tc : Thread Cert.KernelIdeal.nD Cert.KernelIdeal.τ).loc Cert.KernelIdeal.main_v63) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x384 : Shape := ⟨2, ![500000, 384]⟩
abbrev S500000 : Shape := ⟨1, ![500000]⟩
abbrev S64x384 : Shape := ⟨2, ![64, 384]⟩
abbrev S64 : Shape := ⟨1, ![64]⟩
abbrev S20000x64 : Shape := ⟨2, ![20000, 64]⟩
abbrev S5000x64 : Shape := ⟨2, ![5000, 64]⟩
abbrev S2000x64 : Shape := ⟨2, ![2000, 64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S500000x384 : S_.BroadcastsInDim S500000x384 (![] : Fin 0 → Fin S500000x384.rank)
  reducesTo_S500000x384_S_d0_1 : S500000x384.ReducesTo [0, 1] S_
  h_S_ : 0 < S_.numel
  bcast_S_S64x384 : S_.BroadcastsInDim S64x384 (![] : Fin 0 → Fin S64x384.rank)
  reducesTo_S64x384_S_d0_1 : S64x384.ReducesTo [0, 1] S_
  bcast_S_S64 : S_.BroadcastsInDim S64 (![] : Fin 0 → Fin S64.rank)
  reducesTo_S64_S_d0 : S64.ReducesTo [0] S_
  bcast_S_S20000x64 : S_.BroadcastsInDim S20000x64 (![] : Fin 0 → Fin S20000x64.rank)
  reducesTo_S20000x64_S_d0_1 : S20000x64.ReducesTo [0, 1] S_
  bcast_S_S5000x64 : S_.BroadcastsInDim S5000x64 (![] : Fin 0 → Fin S5000x64.rank)
  reducesTo_S5000x64_S_d0_1 : S5000x64.ReducesTo [0, 1] S_
  bcast_S_S2000x64 : S_.BroadcastsInDim S2000x64 (![] : Fin 0 → Fin S2000x64.rank)
  reducesTo_S2000x64_S_d0_1 : S2000x64.ReducesTo [0, 1] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg17 : FVec F S32x64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x64 .f32 := Host.absf main_arg17
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  main_v58

def fn_part2 {F : FTy → Type} [FloatOps F] (main_arg13 : FVec F S64 .f32) (main_arg14 : FVec F S64x64 .f32) (main_arg15 : FVec F S32x64 .f32) (main_arg16 : FVec F S32 .f32) (main_arg17 : FVec F S32x64 .f32) (main_v33 : IVec S_ 1) : IVec S_ 1 :=
  let main_v34 : FVec F S64 .f32 := Host.absf main_arg13
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg14
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S32x64 .f32 := Host.absf main_arg15
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg16
  let main_cst_18 : FVec F S_ .f32 := constant S_ .f32 0x7F800000#32
  let main_v50 : FVec F S32 .f32 := broadcastInDim S32 ![] bcast_S_S32 main_cst_18
  fn_part3 (F := F) main_arg17 main_v48 main_v49 main_v50

def fn_part1 {F : FTy → Type} [FloatOps F] (main_arg10 : FVec F S5000x64 .f32) (main_arg11 : FVec F S2000x64 .f32) (main_arg12 : FVec F S64x64 .f32) (main_arg13 : FVec F S64 .f32) (main_arg14 : FVec F S64x64 .f32) (main_arg15 : FVec F S32x64 .f32) (main_arg16 : FVec F S32 .f32) (main_arg17 : FVec F S32x64 .f32) (main_v13 : IVec S_ 1) (main_v16 : IVec S20000x64 1) : IVec S_ 1 :=
  let main_c_5 : IVec S_ 1 := constantI S_ 1 1#1
  let main_v17 : IVec S_ 1 := (fun x v => Host.reduce IntOp.andi x v reducesTo_S20000x64_S_d0_1 h_S_) main_v16 main_c_5
  let main_v18 : IVec S_ 1 := andi main_v13 main_v17
  let main_v19 : FVec F S5000x64 .f32 := Host.absf main_arg10
  let main_cst_6 : FVec F S_ .f32 := constant S_ .f32 0x7F800000#32
  let main_v20 : FVec F S5000x64 .f32 := broadcastInDim S5000x64 ![] bcast_S_S5000x64 main_cst_6
  let main_v21 : IVec S5000x64 1 := cmpf .olt main_v19 main_v20
  let main_c_7 : IVec S_ 1 := constantI S_ 1 1#1
  let main_v22 : IVec S_ 1 := (fun x v => Host.reduce IntOp.andi x v reducesTo_S5000x64_S_d0_1 h_S_) main_v21 main_c_7
  let main_v23 : IVec S_ 1 := andi main_v18 main_v22
  let main_v24 : FVec F S2000x64 .f32 := Host.absf main_arg11
  let main_cst_8 : FVec F S_ .f32 := constant S_ .f32 0x7F800000#32
  let main_v25 : FVec F S2000x64 .f32 := broadcastInDim S2000x64 ![] bcast_S_S2000x64 main_cst_8
  let main_v26 : IVec S2000x64 1 := cmpf .olt main_v24 main_v25
  let main_c_9 : IVec S_ 1 := constantI S_ 1 1#1
  let main_v27 : IVec S_ 1 := (fun x v => Host.reduce IntOp.andi x v reducesTo_S2000x64_S_d0_1 h_S_) main_v26 main_c_9
  let main_v28 : IVec S_ 1 := andi main_v23 main_v27
  let main_v29 : FVec F S64x64 .f32 := Host.absf main_arg12
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg13 main_arg14 main_arg15 main_arg16 main_arg17 main_v33

def fn {F : FTy → Type} [FloatOps F] (main_arg0 : FVec F S500000x384 .f32) (main_arg1 : IVec S500000 32) (main_arg2 : IVec S500000 32) (main_arg3 : IVec S500000 32) (main_arg4 : IVec S500000 32) (main_arg5 : IVec S500000 32) (main_arg6 : IVec S500000 32) (main_arg7 : FVec F S64x384 .f32) (main_arg8 : FVec F S64 .f32) (main_arg9 : FVec F S20000x64 .f32) (main_arg10 : FVec F S5000x64 .f32) (main_arg11 : FVec F S2000x64 .f32) (main_arg12 : FVec F S64x64 .f32) (main_arg13 : FVec F S64 .f32) (main_arg14 : FVec F S64x64 .f32) (main_arg15 : FVec F S32x64 .f32) (main_arg16 : FVec F S32 .f32) (main_arg17 : FVec F S32x64 .f32) : IVec S_ 1 :=
  let main_v0 : FVec F S500000x384 .f32 := Host.absf main_arg0
  let main_cst : FVec F S_ .f32 := constant S_ .f32 0x7F800000#32
  let main_v1 : FVec F S500000x384 .f32 := broadcastInDim S500000x384 ![] bcast_S_S500000x384 main_cst
  let main_v2 : IVec S500000x384 1 := cmpf .olt main_v0 main_v1
  let main_c : IVec S_ 1 := constantI S_ 1 1#1
  let main_v3 : IVec S_ 1 := (fun x v => Host.reduce IntOp.andi x v reducesTo_S500000x384_S_d0_1 h_S_) main_v2 main_c
  let main_v4 : FVec F S64x384 .f32 := Host.absf main_arg7
  let main_cst_0 : FVec F S_ .f32 := constant S_ .f32 0x7F800000#32
  let main_v5 : FVec F S64x384 .f32 := broadcastInDim S64x384 ![] bcast_S_S64x384 main_cst_0
  let main_v6 : IVec S64x384 1 := cmpf .olt main_v4 main_v5
  let main_c_1 : IVec S_ 1 := constantI S_ 1 1#1
  let main_v7 : IVec S_ 1 := (fun x v => Host.reduce IntOp.andi x v reducesTo_S64x384_S_d0_1 h_S_) main_v6 main_c_1
  let main_v8 : IVec S_ 1 := andi main_v3 main_v7
  let main_v9 : FVec F S64 .f32 := Host.absf main_arg8
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S20000x64 .f32 := Host.absf main_arg9
  let main_cst_4 : FVec F S_ .f32 := constant S_ .f32 0x7F800000#32
  let main_v15 : FVec F S20000x64 .f32 := broadcastInDim S20000x64 ![] bcast_S_S20000x64 main_cst_4
  let main_v16 : IVec S20000x64 1 := cmpf .olt main_v14 main_v15
  fn_part1 (F := F) main_arg10 main_arg11 main_arg12 main_arg13 main_arg14 main_arg15 main_arg16 main_arg17 main_v13 main_v16
-- ==== Kernel.lean ====
abbrev S500000x384 : Shape := ⟨2, ![500000, 384]⟩
abbrev S500000 : Shape := ⟨1, ![500000]⟩
abbrev S64x384 : Shape := ⟨2, ![64, 384]⟩
abbrev S64 : Shape := ⟨1, ![64]⟩
abbrev S20000x64 : Shape := ⟨2, ![20000, 64]⟩
abbrev S5000x64 : Shape := ⟨2, ![5000, 64]⟩
abbrev S2000x64 : Shape := ⟨2, ![2000, 64]⟩
abbrev S64x64 : Shape := ⟨2, ![64, 64]⟩
abbrev S32x64 : Shape := ⟨2, ![32, 64]⟩
abbrev S32 : Shape := ⟨1, ![32]⟩
abbrev S384x64 : Shape := ⟨2, ![384, 64]⟩
abbrev S1x64 : Shape := ⟨2, ![1, 64]⟩
abbrev S500000x64 : Shape := ⟨2, ![500000, 64]⟩
abbrev S5000x384 : Shape := ⟨2, ![5000, 384]⟩
abbrev S527000x64 : Shape := ⟨2, ![527000, 64]⟩
abbrev S_ : Shape := ⟨0, ![]⟩
abbrev S3000000 : Shape := ⟨1, ![3000000]⟩
abbrev S527000 : Shape := ⟨1, ![527000]⟩
abbrev S3000000x1 : Shape := ⟨2, ![3000000, 1]⟩
abbrev S3000000x64 : Shape := ⟨2, ![3000000, 64]⟩
abbrev S527000x1 : Shape := ⟨2, ![527000, 1]⟩
abbrev S6200x64 : Shape := ⟨2, ![6200, 64]⟩
abbrev S64x32 : Shape := ⟨2, ![64, 32]⟩
abbrev S1x32 : Shape := ⟨2, ![1, 32]⟩
abbrev S527000x32 : Shape := ⟨2, ![527000, 32]⟩
abbrev S6200x32 : Shape := ⟨2, ![6200, 32]⟩
abbrev S500000x32 : Shape := ⟨2, ![500000, 32]⟩
abbrev S20000x32 : Shape := ⟨2, ![20000, 32]⟩
abbrev S5000x32 : Shape := ⟨2, ![5000, 32]⟩
abbrev S2000x32 : Shape := ⟨2, ![2000, 32]⟩

abbrev nBuf : Space → Nat
  | .hbm => 98
  | .vmem => 24
  | .smem => 0
  | _ => 0

abbrev bufTy : (tb : Table) → Fin (tcTables nBuf tb) → BufTy
  | .hbm, ⟨0, _⟩ => ⟨S500000x384, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S64x384, .f32⟩
  | .hbm, ⟨8, _⟩ => ⟨S64, .f32⟩
  | .hbm, ⟨9, _⟩ => ⟨S20000x64, .f32⟩
  | .hbm, ⟨10, _⟩ => ⟨S5000x64, .f32⟩
  | .hbm, ⟨11, _⟩ => ⟨S2000x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S32x64, .f32⟩
  | .hbm, ⟨16, _⟩ => ⟨S32, .f32⟩
  | .hbm, ⟨17, _⟩ => ⟨S32x64, .f32⟩
  | .hbm, ⟨18, _⟩ => ⟨S384x64, .f32⟩
  | .hbm, ⟨19, _⟩ => ⟨S1x64, .f32⟩
  | .hbm, ⟨20, _⟩ => ⟨S500000x64, .f32⟩
  | .hbm, ⟨21, _⟩ => ⟨S527000x64, .f32⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S3000000, .i32⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S3000000, .i32⟩
  | .hbm, ⟨42, _⟩ => ⟨S_, .f32⟩
  | .hbm, ⟨43, _⟩ => ⟨S3000000, .f32⟩
  | .hbm, ⟨44, _⟩ => ⟨S_, .f32⟩
  | .hbm, ⟨45, _⟩ => ⟨S527000, .f32⟩
  | .hbm, ⟨46, _⟩ => ⟨S3000000x1, .i32⟩
  | .hbm, ⟨47, _⟩ => ⟨S527000, .f32⟩
  | .hbm, ⟨48, _⟩ => ⟨S_, .f32⟩
  | .hbm, ⟨49, _⟩ => ⟨S527000, .f32⟩
  | .hbm, ⟨50, _⟩ => ⟨S527000, .f32⟩
  | .hbm, ⟨51, _⟩ => ⟨S_, .f32⟩
  | .hbm, ⟨52, _⟩ => ⟨S527000, .f32⟩
  | .hbm, ⟨53, _⟩ => ⟨S527000, .f32⟩
  | .hbm, ⟨54, _⟩ => ⟨S_, .i32⟩
  | .hbm, ⟨55, _⟩ => ⟨S3000000, .i32⟩
  | .hbm, ⟨56, _⟩ => ⟨S3000000, .i1⟩
  | .hbm, ⟨57, _⟩ => ⟨S_, .i32⟩
  | .hbm, ⟨58, _⟩ => ⟨S3000000, .i32⟩
  | .hbm, ⟨59, _⟩ => ⟨S3000000, .i32⟩
  | .hbm, ⟨60, _⟩ => ⟨S3000000, .i32⟩
  | .hbm, ⟨61, _⟩ => ⟨S3000000x1, .i32⟩
  | .hbm, ⟨62, _⟩ => ⟨S3000000x64, .f32⟩
  | .hbm, ⟨63, _⟩ => ⟨S_, .f32⟩
  | .hbm, ⟨64, _⟩ => ⟨S527000x64, .f32⟩
  | .hbm, ⟨65, _⟩ => ⟨S3000000x1, .i32⟩
  | .hbm, ⟨66, _⟩ => ⟨S527000x64, .f32⟩
  | .hbm, ⟨67, _⟩ => ⟨S527000x1, .f32⟩
  | .hbm, ⟨68, _⟩ => ⟨S527000x64, .f32⟩
  | .hbm, ⟨69, _⟩ => ⟨S527000x64, .f32⟩
  | .hbm, ⟨70, _⟩ => ⟨S64x64, .f32⟩
  | .hbm, ⟨71, _⟩ => ⟨S64x64, .f32⟩
  | .hbm, ⟨72, _⟩ => ⟨S1x64, .f32⟩
  | .hbm, ⟨73, _⟩ => ⟨S527000x64, .f32⟩
  | .hbm, ⟨74, _⟩ => ⟨S_, .i32⟩
  | .hbm, ⟨75, _⟩ => ⟨S3000000, .i32⟩
  | .hbm, ⟨76, _⟩ => ⟨S3000000, .i1⟩
  | .hbm, ⟨77, _⟩ => ⟨S_, .i32⟩
  | .hbm, ⟨78, _⟩ => ⟨S3000000, .i32⟩
  | .hbm, ⟨79, _⟩ => ⟨S3000000, .i32⟩
  | .hbm, ⟨80, _⟩ => ⟨S3000000, .i32⟩
  | .hbm, ⟨81, _⟩ => ⟨S3000000x1, .i32⟩
  | .hbm, ⟨82, _⟩ => ⟨S3000000x64, .f32⟩
  | .hbm, ⟨83, _⟩ => ⟨S_, .f32⟩
  | .hbm, ⟨84, _⟩ => ⟨S527000x64, .f32⟩
  | .hbm, ⟨85, _⟩ => ⟨S3000000x1, .i32⟩
  | .hbm, ⟨86, _⟩ => ⟨S527000x64, .f32⟩
  | .hbm, ⟨87, _⟩ => ⟨S527000x1, .f32⟩
  | .hbm, ⟨88, _⟩ => ⟨S527000x64, .f32⟩
  | .hbm, ⟨89, _⟩ => ⟨S527000x64, .f32⟩
  | .hbm, ⟨90, _⟩ => ⟨S64x32, .f32⟩
  | .hbm, ⟨91, _⟩ => ⟨S64x32, .f32⟩
  | .hbm, ⟨92, _⟩ => ⟨S1x32, .f32⟩
  | .hbm, ⟨93, _⟩ => ⟨S527000x32, .f32⟩
  | .hbm, ⟨94, _⟩ => ⟨S500000x32, .f32⟩
  | .hbm, ⟨95, _⟩ => ⟨S20000x32, .f32⟩
  | .hbm, ⟨96, _⟩ => ⟨S5000x32, .f32⟩
  | .hbm, ⟨97, _⟩ => ⟨S2000x32, .f32⟩
  | .local _ .vmem, ⟨0, _⟩ => ⟨S5000x384, .f32⟩
  | .local _ .vmem, ⟨1, _⟩ => ⟨S5000x384, .f32⟩
  | .local _ .vmem, ⟨2, _⟩ => ⟨S384x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S6200x64, .f32⟩
  | .local _ .vmem, ⟨7, _⟩ => ⟨S6200x64, .f32⟩
  | .local _ .vmem, ⟨8, _⟩ => ⟨S6200x64, .f32⟩
  | .local _ .vmem, ⟨9, _⟩ => ⟨S6200x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S6200x64, .f32⟩
  | .local _ .vmem, ⟨14, _⟩ => ⟨S6200x64, .f32⟩
  | .local _ .vmem, ⟨15, _⟩ => ⟨S6200x64, .f32⟩
  | .local _ .vmem, ⟨16, _⟩ => ⟨S6200x64, .f32⟩
  | .local _ .vmem, ⟨17, _⟩ => ⟨S6200x64, .f32⟩
  | .local _ .vmem, ⟨18, _⟩ => ⟨S6200x64, .f32⟩
  | .local _ .vmem, ⟨19, _⟩ => ⟨S64x32, .f32⟩
  | .local _ .vmem, ⟨20, _⟩ => ⟨S64x32, .f32⟩
  | .local _ .vmem, ⟨21, _⟩ => ⟨S1x32, .f32⟩
  | .local _ .vmem, ⟨22, _⟩ => ⟨S6200x32, .f32⟩
  | .local _ .vmem, ⟨23, _⟩ => ⟨S6200x32, .f32⟩
  | _, _ => ⟨S500000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_c_8 : Ref sig .tc := ⟨.hbm, 54, rfl⟩
abbrev main_v26 : Ref sig .tc := ⟨.hbm, 55, rfl⟩
abbrev main_v27 : Ref sig .tc := ⟨.hbm, 56, rfl⟩
abbrev main_c_9 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_v43 : Ref sig .tc := ⟨.hbm, 75, rfl⟩
abbrev main_v44 : Ref sig .tc := ⟨.hbm, 76, rfl⟩
abbrev main_c_12 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6200x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![85], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6200x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S64x384_S384x64_1_0 : S64x384.Transposes [1, 0] S384x64
  shapeCasts_S64_S1x64 : S64.ShapeCasts S1x64
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S500000x64_S20000x64_S5000x64_S2000x64_S527000x64_d0 : Shape.Concatenates [S500000x64, S20000x64, S5000x64, S2000x64] S527000x64 0
  bcast_S_S500000 : S_.BroadcastsInDim S500000 (![] : Fin 0 → Fin S500000.rank)
  concatenates_S500000_S500000_S500000_S500000_S500000_S500000_S3000000_d0 : Shape.Concatenates [S500000, S500000, S500000, S500000, S500000, S500000] S3000000 0
  bcast_S_S3000000 : S_.BroadcastsInDim S3000000 (![] : Fin 0 → Fin S3000000.rank)
  bcast_S_S527000 : S_.BroadcastsInDim S527000 (![] : Fin 0 → Fin S527000.rank)
  bcast_S3000000_S3000000x1_0 : S3000000.BroadcastsInDim S3000000x1 (![0] : Fin 1 → Fin S3000000x1.rank)
  bcast_S_S527000x64 : S_.BroadcastsInDim S527000x64 (![] : Fin 0 → Fin S527000x64.rank)
  bcast_S527000_S527000x1_0 : S527000.BroadcastsInDim S527000x1 (![0] : Fin 1 → Fin S527000x1.rank)
  bcast_S527000x1_S527000x64_0_1 : S527000x1.BroadcastsInDim S527000x64 (![0, 1] : Fin 2 → Fin S527000x64.rank)
  transposes_S64x64_S64x64_1_0 : S64x64.Transposes [1, 0] S64x64
  inb_S6200x64_S6200x64_0_0 : ∀ a, (![0, 0] : Fin 2 → Nat) a + S6200x64.size a ≤ S6200x64.size a
  h_S6200x64 : 0 < S6200x64.numel
  shapeCasts_S6200x64_S6200x64 : S6200x64.ShapeCasts S6200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S6200x64 : S1x64.Broadcasts S6200x64
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6200x32 : S1x32.Broadcasts S6200x32
  inb_S6200x32_S6200x32_0_0 : ∀ a, (![0, 0] : Fin 2 → Nat) a + S6200x32.size a ≤ S6200x32.size a
  h_S6200x32 : 0 < S6200x32.numel
  slices_S527000x32_S500000x32_0_0 : S527000x32.Slices ![0, 0] S500000x32
  slices_S527000x32_S20000x32_500000_0 : S527000x32.Slices ![500000, 0] S20000x32
  slices_S527000x32_S5000x32_520000_0 : S527000x32.Slices ![520000, 0] S5000x32
  slices_S527000x32_S2000x32_525000_0 : S527000x32.Slices ![525000, 0] S2000x32
  dot_S5000x384_S384x64_S5000x64_1_0_0_1_n_n_wf : DotDims.WF S5000x384 S384x64 S5000x64 [1] [0] [0] [1] [] []
  scatter_S527000_S3000000x1_S3000000_n_0_0_1_wf : ScatterDims.WF S527000 S3000000x1 S3000000 [] [0] [0] 1
  gather_S527000x64_S3000000x1_S3000000x64_1_0_n_n_0_1_164_wf : GatherDims.WF S527000x64 S3000000x1 S3000000x64 [1] [0] [] [0] [] 1 ![1, 64]
  scatter_S527000x64_S3000000x1_S3000000x64_1_0_0_1_wf : ScatterDims.WF S527000x64 S3000000x1 S3000000x64 [1] [0] [0] 1
  dot_S6200x64_S64x64_S6200x64_1_0_0_1_n_n_wf : DotDims.WF S6200x64 S64x64 S6200x64 [1] [0] [0] [1] [] []
  dot_S6200x64_S64x32_S6200x32_1_0_0_1_n_n_wf : DotDims.WF S6200x64 S64x32 S6200x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S500000x384.size a
  hwx0_0 : ∀ i : grid0.Coords, EltTy.bits .f32 = 32 ∨ (Rect.block (s := S500000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S500000x64.size a
  hwx0_3 : ∀ i : grid0.Coords, EltTy.bits .f32 = 32 ∨ (Rect.block (s := S500000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6200x64.size a ≤ S527000x64.size a
  hwx1_0 : ∀ i : grid1.Coords, EltTy.bits .f32 = 32 ∨ (Rect.block (s := S527000x64) S6200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6200x64.size a ≤ S527000x64.size a
  hwx1_1 : ∀ i : grid1.Coords, EltTy.bits .f32 = 32 ∨ (Rect.block (s := S527000x64) S6200x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6200x64.size a ≤ S527000x64.size a
  hwx1_5 : ∀ i : grid1.Coords, EltTy.bits .f32 = 32 ∨ (Rect.block (s := S527000x64) S6200x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6200x64.size a ≤ S527000x64.size a
  hwx2_0 : ∀ i : grid2.Coords, EltTy.bits .f32 = 32 ∨ (Rect.block (s := S527000x64) S6200x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6200x64.size a ≤ S527000x64.size a
  hwx2_1 : ∀ i : grid2.Coords, EltTy.bits .f32 = 32 ∨ (Rect.block (s := S527000x64) S6200x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6200x32.size a ≤ S527000x32.size a
  hwx2_5 : ∀ i : grid2.Coords, EltTy.bits .f32 = 32 ∨ (Rect.block (s := S527000x32) S6200x32.size (cc2_transform_5 i) (hinb2_5 i)).WholeWords (EltTy.packing .f32)

variable [Facts₀]

def dot_S5000x384_S384x64_S5000x64_1_0_0_1_n_n : DotDims S5000x384 S384x64 S5000x64 where
  lhsContracting := [1]
  rhsContracting := [0]
  lhsNonContracting := [0]
  rhsNonContracting := [1]
  lhsBatch := []
  rhsBatch := []
  wf := dot_S5000x384_S384x64_S5000x64_1_0_0_1_n_n_wf
def scatter_S527000_S3000000x1_S3000000_n_0_0_1 : ScatterDims S527000 S3000000x1 S3000000 where
  updateWindowDims := []
  insertedWindowDims := [0]
  scatterDimsToOperandDims := [0]
  indexVectorDim := 1
  wf := scatter_S527000_S3000000x1_S3000000_n_0_0_1_wf
def gather_S527000x64_S3000000x1_S3000000x64_1_0_n_n_0_1_164 : GatherDims S527000x64 S3000000x1 S3000000x64 where
  offsetDims := [1]
  collapsedSliceDims := [0]
  operandBatchingDims := []
  startIndicesBatchingDims := []
  startIndexMap := [0]
  indexVectorDim := 1
  sliceSizes := ![1, 64]
  wf := gather_S527000x64_S3000000x1_S3000000x64_1_0_n_n_0_1_164_wf
def scatter_S527000x64_S3000000x1_S3000000x64_1_0_0_1 : ScatterDims S527000x64 S3000000x1 S3000000x64 where
  updateWindowDims := [1]
  insertedWindowDims := [0]
  scatterDimsToOperandDims := [0]
  indexVectorDim := 1
  wf := scatter_S527000x64_S3000000x1_S3000000x64_1_0_0_1_wf
def dot_S6200x64_S64x64_S6200x64_1_0_0_1_n_n : DotDims S6200x64 S64x64 S6200x64 where
  lhsContracting := [1]
  rhsContracting := [0]
  lhsNonContracting := [0]
  rhsNonContracting := [1]
  lhsBatch := []
  rhsBatch := []
  wf := dot_S6200x64_S64x64_S6200x64_1_0_0_1_n_n_wf
def dot_S6200x64_S64x32_S6200x32_1_0_0_1_n_n : DotDims S6200x64 S64x32 S6200x32 where
  lhsContracting := [1]
  rhsContracting := [0]
  lhsNonContracting := [0]
  rhsNonContracting := [1]
  lhsBatch := []
  rhsBatch := []
  wf := dot_S6200x64_S64x32_S6200x32_1_0_0_1_n_n_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S6200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S6200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S6200x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S6200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S6200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S6200x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S500000x384 : Shape := ⟨2, ![500000, 384]⟩
abbrev S500000 : Shape := ⟨1, ![500000]⟩
abbrev S64x384 : Shape := ⟨2, ![64, 384]⟩
abbrev S64 : Shape := ⟨1, ![64]⟩
abbrev S20000x64 : Shape := ⟨2, ![20000, 64]⟩
abbrev S5000x64 : Shape := ⟨2, ![5000, 64]⟩
abbrev S2000x64 : Shape := ⟨2, ![2000, 64]⟩
abbrev S64x64 : Shape := ⟨2, ![64, 64]⟩
abbrev S32x64 : Shape := ⟨2, ![32, 64]⟩
abbrev S32 : Shape := ⟨1, ![32]⟩
abbrev S384x64 : Shape := ⟨2, ![384, 64]⟩
abbrev S500000x64 : Shape := ⟨2, ![500000, 64]⟩
abbrev S1x64 : Shape := ⟨2, ![1, 64]⟩
abbrev S_ : Shape := ⟨0, ![]⟩
abbrev S527000x64 : Shape := ⟨2, ![527000, 64]⟩
abbrev S3000000 : Shape := ⟨1, ![3000000]⟩
abbrev S3000000x1 : Shape := ⟨2, ![3000000, 1]⟩
abbrev S3000000x64 : Shape := ⟨2, ![3000000, 64]⟩
abbrev S527000 : Shape := ⟨1, ![527000]⟩
abbrev S527000x1 : Shape := ⟨2, ![527000, 1]⟩
abbrev S64x32 : Shape := ⟨2, ![64, 32]⟩
abbrev S527000x32 : Shape := ⟨2, ![527000, 32]⟩
abbrev S1x32 : Shape := ⟨2, ![1, 32]⟩
abbrev S500000x32 : Shape := ⟨2, ![500000, 32]⟩
abbrev S20000x32 : Shape := ⟨2, ![20000, 32]⟩
abbrev S5000x32 : Shape := ⟨2, ![5000, 32]⟩
abbrev S2000x32 : Shape := ⟨2, ![2000, 32]⟩

abbrev nBuf : Space → Nat
  | .hbm => 120
  | .vmem => 0
  | .smem => 0
  | _ => 0

abbrev bufTy : (tb : Table) → Fin (tcTables nBuf tb) → BufTy
  | .hbm, ⟨0, _⟩ => ⟨S500000x384, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S64x384, .f32⟩
  | .hbm, ⟨8, _⟩ => ⟨S64, .f32⟩
  | .hbm, ⟨9, _⟩ => ⟨S20000x64, .f32⟩
  | .hbm, ⟨10, _⟩ => ⟨S5000x64, .f32⟩
  | .hbm, ⟨11, _⟩ => ⟨S2000x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S32x64, .f32⟩
  | .hbm, ⟨16, _⟩ => ⟨S32, .f32⟩
  | .hbm, ⟨17, _⟩ => ⟨S32x64, .f32⟩
  | .hbm, ⟨18, _⟩ => ⟨S384x64, .f32⟩
  | .hbm, ⟨19, _⟩ => ⟨S500000x64, .f32⟩
  | .hbm, ⟨20, _⟩ => ⟨S1x64, .f32⟩
  | .hbm, ⟨21, _⟩ => ⟨S500000x64, .f32⟩
  | .hbm, ⟨22, _⟩ => ⟨S500000x64, .f32⟩
  | .hbm, ⟨23, _⟩ => ⟨S_, .f32⟩
  | .hbm, ⟨24, _⟩ => ⟨S500000x64, .f32⟩
  | .hbm, ⟨25, _⟩ => ⟨S500000x64, .f32⟩
  | .hbm, ⟨26, _⟩ => ⟨S527000x64, .f32⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S3000000, .i32⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S3000000, .i32⟩
  | .hbm, ⟨47, _⟩ => ⟨S_, .i32⟩
  | .hbm, ⟨48, _⟩ => ⟨S3000000, .i32⟩
  | .hbm, ⟨49, _⟩ => ⟨S3000000, .i1⟩
  | .hbm, ⟨50, _⟩ => ⟨S_, .i32⟩
  | .hbm, ⟨51, _⟩ => ⟨S3000000, .i32⟩
  | .hbm, ⟨52, _⟩ => ⟨S3000000, .i32⟩
  | .hbm, ⟨53, _⟩ => ⟨S3000000, .i32⟩
  | .hbm, ⟨54, _⟩ => ⟨S3000000x1, .i32⟩
  | .hbm, ⟨55, _⟩ => ⟨S3000000x64, .f32⟩
  | .hbm, ⟨56, _⟩ => ⟨S_, .f32⟩
  | .hbm, ⟨57, _⟩ => ⟨S527000x64, .f32⟩
  | .hbm, ⟨58, _⟩ => ⟨S3000000x1, .i32⟩
  | .hbm, ⟨59, _⟩ => ⟨S527000x64, .f32⟩
  | .hbm, ⟨60, _⟩ => ⟨S_, .f32⟩
  | .hbm, ⟨61, _⟩ => ⟨S3000000, .f32⟩
  | .hbm, ⟨62, _⟩ => ⟨S_, .f32⟩
  | .hbm, ⟨63, _⟩ => ⟨S527000, .f32⟩
  | .hbm, ⟨64, _⟩ => ⟨S3000000x1, .i32⟩
  | .hbm, ⟨65, _⟩ => ⟨S527000, .f32⟩
  | .hbm, ⟨66, _⟩ => ⟨S_, .f32⟩
  | .hbm, ⟨67, _⟩ => ⟨S527000, .f32⟩
  | .hbm, ⟨68, _⟩ => ⟨S527000, .f32⟩
  | .hbm, ⟨69, _⟩ => ⟨S527000x1, .f32⟩
  | .hbm, ⟨70, _⟩ => ⟨S527000x64, .f32⟩
  | .hbm, ⟨71, _⟩ => ⟨S527000x64, .f32⟩
  | .hbm, ⟨72, _⟩ => ⟨S64x64, .f32⟩
  | .hbm, ⟨73, _⟩ => ⟨S527000x64, .f32⟩
  | .hbm, ⟨74, _⟩ => ⟨S1x64, .f32⟩
  | .hbm, ⟨75, _⟩ => ⟨S527000x64, .f32⟩
  | .hbm, ⟨76, _⟩ => ⟨S527000x64, .f32⟩
  | .hbm, ⟨77, _⟩ => ⟨S64x64, .f32⟩
  | .hbm, ⟨78, _⟩ => ⟨S527000x64, .f32⟩
  | .hbm, ⟨79, _⟩ => ⟨S527000x64, .f32⟩
  | .hbm, ⟨80, _⟩ => ⟨S_, .f32⟩
  | .hbm, ⟨81, _⟩ => ⟨S527000x64, .f32⟩
  | .hbm, ⟨82, _⟩ => ⟨S527000x64, .f32⟩
  | .hbm, ⟨83, _⟩ => ⟨S_, .i32⟩
  | .hbm, ⟨84, _⟩ => ⟨S3000000, .i32⟩
  | .hbm, ⟨85, _⟩ => ⟨S3000000, .i1⟩
  | .hbm, ⟨86, _⟩ => ⟨S_, .i32⟩
  | .hbm, ⟨87, _⟩ => ⟨S3000000, .i32⟩
  | .hbm, ⟨88, _⟩ => ⟨S3000000, .i32⟩
  | .hbm, ⟨89, _⟩ => ⟨S3000000, .i32⟩
  | .hbm, ⟨90, _⟩ => ⟨S3000000x1, .i32⟩
  | .hbm, ⟨91, _⟩ => ⟨S3000000x64, .f32⟩
  | .hbm, ⟨92, _⟩ => ⟨S_, .f32⟩
  | .hbm, ⟨93, _⟩ => ⟨S527000x64, .f32⟩
  | .hbm, ⟨94, _⟩ => ⟨S3000000x1, .i32⟩
  | .hbm, ⟨95, _⟩ => ⟨S527000x64, .f32⟩
  | .hbm, ⟨96, _⟩ => ⟨S_, .f32⟩
  | .hbm, ⟨97, _⟩ => ⟨S3000000, .f32⟩
  | .hbm, ⟨98, _⟩ => ⟨S_, .f32⟩
  | .hbm, ⟨99, _⟩ => ⟨S527000, .f32⟩
  | .hbm, ⟨100, _⟩ => ⟨S3000000x1, .i32⟩
  | .hbm, ⟨101, _⟩ => ⟨S527000, .f32⟩
  | .hbm, ⟨102, _⟩ => ⟨S_, .f32⟩
  | .hbm, ⟨103, _⟩ => ⟨S527000, .f32⟩
  | .hbm, ⟨104, _⟩ => ⟨S527000, .f32⟩
  | .hbm, ⟨105, _⟩ => ⟨S527000x1, .f32⟩
  | .hbm, ⟨106, _⟩ => ⟨S527000x64, .f32⟩
  | .hbm, ⟨107, _⟩ => ⟨S527000x64, .f32⟩
  | .hbm, ⟨108, _⟩ => ⟨S64x32, .f32⟩
  | .hbm, ⟨109, _⟩ => ⟨S527000x32, .f32⟩
  | .hbm, ⟨110, _⟩ => ⟨S1x32, .f32⟩
  | .hbm, ⟨111, _⟩ => ⟨S527000x32, .f32⟩
  | .hbm, ⟨112, _⟩ => ⟨S527000x32, .f32⟩
  | .hbm, ⟨113, _⟩ => ⟨S64x32, .f32⟩
  | .hbm, ⟨114, _⟩ => ⟨S527000x32, .f32⟩
  | .hbm, ⟨115, _⟩ => ⟨S527000x32, .f32⟩
  | .hbm, ⟨116, _⟩ => ⟨S500000x32, .f32⟩
  | .hbm, ⟨117, _⟩ => ⟨S20000x32, .f32⟩
  | .hbm, ⟨118, _⟩ => ⟨S5000x32, .f32⟩
  | .hbm, ⟨119, _⟩ => ⟨S2000x32, .f32⟩
  | _, _ => ⟨S500000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call1_cst : Ref sig .tc := ⟨.hbm, 80, rfl⟩
abbrev main_call1_v0 : Ref sig .tc := ⟨.hbm, 81, rfl⟩
abbrev main_v48 : Ref sig .tc := ⟨.hbm, 82, rfl⟩
abbrev main_c_10 : Ref sig .tc := ⟨.hbm, 83, rfl⟩
abbrev main_v49 : Ref sig .tc := ⟨.hbm, 84, rfl⟩
abbrev main_v50 : Ref sig .tc := ⟨.hbm, 85, rfl⟩
abbrev main_c_11 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_cst_14 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_15 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩

abbrev nD : Nat := 1
abbrev τ : Topo := Topo.v7x

variable {F : FTy → Type} [FloatOps F]

class Facts₀ : Prop where
  transposes_S64x384_S384x64_1_0 : S64x384.Transposes [1, 0] S384x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  concatenates_S500000x64_S20000x64_S5000x64_S2000x64_S527000x64_d0 : Shape.Concatenates [S500000x64, S20000x64, S5000x64, S2000x64] S527000x64 0
  bcast_S_S500000 : S_.BroadcastsInDim S500000 (![] : Fin 0 → Fin S500000.rank)
  concatenates_S500000_S500000_S500000_S500000_S500000_S500000_S3000000_d0 : Shape.Concatenates [S500000, S500000, S500000, S500000, S500000, S500000] S3000000 0
  bcast_S_S3000000 : S_.BroadcastsInDim S3000000 (![] : Fin 0 → Fin S3000000.rank)
  bcast_S3000000_S3000000x1_0 : S3000000.BroadcastsInDim S3000000x1 (![0] : Fin 1 → Fin S3000000x1.rank)
  bcast_S_S527000x64 : S_.BroadcastsInDim S527000x64 (![] : Fin 0 → Fin S527000x64.rank)
  bcast_S_S527000 : S_.BroadcastsInDim S527000 (![] : Fin 0 → Fin S527000.rank)
  bcast_S527000_S527000x1_0 : S527000.BroadcastsInDim S527000x1 (![0] : Fin 1 → Fin S527000x1.rank)
  bcast_S527000x1_S527000x64_0_1 : S527000x1.BroadcastsInDim S527000x64 (![0, 1] : Fin 2 → Fin S527000x64.rank)
  transposes_S64x64_S64x64_1_0 : S64x64.Transposes [1, 0] S64x64
  bcast_S1x64_S527000x64_0_1 : S1x64.BroadcastsInDim S527000x64 (![0, 1] : Fin 2 → Fin S527000x64.rank)
  transposes_S32x64_S64x32_1_0 : S32x64.Transposes [1, 0] S64x32
  bcast_S32_S1x32_1 : S32.BroadcastsInDim S1x32 (![1] : Fin 1 → Fin S1x32.rank)
  bcast_S1x32_S527000x32_0_1 : S1x32.BroadcastsInDim S527000x32 (![0, 1] : Fin 2 → Fin S527000x32.rank)
  slices_S527000x32_S500000x32_0_0 : S527000x32.Slices ![0, 0] S500000x32
  slices_S527000x32_S20000x32_500000_0 : S527000x32.Slices ![500000, 0] S20000x32
  slices_S527000x32_S5000x32_520000_0 : S527000x32.Slices ![520000, 0] S5000x32
  slices_S527000x32_S2000x32_525000_0 : S527000x32.Slices ![525000, 0] S2000x32
  dot_S500000x384_S384x64_S500000x64_1_0_0_1_n_n_wf : DotDims.WF S500000x384 S384x64 S500000x64 [1] [0] [0] [1] [] []
  gather_S527000x64_S3000000x1_S3000000x64_1_0_n_n_0_1_164_wf : GatherDims.WF S527000x64 S3000000x1 S3000000x64 [1] [0] [] [0] [] 1 ![1, 64]
  scatter_S527000x64_S3000000x1_S3000000x64_1_0_0_1_wf : ScatterDims.WF S527000x64 S3000000x1 S3000000x64 [1] [0] [0] 1
  scatter_S527000_S3000000x1_S3000000_n_0_0_1_wf : ScatterDims.WF S527000 S3000000x1 S3000000 [] [0] [0] 1
  dot_S527000x64_S64x64_S527000x64_1_0_0_1_n_n_wf : DotDims.WF S527000x64 S64x64 S527000x64 [1] [0] [0] [1] [] []
  dot_S527000x64_S64x32_S527000x32_1_0_0_1_n_n_wf : DotDims.WF S527000x64 S64x32 S527000x32 [1] [0] [0] [1] [] []

variable [Facts₀]

def dot_S500000x384_S384x64_S500000x64_1_0_0_1_n_n : DotDims S500000x384 S384x64 S500000x64 where
  lhsContracting := [1]
  rhsContracting := [0]
  lhsNonContracting := [0]
  rhsNonContracting := [1]
  lhsBatch := []
  rhsBatch := []
  wf := dot_S500000x384_S384x64_S500000x64_1_0_0_1_n_n_wf
def gather_S527000x64_S3000000x1_S3000000x64_1_0_n_n_0_1_164 : GatherDims S527000x64 S3000000x1 S3000000x64 where
  offsetDims := [1]
  collapsedSliceDims := [0]
  operandBatchingDims := []
  startIndicesBatchingDims := []
  startIndexMap := [0]
  indexVectorDim := 1
  sliceSizes := ![1, 64]
  wf := gather_S527000x64_S3000000x1_S3000000x64_1_0_n_n_0_1_164_wf
def scatter_S527000x64_S3000000x1_S3000000x64_1_0_0_1 : ScatterDims S527000x64 S3000000x1 S3000000x64 where
  updateWindowDims := [1]
  insertedWindowDims := [0]
  scatterDimsToOperandDims := [0]
  indexVectorDim := 1
  wf := scatter_S527000x64_S3000000x1_S3000000x64_1_0_0_1_wf
def scatter_S527000_S3000000x1_S3000000_n_0_0_1 : ScatterDims S527000 S3000000x1 S3000000 where
  updateWindowDims := []
  insertedWindowDims := [0]
  scatterDimsToOperandDims := [0]
  indexVectorDim := 1
  wf := scatter_S527000_S3000000x1_S3000000_n_0_0_1_wf
def dot_S527000x64_S64x64_S527000x64_1_0_0_1_n_n : DotDims S527000x64 S64x64 S527000x64 where
  lhsContracting := [1]
  rhsContracting := [0]
  lhsNonContracting := [0]
  rhsNonContracting := [1]
  lhsBatch := []
  rhsBatch := []
  wf := dot_S527000x64_S64x64_S527000x64_1_0_0_1_n_n_wf
def dot_S527000x64_S64x32_S527000x32_1_0_0_1_n_n : DotDims S527000x64 S64x32 S527000x32 where
  lhsContracting := [1]
  rhsContracting := [0]
  lhsNonContracting := [0]
  rhsNonContracting := [1]
  lhsBatch := []
  rhsBatch := []
  wf := dot_S527000x64_S64x32_S527000x32_1_0_0_1_n_n_wf

class Facts : Prop extends Facts₀ where

variable [Facts]
-- ==== Proof.KbProject.lean ====
/-
  The node projection, first of the program's three kernel regions: a grid of 100 points over the rows of the
  feature matrix. At point t the body sees rows 5000·t … 5000·t+4999 of the features (window 0), the whole transposed
  weight (window 1) and the bias row (window 2), and stores the whole 5000 × 64 block of window 3:
  max (features · weight + bias, 0). Here: what each window's staging buffer holds when the body runs (its block of
  the array the region finds), what the body leaves in the output's buffer as one function of the three input
  blocks, the body's triple by symbolic execution, and the pipeline's proof data with its body obligation — all at
  a parameter V, the contents of the TensorCore's buffers when the region is entered.
-/
import proofs.«167892_j12343736009221_1_alg».proof.Proof.Gen.Kernel.Launch
import proofs.«167892_j12343736009221_1_alg».proof.Proof.Gen.Kernel.Skeleton
import proofs.«167892_j12343736009221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Project

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block of rows, fetched there or not. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight's staging buffer holds the whole weight at every point: its block index never moves. -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's staging buffer likewise. -/
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store take a whole buffer -/

abbrev rx : Rect S5000x384 := Rect.unit (s := S5000x384) ![0, 0] S5000x384.size inb_S5000x384_S5000x384_0_0
abbrev rw_ : Rect S384x64 := Rect.unit (s := S384x64) ![0, 0] S384x64.size inb_S384x64_S384x64_0_0
abbrev rb : Rect S1x64 := Rect.unit (s := S1x64) ![0, 0] S1x64.size inb_S1x64_S1x64_0_0
abbrev ro : Rect S5000x64 := Rect.unit (s := S5000x64) ![0, 0] S5000x64.size inb_S5000x64_S5000x64_0_0

/-- What the body leaves in the output's staging buffer, from the three input blocks: its one store. -/
def out (x : Vec F S5000x384 .f32) (w : Vec F S384x64 .f32) (b : Vec F S1x64 .f32) : Vec F S5000x64 .f32 :=
  View.canon [⟨ro, k0_pay1 (View.ld x rx) (View.ld w rw_) (View.ld b rb)⟩]

/-- The one store covers the buffer. -/
theorem cover (p0 : Vec F S5000x64 .f32) (y : S5000x64.Idx) :
    ∃ pc ∈ ([⟨ro, p0⟩] : List (View.Piece (Elt F) S5000x64 .f32)), y ∈ pc.1.set :=
  View.cover_of_tiled [⟨ro, p0⟩] S5000x64.size (by rfl) y

set_option maxHeartbeats 1000000 in
/-- The body on whole staging memrefs, the inputs' at contents x, w, b and the output's at anything, runs to its
    return leaving the inputs as they were and the output's buffer at `out x w b`. -/
theorem sound_kernel (c : Dev nD) (E : Set ℕ) (i : grid0.Coords)
    (arg0 : Memref sig .tc .vmem S5000x384 .f32) (harg0 : arg0.IsWhole) (arg1 : Memref sig .tc .vmem S384x64 .f32) (harg1 : arg1.IsWhole)
    (arg2 : Memref sig .tc .vmem S1x64 .f32) (harg2 : arg2.IsWhole) (arg3 : Memref sig .tc .vmem S5000x64 .f32) (harg3 : arg3.IsWhole)
    (x : Vec F S5000x384 .f32) (w : Vec F S384x64 .f32) (b : Vec F S1x64 .f32) (K : PUnit → sProp 𝕄) :
    iprop(owns (c : Thread nD τ) arg0 fullShare x ∗ owns (c : Thread nD τ) arg1 fullShare w ∗ owns (c : Thread nD τ) arg2 fullShare b
        ∗ (∃ d, owns (c : Thread nD τ) arg3 fullShare d)
        ∗ (iprop(owns (c : Thread nD τ) arg0 fullShare x ∗ owns (c : Thread nD τ) arg1 fullShare w ∗ owns (c : Thread nD τ) arg2 fullShare b
            ∗ owns (c : Thread nD τ) arg3 fullShare (out x w b)) -∗ K ⟨⟩))
      ⊢ wp frame (wpE (defs₀ (F := F)) Variants.none c none) E (cc0__project_kernel i arg0 harg0 arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The region's arrays as it finds them; after the body at point t each input's buffer at its block and the
    output's at `out` of the three blocks; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_o (c : Dev nD) (t : Fin cfg0.N) : (dat V c).after 3 t = out (blk V c 0 t) (blk V c 1 t) (blk V c 2 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d
theorem before_b (c : Dev nD) (t : Fin cfg0.N) (d) : (dat V c).before 2 t d = blk V c 2 t :=
  before_b_of V (dat V c) (A_eq V c 2) (after_b V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.Project

end
-- ==== Proof.KbSage1.lean ====
/-
  LAYER 1 of the two graph-convolution layers, its dense part: kernel region 1 of the program's three, a grid of 85 points
  over the 527000 node rows. At point t the body sees rows 6200·t … 6200·t+6199 of the mean-aggregated neighbours
  (window 0) and of the node features (window 1), the two whole transposed weights (windows 2 and 3) and the bias row
  (window 4), and stores the whole block of window 5: (agg · Wl + x · Wr) + bias, in layer 1 clamped below at 0. Here: what each window's
  staging buffer holds when the body runs, what the body leaves in the output's buffer as one function of the five
  input blocks, the body's triple by symbolic execution, and the pipeline's proof data with its body obligation —
  all at a parameter V, the contents of the TensorCore's buffers when the region is entered.
-/
import proofs.«167892_j12343736009221_1_alg».proof.Proof.Gen.Kernel.Launch
import proofs.«167892_j12343736009221_1_alg».proof.Proof.Gen.Kernel.Skeleton
import proofs.«167892_j12343736009221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Sage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the shapes of this layer's windows (parse-time names only): the row blocks of the two node arrays, the two weights,
-- the bias row, the output block
local notation "Srow" => S6200x64
local notation "Swt" => S64x64
local notation "Sbias" => S1x64
local notation "Sout" => S6200x64
local notation "inbRow" => inb_S6200x64_S6200x64_0_0
local notation "inbWt" => inb_S64x64_S64x64_0_0
local notation "inbBias" => inb_S1x64_S1x64_0_0
local notation "inbOut" => inb_S6200x64_S6200x64_0_0

/-- Window w's block at point t of the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block, fetched there or not (a row window moves every point,
    a weight's or the bias's index never moves): one statement per input window. -/
theorem before_0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store take a whole buffer -/

abbrev rrow : Rect Srow := Rect.unit (s := Srow) ![0, 0] (Shape.size Srow) inbRow
abbrev rwt : Rect Swt := Rect.unit (s := Swt) ![0, 0] (Shape.size Swt) inbWt
abbrev rb : Rect Sbias := Rect.unit (s := Sbias) ![0, 0] (Shape.size Sbias) inbBias
abbrev ro : Rect Sout := Rect.unit (s := Sout) ![0, 0] (Shape.size Sout) inbOut

/-- What the body leaves in the output's staging buffer, from the five input blocks: its one store. -/
def out (a x : Vec F Srow .f32) (wl wr : Vec F Swt .f32) (b : Vec F Sbias .f32) : Vec F Sout .f32 :=
  View.canon [⟨ro, k1_pay1 (View.ld a rrow) (View.ld x rrow) (View.ld wl rwt) (View.ld wr rwt) (View.ld b rb)⟩]

/-- The one store covers the buffer. -/
theorem cover (p0 : Vec F Sout .f32) (y : Shape.Idx Sout) :
    ∃ pc ∈ ([⟨ro, p0⟩] : List (View.Piece (Elt F) Sout .f32)), y ∈ pc.1.set :=
  View.cover_of_tiled [⟨ro, p0⟩] (Shape.size Sout) (by rfl) y

set_option maxHeartbeats 1000000 in
/-- The body on whole staging memrefs, the inputs' at contents a, x, wl, wr, b and the output's at anything, runs to
    its return leaving the inputs as they were and the output's buffer at `out a x wl wr b`. -/
theorem sound_kernel (c : Dev nD) (E : Set ℕ) (i : grid1.Coords)
    (arg0 : Memref sig .tc .vmem Srow .f32) (harg0 : arg0.IsWhole) (arg1 : Memref sig .tc .vmem Srow .f32) (harg1 : arg1.IsWhole)
    (arg2 : Memref sig .tc .vmem Swt .f32) (harg2 : arg2.IsWhole) (arg3 : Memref sig .tc .vmem Swt .f32) (harg3 : arg3.IsWhole)
    (arg4 : Memref sig .tc .vmem Sbias .f32) (harg4 : arg4.IsWhole) (arg5 : Memref sig .tc .vmem Sout .f32) (harg5 : arg5.IsWhole)
    (a x : Vec F Srow .f32) (wl wr : Vec F Swt .f32) (b : Vec F Sbias .f32) (K : PUnit → sProp 𝕄) :
    iprop(owns (c : Thread nD τ) arg0 fullShare a ∗ owns (c : Thread nD τ) arg1 fullShare x ∗ owns (c : Thread nD τ) arg2 fullShare wl
        ∗ owns (c : Thread nD τ) arg3 fullShare wr ∗ owns (c : Thread nD τ) arg4 fullShare b
        ∗ (∃ d, owns (c : Thread nD τ) arg5 fullShare d)
        ∗ (iprop(owns (c : Thread nD τ) arg0 fullShare a ∗ owns (c : Thread nD τ) arg1 fullShare x ∗ owns (c : Thread nD τ) arg2 fullShare wl
            ∗ owns (c : Thread nD τ) arg3 fullShare wr ∗ owns (c : Thread nD τ) arg4 fullShare b
            ∗ owns (c : Thread nD τ) arg5 fullShare (out a x wl wr b)) -∗ K ⟨⟩))
      ⊢ wp frame (wpE (defs₀ (F := F)) Variants.none c none) E (cc1__sage_linear_kernel i arg0 harg0 arg1 harg1 arg2 harg2 arg3 harg3 arg4 harg4 arg5 harg5) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The region's arrays as it finds them; after the body at point t each input's buffer at its block and the
    output's at `out` of the five blocks; the scoped rest and the generator register untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_o (c : Dev nD) (t : Fin cfg1.N) :
    (dat V c).after 5 t = out (blk V c 0 t) (blk V c 1 t) (blk V c 2 t) (blk V c 3 t) (blk V c 4 t) := by dsimp only [dat]

theorem before_0 (c : Dev nD) (t : Fin cfg1.N) (d) : (dat V c).before 0 t d = blk V c 0 t :=
  before_0_of V (dat V c) (A_eq V c 0) (after_0 V c) t d
theorem before_1 (c : Dev nD) (t : Fin cfg1.N) (d) : (dat V c).before 1 t d = blk V c 1 t :=
  before_1_of V (dat V c) (A_eq V c 1) (after_1 V c) t d
theorem before_2 (c : Dev nD) (t : Fin cfg1.N) (d) : (dat V c).before 2 t d = blk V c 2 t :=
  before_2_of V (dat V c) (A_eq V c 2) (after_2 V c) t d
theorem before_3 (c : Dev nD) (t : Fin cfg1.N) (d) : (dat V c).before 3 t d = blk V c 3 t :=
  before_3_of V (dat V c) (A_eq V c 3) (after_3 V c) t d
theorem before_4 (c : Dev nD) (t : Fin cfg1.N) (d) : (dat V c).before 4 t d = blk V c 4 t :=
  before_4_of V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_o]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.Kernel.Sage1

end
-- ==== Proof.KbSage2.lean ====
/-
  LAYER 2 of the two graph-convolution layers, its dense part: kernel region 2 of the program's three, a grid of 85 points
  over the 527000 node rows. At point t the body sees rows 6200·t … 6200·t+6199 of the mean-aggregated neighbours
  (window 0) and of the node features (window 1), the two whole transposed weights (windows 2 and 3) and the bias row
  (window 4), and stores the whole block of window 5: (agg · Wl + x · Wr) + bias, in layer 2 not clamped. Here: what each window's
  staging buffer holds when the body runs, what the body leaves in the output's buffer as one function of the five
  input blocks, the body's triple by symbolic execution, and the pipeline's proof data with its body obligation —
  all at a parameter V, the contents of the TensorCore's buffers when the region is entered.
-/
import proofs.«167892_j12343736009221_1_alg».proof.Proof.Gen.Kernel.Launch
import proofs.«167892_j12343736009221_1_alg».proof.Proof.Gen.Kernel.Skeleton
import proofs.«167892_j12343736009221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Sage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the shapes of this layer's windows (parse-time names only): the row blocks of the two node arrays, the two weights,
-- the bias row, the output block
local notation "Srow" => S6200x64
local notation "Swt" => S64x32
local notation "Sbias" => S1x32
local notation "Sout" => S6200x32
local notation "inbRow" => inb_S6200x64_S6200x64_0_0
local notation "inbWt" => inb_S64x32_S64x32_0_0
local notation "inbBias" => inb_S1x32_S1x32_0_0
local notation "inbOut" => inb_S6200x32_S6200x32_0_0

/-- Window w's block at point t of the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block, fetched there or not (a row window moves every point,
    a weight's or the bias's index never moves): one statement per input window. -/
theorem before_0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store take a whole buffer -/

abbrev rrow : Rect Srow := Rect.unit (s := Srow) ![0, 0] (Shape.size Srow) inbRow
abbrev rwt : Rect Swt := Rect.unit (s := Swt) ![0, 0] (Shape.size Swt) inbWt
abbrev rb : Rect Sbias := Rect.unit (s := Sbias) ![0, 0] (Shape.size Sbias) inbBias
abbrev ro : Rect Sout := Rect.unit (s := Sout) ![0, 0] (Shape.size Sout) inbOut

/-- What the body leaves in the output's staging buffer, from the five input blocks: its one store. -/
def out (a x : Vec F Srow .f32) (wl wr : Vec F Swt .f32) (b : Vec F Sbias .f32) : Vec F Sout .f32 :=
  View.canon [⟨ro, k2_pay1 (View.ld a rrow) (View.ld x rrow) (View.ld wl rwt) (View.ld wr rwt) (View.ld b rb)⟩]

/-- The one store covers the buffer. -/
theorem cover (p0 : Vec F Sout .f32) (y : Shape.Idx Sout) :
    ∃ pc ∈ ([⟨ro, p0⟩] : List (View.Piece (Elt F) Sout .f32)), y ∈ pc.1.set :=
  View.cover_of_tiled [⟨ro, p0⟩] (Shape.size Sout) (by rfl) y

set_option maxHeartbeats 1000000 in
/-- The body on whole staging memrefs, the inputs' at contents a, x, wl, wr, b and the output's at anything, runs to
    its return leaving the inputs as they were and the output's buffer at `out a x wl wr b`. -/
theorem sound_kernel (c : Dev nD) (E : Set ℕ) (i : grid2.Coords)
    (arg0 : Memref sig .tc .vmem Srow .f32) (harg0 : arg0.IsWhole) (arg1 : Memref sig .tc .vmem Srow .f32) (harg1 : arg1.IsWhole)
    (arg2 : Memref sig .tc .vmem Swt .f32) (harg2 : arg2.IsWhole) (arg3 : Memref sig .tc .vmem Swt .f32) (harg3 : arg3.IsWhole)
    (arg4 : Memref sig .tc .vmem Sbias .f32) (harg4 : arg4.IsWhole) (arg5 : Memref sig .tc .vmem Sout .f32) (harg5 : arg5.IsWhole)
    (a x : Vec F Srow .f32) (wl wr : Vec F Swt .f32) (b : Vec F Sbias .f32) (K : PUnit → sProp 𝕄) :
    iprop(owns (c : Thread nD τ) arg0 fullShare a ∗ owns (c : Thread nD τ) arg1 fullShare x ∗ owns (c : Thread nD τ) arg2 fullShare wl
        ∗ owns (c : Thread nD τ) arg3 fullShare wr ∗ owns (c : Thread nD τ) arg4 fullShare b
        ∗ (∃ d, owns (c : Thread nD τ) arg5 fullShare d)
        ∗ (iprop(owns (c : Thread nD τ) arg0 fullShare a ∗ owns (c : Thread nD τ) arg1 fullShare x ∗ owns (c : Thread nD τ) arg2 fullShare wl
            ∗ owns (c : Thread nD τ) arg3 fullShare wr ∗ owns (c : Thread nD τ) arg4 fullShare b
            ∗ owns (c : Thread nD τ) arg5 fullShare (out a x wl wr b)) -∗ K ⟨⟩))
      ⊢ wp frame (wpE (defs₀ (F := F)) Variants.none c none) E (cc2__sage_linear_kernel i arg0 harg0 arg1 harg1 arg2 harg2 arg3 harg3 arg4 harg4 arg5 harg5) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The region's arrays as it finds them; after the body at point t each input's buffer at its block and the
    output's at `out` of the five blocks; the scoped rest and the generator register untouched; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_o (c : Dev nD) (t : Fin cfg2.N) :
    (dat V c).after 5 t = out (blk V c 0 t) (blk V c 1 t) (blk V c 2 t) (blk V c 3 t) (blk V c 4 t) := by dsimp only [dat]

theorem before_0 (c : Dev nD) (t : Fin cfg2.N) (d) : (dat V c).before 0 t d = blk V c 0 t :=
  before_0_of V (dat V c) (A_eq V c 0) (after_0 V c) t d
theorem before_1 (c : Dev nD) (t : Fin cfg2.N) (d) : (dat V c).before 1 t d = blk V c 1 t :=
  before_1_of V (dat V c) (A_eq V c 1) (after_1 V c) t d
theorem before_2 (c : Dev nD) (t : Fin cfg2.N) (d) : (dat V c).before 2 t d = blk V c 2 t :=
  before_2_of V (dat V c) (A_eq V c 2) (after_2 V c) t d
theorem before_3 (c : Dev nD) (t : Fin cfg2.N) (d) : (dat V c).before 3 t d = blk V c 3 t :=
  before_3_of V (dat V c) (A_eq V c 3) (after_3 V c) t d
theorem before_4 (c : Dev nD) (t : Fin cfg2.N) (d) : (dat V c).before 4 t d = blk V c 4 t :=
  before_4_of V (dat V c) (A_eq V c 4) (after_4 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' buffers hold their blocks, so `sound_kernel` applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_o]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.Kernel.Sage2

end
-- ==== Proof.KbRun.lean ====
/-
  The whole run of the program: @main is seven items — host operations, the projection region, host operations
  (the concatenation of the node features, the edge lists, the neighbour counts, gather and scatter-add of layer 1),
  the first layer's region, host operations (gather and scatter-add of layer 2), the second layer's region, and the
  four slices. The contents of every unscoped buffer are followed through the items as a fold from the launch
  memory: a host stretch applies its operations, a region leaves its output array at the blocks its grid points
  wrote back and everything else as it found it. Each region is a segment of the launch theorem for a list of
  segments, its body obligation the one proved with the region; the theorem's conclusion is read against the final
  memory at every unscoped buffer, so it serves the frame (an argument's buffer walks back through the fold to the
  launch memory: nothing writes it) and the values (the four results are the last stretch's slices).
-/
import proofs.«167892_j12343736009221_1_alg».proof.Proof.Gen.Kernel.Regions
import proofs.«167892_j12343736009221_1_alg».proof.Proof.KbProject
import proofs.«167892_j12343736009221_1_alg».proof.Proof.KbSage1
import proofs.«167892_j12343736009221_1_alg».proof.Proof.KbSage2

-- membership in a rectangle of these extents recurses once per coordinate of the long axis
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev X0 : Dev nD → Valuation τ sig (Elt F) := fun c b => m (c, b)
/-- After the first host stretch (the transposed projection weight and the bias as a row). -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b

/-- At region 0's exit: its arrays at what the pipeline leaves (an input as entered, the output's blocks written
    back one by one), every other buffer as entered. -/
def X2 (c : Dev nD) : Valuation τ sig (Elt F) :=
  Pipeline.withArrays spec0 c (X1 m c) fun w => (Project.dat (Y1 m) c).arrAt w cfg0.N
theorem X2_arr (c : Dev nD) (w : Fin cfg0.W) :
    X2 m c (Proc.devRef .tc (Pipeline.arrRef spec0 w)) = (Project.dat (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- The same read at the TensorCore's references. -/
abbrev Y2 : (c : Dev nD) → (b : Ref sig .tc) → Buf (Elt F) ((c : Thread nD τ).loc b) := fun c b => X2 m c b
theorem left_arr0 (c : Dev nD) (w : Fin cfg0.W) : (Project.dat (Y1 m) c).arrAt w cfg0.N = Y2 m c (Pipeline.arrRef spec0 w) :=
  (X2_arr m c w).symm
theorem left_rest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)

/-- After the second host stretch. -/
abbrev X3 : Dev nD → Valuation τ sig (Elt F) := fun c => StableHlo.after hostOps1 (X2 m c)
abbrev Y3 : (c : Dev nD) → (b : Ref sig .tc) → Buf (Elt F) ((c : Thread nD τ).loc b) := fun c b => X3 m c b

/-- At region 1's exit: its arrays at what the pipeline leaves (an input as entered, the output's blocks written
    back one by one), every other buffer as entered. -/
def X4 (c : Dev nD) : Valuation τ sig (Elt F) :=
  Pipeline.withArrays spec1 c (X3 m c) fun w => (Sage1.dat (Y3 m) c).arrAt w cfg1.N
theorem X4_arr (c : Dev nD) (w : Fin cfg1.W) :
    X4 m c (Proc.devRef .tc (Pipeline.arrRef spec1 w)) = (Sage1.dat (Y3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
/-- The same read at the TensorCore's references. -/
abbrev Y4 : (c : Dev nD) → (b : Ref sig .tc) → Buf (Elt F) ((c : Thread nD τ).loc b) := fun c b => X4 m c b
theorem left_arr1 (c : Dev nD) (w : Fin cfg1.W) : (Sage1.dat (Y3 m) c).arrAt w cfg1.N = Y4 m c (Pipeline.arrRef spec1 w) :=
  (X4_arr m c w).symm
theorem left_rest1 (c : Dev nD) : ∀ b, b ∉ Finset.univ.image (Pipeline.arrRef spec1) → Y4 m c b = Y3 m c b :=
  fun b hb => X4_of_ne m c b fun w e => hb (Finset.mem_image.mpr ⟨w, Finset.mem_univ _, e⟩)

/-- After the third host stretch. -/
abbrev X5 : Dev nD → Valuation τ sig (Elt F) := fun c => StableHlo.after hostOps2 (X4 m c)
abbrev Y5 : (c : Dev nD) → (b : Ref sig .tc) → Buf (Elt F) ((c : Thread nD τ).loc b) := fun c b => X5 m c b

/-- At region 2's exit: its arrays at what the pipeline leaves (an input as entered, the output's blocks written
    back one by one), every other buffer as entered. -/
def X6 (c : Dev nD) : Valuation τ sig (Elt F) :=
  Pipeline.withArrays spec2 c (X5 m c) fun w => (Sage2.dat (Y5 m) c).arrAt w cfg2.N
theorem X6_arr (c : Dev nD) (w : Fin cfg2.W) :
    X6 m c (Proc.devRef .tc (Pipeline.arrRef spec2 w)) = (Sage2.dat (Y5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
/-- The same read at the TensorCore's references. -/
abbrev Y6 : (c : Dev nD) → (b : Ref sig .tc) → Buf (Elt F) ((c : Thread nD τ).loc b) := fun c b => X6 m c b
theorem left_arr2 (c : Dev nD) (w : Fin cfg2.W) : (Sage2.dat (Y5 m) c).arrAt w cfg2.N = Y6 m c (Pipeline.arrRef spec2 w) :=
  (X6_arr m c w).symm
theorem left_rest2 (c : Dev nD) : ∀ b, b ∉ Finset.univ.image (Pipeline.arrRef spec2) → Y6 m c b = Y5 m c b :=
  fun b hb => X6_of_ne m c b fun w e => hb (Finset.mem_image.mpr ⟨w, Finset.mem_univ _, e⟩)

/-- After the last host stretch (the four slices): the contents the program ends with. -/
abbrev X7 : Dev nD → Valuation τ sig (Elt F) := fun c => StableHlo.after hostOps3 (X6 m c)

/-! ## A region changes only its output array -/

/-- The projection region leaves every buffer but its result as it found it: an input window's array is put back as
    entered, a buffer that is no window's array is not touched. -/
theorem X2_keep (c : Dev nD) (b : Ref sig .tc) (hb : b ≠ main_v2) : X2 m c (Proc.devRef .tc b) = X1 m c (Proc.devRef .tc b) := by
  by_cases h : ∃ w, Pipeline.arrRef spec0 w = b
  · obtain ⟨w, rfl⟩ := h
    rw [X2_arr]
    fin_cases w
    · exact ((Project.dat (Y1 m) c).arrAt_in 0 rfl _).trans (Project.A_eq (Y1 m) c 0)
    · exact ((Project.dat (Y1 m) c).arrAt_in 1 rfl _).trans (Project.A_eq (Y1 m) c 1)
    · exact ((Project.dat (Y1 m) c).arrAt_in 2 rfl _).trans (Project.A_eq (Y1 m) c 2)
    · exact absurd rfl hb
  · exact X2_of_ne m c b fun w e => h ⟨w, e⟩
theorem X4_keep (c : Dev nD) (b : Ref sig .tc) (hb : b ≠ main_v42) : X4 m c (Proc.devRef .tc b) = X3 m c (Proc.devRef .tc b) := by
  by_cases h : ∃ w, Pipeline.arrRef spec1 w = b
  · obtain ⟨w, rfl⟩ := h
    rw [X4_arr]
    fin_cases w
    · exact ((Sage1.dat (Y3 m) c).arrAt_in 0 rfl _).trans (Sage1.A_eq (Y3 m) c 0)
    · exact ((Sage1.dat (Y3 m) c).arrAt_in 1 rfl _).trans (Sage1.A_eq (Y3 m) c 1)
    · exact ((Sage1.dat (Y3 m) c).arrAt_in 2 rfl _).trans (Sage1.A_eq (Y3 m) c 2)
    · exact ((Sage1.dat (Y3 m) c).arrAt_in 3 rfl _).trans (Sage1.A_eq (Y3 m) c 3)
    · exact ((Sage1.dat (Y3 m) c).arrAt_in 4 rfl _).trans (Sage1.A_eq (Y3 m) c 4)
    · exact absurd rfl hb
  · exact X4_of_ne m c b fun w e => h ⟨w, e⟩
theorem X6_keep (c : Dev nD) (b : Ref sig .tc) (hb : b ≠ main_v59) : X6 m c (Proc.devRef .tc b) = X5 m c (Proc.devRef .tc b) := by
  by_cases h : ∃ w, Pipeline.arrRef spec2 w = b
  · obtain ⟨w, rfl⟩ := h
    rw [X6_arr]
    fin_cases w
    · exact ((Sage2.dat (Y5 m) c).arrAt_in 0 rfl _).trans (Sage2.A_eq (Y5 m) c 0)
    · exact ((Sage2.dat (Y5 m) c).arrAt_in 1 rfl _).trans (Sage2.A_eq (Y5 m) c 1)
    · exact ((Sage2.dat (Y5 m) c).arrAt_in 2 rfl _).trans (Sage2.A_eq (Y5 m) c 2)
    · exact ((Sage2.dat (Y5 m) c).arrAt_in 3 rfl _).trans (Sage2.A_eq (Y5 m) c 3)
    · exact ((Sage2.dat (Y5 m) c).arrAt_in 4 rfl _).trans (Sage2.A_eq (Y5 m) c 4)
    · exact absurd rfl hb
  · exact X6_of_ne m c b fun w e => h ⟨w, e⟩

/-- A buffer that no host operation writes and that is no region's result ends as launched. -/
theorem X7_keep (c : Dev nD) (b : Ref sig .tc) (h0 : b ∉ hostOps0_W) (h1 : b ≠ main_v2) (h2 : b ∉ hostOps1_W) (h3 : b ≠ main_v42)
    (h4 : b ∉ hostOps2_W) (h5 : b ≠ main_v59) (h6 : b ∉ hostOps3_W) : X7 m c (Proc.devRef .tc b) = m ((c : Thread nD τ).loc b) :=
  (StableHlo.after_of_writes_sub hostOps3 _ hostOps3_writes h6).trans <| (X6_keep m c b h5).trans <|
  (StableHlo.after_of_writes_sub hostOps2 _ hostOps2_writes h4).trans <| (X4_keep m c b h3).trans <|
  (StableHlo.after_of_writes_sub hostOps1 _ hostOps1_writes h2).trans <| (X2_keep m c b h1).trans <|
  (StableHlo.after_of_writes_sub hostOps0 _ hostOps0_writes h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Project.dat (Y1 m) c
  | ⟨1, _⟩ => fun c => Sage1.dat (Y3 m) c
  | ⟨2, _⟩ => fun c => Sage2.dat (Y5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- applying a library lemma stated over the pinned configuration unifies only when unification may unfold plain
-- definitions in a metavariable's type
set_option backward.isDefEq.respectTransparency.types false in
/-- Kernel region 0 over the thread state: entered with every unscoped buffer at `X1`, left with them at `X2`.
    Its arrays are split out of the unscoped buffers and put back at the exit contents; the generator register goes
    into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (Y1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (left_arr0 m c) (left_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- Kernel region 1 over the thread state: entered with every unscoped buffer at `X3`, left with them at `X4`.
    Its arrays are split out of the unscoped buffers and put back at the exit contents; the generator register goes
    into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (Y3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (left_arr1 m c) (left_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- Kernel region 2 over the thread state: entered with every unscoped buffer at `X5`, left with them at `X6`.
    Its arrays are split out of the unscoped buffers and put back at the exit contents; the generator register goes
    into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Sage2.body_obligation (Y5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (left_arr2 m c) (left_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)) ]
/-- @main is the run of the segments. -/
theorem main_run (c : Dev nD) : main (F := F) c = Pipeline.Seg.run (segs m) := (main_chain c).trans (by chain_rfl)

/-- The last thread state without the dues: every unscoped buffer at the last contents. -/
abbrev Tₙ (c : Dev nD) : sProp 𝕄 := StableHlo.held (c : Thread nD τ) (Pipeline.ucRefs τ sig) (X7 m c)

-- the launch theorem's implicit arguments are found by unifying its conclusion with this one, which takes unfolding
-- plain definitions in a metavariable's type
set_option backward.isDefEq.respectTransparency.types false in
/-- THE RUN: from any memory with zero counters every weakly fair execution of @main terminates, nothing faulting, and
    every final state holds each unscoped buffer at the fold's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      show iprop(StableHlo.held (c : Thread nD τ) (Pipeline.ucRefs τ sig) (X7 m c) ∗ SI s') ⊢ _
      unfold StableHlo.held
      iintro ⟨Hh, HSI⟩
      imodintro
      iapply (pointsTo_read_all (Pipeline.ucRefs τ sig) (fun b => (((c : Thread nD τ)).1, b)) (X7 m c) s')
      isplitl [Hh] <;> iassumption)
    (hQ := fun s h => h)

/-- An argument's buffer ends as launched. -/
theorem kept (ρ : Dev nD → PrngReg) (b : Ref sig .tc) (hu : ¬ (Proc.devRef .tc b : DevRef τ sig).isScoped)
    (h0 : b ∉ hostOps0_W) (h1 : b ≠ main_v2) (h2 : b ∉ hostOps1_W) (h3 : b ≠ main_v42)
    (h4 : b ∉ hostOps2_W) (h5 : b ≠ main_v59) (h6 : b ∉ hostOps3_W)
    {r : PUnit × MemSt nD τ sig (Elt F)} (h : ∀ c : Dev nD, ∀ b ∈ Pipeline.ucRefs τ sig, r.2.mem (((c : Thread nD τ)).1, b) = X7 m c b)
    (c : Dev nD) : r.2.mem ((c.tc : Thread nD τ).loc b) = m ((c.tc : Thread nD τ).loc b) :=
  (h c _ (mem_uc b hu)).trans (X7_keep m c b h0 h1 h2 h3 h4 h5 h6)

/-- A buffer nothing writes: unscoped, written by no host stretch, and no region's result. -/
def Untouched (b : Ref sig .tc) : Prop :=
  ¬ (Proc.devRef .tc b : DevRef τ sig).isScoped ∧ b ∉ hostOps0_W ∧ b ≠ main_v2 ∧ b ∉ hostOps1_W ∧ b ≠ main_v42
    ∧ b ∉ hostOps2_W ∧ b ≠ main_v59 ∧ b ∉ hostOps3_W
instance (b : Ref sig .tc) : Decidable (Untouched b) := by unfold Untouched; infer_instance

/-- Such a buffer ends as launched. -/
theorem kept_of (ρ : Dev nD → PrngReg) (b : Ref sig .tc) (hb : Untouched b)
    {r : PUnit × MemSt nD τ sig (Elt F)} (h : ∀ c : Dev nD, ∀ b ∈ Pipeline.ucRefs τ sig, r.2.mem (((c : Thread nD τ)).1, b) = X7 m c b)
    (c : Dev nD) : r.2.mem ((c.tc : Thread nD τ).loc b) = m ((c.tc : Thread nD τ).loc b) :=
  kept m ρ b hb.1 hb.2.1 hb.2.2.1 hb.2.2.2.1 hb.2.2.2.2.1 hb.2.2.2.2.2.1 hb.2.2.2.2.2.2.1 hb.2.2.2.2.2.2.2 h c

/-- A result's buffer ends at the fold's last contents. -/
theorem result_of (b : Ref sig .tc) (hu : ¬ (Proc.devRef .tc b : DevRef τ sig).isScoped)
    {r : PUnit × MemSt nD τ sig (Elt F)} (h : ∀ c : Dev nD, ∀ b ∈ Pipeline.ucRefs τ sig, r.2.mem (((c : Thread nD τ)).1, b) = X7 m c b)
    (c : Dev nD) : r.2.mem ((c.tc : Thread nD τ).loc b) = X7 m c (Proc.devRef .tc b) :=
  h c _ (mem_uc b hu)

end Cert.Kernel.Run

end
-- ==== Proof.KiProject.lean ====
/-
  The node projection, first of the program's three kernel regions: a grid of 100 points over the rows of the
  feature matrix. At point t the body sees rows 5000·t … 5000·t+4999 of the features (window 0), the whole transposed
  weight (window 1) and the bias row (window 2), and stores the whole 5000 × 64 block of window 3:
  max (features · weight + bias, 0). Here: what each window's staging buffer holds when the body runs (its block of
  the array the region finds), what the body leaves in the output's buffer as one function of the three input
  blocks, the body's triple by symbolic execution, and the pipeline's proof data with its body obligation — all at
  a parameter V, the contents of the TensorCore's buffers when the region is entered.
-/
import proofs.«167892_j12343736009221_1_alg».proof.Proof.Gen.KernelIdeal.Launch
import proofs.«167892_j12343736009221_1_alg».proof.Proof.Gen.KernelIdeal.Skeleton
import proofs.«167892_j12343736009221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block of rows, fetched there or not. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight's staging buffer holds the whole weight at every point: its block index never moves. -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's staging buffer likewise. -/
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store take a whole buffer -/

abbrev rx : Rect S5000x384 := Rect.unit (s := S5000x384) ![0, 0] S5000x384.size inb_S5000x384_S5000x384_0_0
abbrev rw_ : Rect S384x64 := Rect.unit (s := S384x64) ![0, 0] S384x64.size inb_S384x64_S384x64_0_0
abbrev rb : Rect S1x64 := Rect.unit (s := S1x64) ![0, 0] S1x64.size inb_S1x64_S1x64_0_0
abbrev ro : Rect S5000x64 := Rect.unit (s := S5000x64) ![0, 0] S5000x64.size inb_S5000x64_S5000x64_0_0

/-- What the body leaves in the output's staging buffer, from the three input blocks: its one store. -/
def out (x : Vec F S5000x384 .f32) (w : Vec F S384x64 .f32) (b : Vec F S1x64 .f32) : Vec F S5000x64 .f32 :=
  View.canon [⟨ro, k0_pay1 (View.ld x rx) (View.ld w rw_) (View.ld b rb)⟩]

/-- The one store covers the buffer. -/
theorem cover (p0 : Vec F S5000x64 .f32) (y : S5000x64.Idx) :
    ∃ pc ∈ ([⟨ro, p0⟩] : List (View.Piece (Elt F) S5000x64 .f32)), y ∈ pc.1.set :=
  View.cover_of_tiled [⟨ro, p0⟩] S5000x64.size (by rfl) y

set_option maxHeartbeats 1000000 in
/-- The body on whole staging memrefs, the inputs' at contents x, w, b and the output's at anything, runs to its
    return leaving the inputs as they were and the output's buffer at `out x w b`. -/
theorem sound_kernel (c : Dev nD) (E : Set ℕ) (i : grid0.Coords)
    (arg0 : Memref sig .tc .vmem S5000x384 .f32) (harg0 : arg0.IsWhole) (arg1 : Memref sig .tc .vmem S384x64 .f32) (harg1 : arg1.IsWhole)
    (arg2 : Memref sig .tc .vmem S1x64 .f32) (harg2 : arg2.IsWhole) (arg3 : Memref sig .tc .vmem S5000x64 .f32) (harg3 : arg3.IsWhole)
    (x : Vec F S5000x384 .f32) (w : Vec F S384x64 .f32) (b : Vec F S1x64 .f32) (K : PUnit → sProp 𝕄) :
    iprop(owns (c : Thread nD τ) arg0 fullShare x ∗ owns (c : Thread nD τ) arg1 fullShare w ∗ owns (c : Thread nD τ) arg2 fullShare b
        ∗ (∃ d, owns (c : Thread nD τ) arg3 fullShare d)
        ∗ (iprop(owns (c : Thread nD τ) arg0 fullShare x ∗ owns (c : Thread nD τ) arg1 fullShare w ∗ owns (c : Thread nD τ) arg2 fullShare b
            ∗ owns (c : Thread nD τ) arg3 fullShare (out x w b)) -∗ K ⟨⟩))
      ⊢ wp frame (wpE (defs₀ (F := F)) Variants.none c none) E (cc0__project_kernel i arg0 harg0 arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The region's arrays as it finds them; after the body at point t each input's buffer at its block and the
    output's at `out` of the three blocks; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_o (c : Dev nD) (t : Fin cfg0.N) : (dat V c).after 3 t = out (blk V c 0 t) (blk V c 1 t) (blk V c 2 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d
theorem before_b (c : Dev nD) (t : Fin cfg0.N) (d) : (dat V c).before 2 t d = blk V c 2 t :=
  before_b_of V (dat V c) (A_eq V c 2) (after_b V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.Project

end
-- ==== Proof.KiSage1.lean ====
/-
  LAYER 1 of the two graph-convolution layers, its dense part: kernel region 1 of the program's three, a grid of 85 points
  over the 527000 node rows. At point t the body sees rows 6200·t … 6200·t+6199 of the mean-aggregated neighbours
  (window 0) and of the node features (window 1), the two whole transposed weights (windows 2 and 3) and the bias row
  (window 4), and stores the whole block of window 5: (agg · Wl + x · Wr) + bias, in layer 1 clamped below at 0. Here: what each window's
  staging buffer holds when the body runs, what the body leaves in the output's buffer as one function of the five
  input blocks, the body's triple by symbolic execution, and the pipeline's proof data with its body obligation —
  all at a parameter V, the contents of the TensorCore's buffers when the region is entered.
-/
import proofs.«167892_j12343736009221_1_alg».proof.Proof.Gen.KernelIdeal.Launch
import proofs.«167892_j12343736009221_1_alg».proof.Proof.Gen.KernelIdeal.Skeleton
import proofs.«167892_j12343736009221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Sage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the shapes of this layer's windows (parse-time names only): the row blocks of the two node arrays, the two weights,
-- the bias row, the output block
local notation "Srow" => S6200x64
local notation "Swt" => S64x64
local notation "Sbias" => S1x64
local notation "Sout" => S6200x64
local notation "inbRow" => inb_S6200x64_S6200x64_0_0
local notation "inbWt" => inb_S64x64_S64x64_0_0
local notation "inbBias" => inb_S1x64_S1x64_0_0
local notation "inbOut" => inb_S6200x64_S6200x64_0_0

/-- Window w's block at point t of the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block, fetched there or not (a row window moves every point,
    a weight's or the bias's index never moves): one statement per input window. -/
theorem before_0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store take a whole buffer -/

abbrev rrow : Rect Srow := Rect.unit (s := Srow) ![0, 0] (Shape.size Srow) inbRow
abbrev rwt : Rect Swt := Rect.unit (s := Swt) ![0, 0] (Shape.size Swt) inbWt
abbrev rb : Rect Sbias := Rect.unit (s := Sbias) ![0, 0] (Shape.size Sbias) inbBias
abbrev ro : Rect Sout := Rect.unit (s := Sout) ![0, 0] (Shape.size Sout) inbOut

/-- What the body leaves in the output's staging buffer, from the five input blocks: its one store. -/
def out (a x : Vec F Srow .f32) (wl wr : Vec F Swt .f32) (b : Vec F Sbias .f32) : Vec F Sout .f32 :=
  View.canon [⟨ro, k1_pay1 (View.ld a rrow) (View.ld x rrow) (View.ld wl rwt) (View.ld wr rwt) (View.ld b rb)⟩]

/-- The one store covers the buffer. -/
theorem cover (p0 : Vec F Sout .f32) (y : Shape.Idx Sout) :
    ∃ pc ∈ ([⟨ro, p0⟩] : List (View.Piece (Elt F) Sout .f32)), y ∈ pc.1.set :=
  View.cover_of_tiled [⟨ro, p0⟩] (Shape.size Sout) (by rfl) y

set_option maxHeartbeats 1000000 in
/-- The body on whole staging memrefs, the inputs' at contents a, x, wl, wr, b and the output's at anything, runs to
    its return leaving the inputs as they were and the output's buffer at `out a x wl wr b`. -/
theorem sound_kernel (c : Dev nD) (E : Set ℕ) (i : grid1.Coords)
    (arg0 : Memref sig .tc .vmem Srow .f32) (harg0 : arg0.IsWhole) (arg1 : Memref sig .tc .vmem Srow .f32) (harg1 : arg1.IsWhole)
    (arg2 : Memref sig .tc .vmem Swt .f32) (harg2 : arg2.IsWhole) (arg3 : Memref sig .tc .vmem Swt .f32) (harg3 : arg3.IsWhole)
    (arg4 : Memref sig .tc .vmem Sbias .f32) (harg4 : arg4.IsWhole) (arg5 : Memref sig .tc .vmem Sout .f32) (harg5 : arg5.IsWhole)
    (a x : Vec F Srow .f32) (wl wr : Vec F Swt .f32) (b : Vec F Sbias .f32) (K : PUnit → sProp 𝕄) :
    iprop(owns (c : Thread nD τ) arg0 fullShare a ∗ owns (c : Thread nD τ) arg1 fullShare x ∗ owns (c : Thread nD τ) arg2 fullShare wl
        ∗ owns (c : Thread nD τ) arg3 fullShare wr ∗ owns (c : Thread nD τ) arg4 fullShare b
        ∗ (∃ d, owns (c : Thread nD τ) arg5 fullShare d)
        ∗ (iprop(owns (c : Thread nD τ) arg0 fullShare a ∗ owns (c : Thread nD τ) arg1 fullShare x ∗ owns (c : Thread nD τ) arg2 fullShare wl
            ∗ owns (c : Thread nD τ) arg3 fullShare wr ∗ owns (c : Thread nD τ) arg4 fullShare b
            ∗ owns (c : Thread nD τ) arg5 fullShare (out a x wl wr b)) -∗ K ⟨⟩))
      ⊢ wp frame (wpE (defs₀ (F := F)) Variants.none c none) E (cc1__sage_linear_kernel i arg0 harg0 arg1 harg1 arg2 harg2 arg3 harg3 arg4 harg4 arg5 harg5) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The region's arrays as it finds them; after the body at point t each input's buffer at its block and the
    output's at `out` of the five blocks; the scoped rest and the generator register untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_o (c : Dev nD) (t : Fin cfg1.N) :
    (dat V c).after 5 t = out (blk V c 0 t) (blk V c 1 t) (blk V c 2 t) (blk V c 3 t) (blk V c 4 t) := by dsimp only [dat]

theorem before_0 (c : Dev nD) (t : Fin cfg1.N) (d) : (dat V c).before 0 t d = blk V c 0 t :=
  before_0_of V (dat V c) (A_eq V c 0) (after_0 V c) t d
theorem before_1 (c : Dev nD) (t : Fin cfg1.N) (d) : (dat V c).before 1 t d = blk V c 1 t :=
  before_1_of V (dat V c) (A_eq V c 1) (after_1 V c) t d
theorem before_2 (c : Dev nD) (t : Fin cfg1.N) (d) : (dat V c).before 2 t d = blk V c 2 t :=
  before_2_of V (dat V c) (A_eq V c 2) (after_2 V c) t d
theorem before_3 (c : Dev nD) (t : Fin cfg1.N) (d) : (dat V c).before 3 t d = blk V c 3 t :=
  before_3_of V (dat V c) (A_eq V c 3) (after_3 V c) t d
theorem before_4 (c : Dev nD) (t : Fin cfg1.N) (d) : (dat V c).before 4 t d = blk V c 4 t :=
  before_4_of V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_o]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.KernelIdeal.Sage1

end
-- ==== Proof.KiSage2.lean ====
/-
  LAYER 2 of the two graph-convolution layers, its dense part: kernel region 2 of the program's three, a grid of 85 points
  over the 527000 node rows. At point t the body sees rows 6200·t … 6200·t+6199 of the mean-aggregated neighbours
  (window 0) and of the node features (window 1), the two whole transposed weights (windows 2 and 3) and the bias row
  (window 4), and stores the whole block of window 5: (agg · Wl + x · Wr) + bias, in layer 2 not clamped. Here: what each window's
  staging buffer holds when the body runs, what the body leaves in the output's buffer as one function of the five
  input blocks, the body's triple by symbolic execution, and the pipeline's proof data with its body obligation —
  all at a parameter V, the contents of the TensorCore's buffers when the region is entered.
-/
import proofs.«167892_j12343736009221_1_alg».proof.Proof.Gen.KernelIdeal.Launch
import proofs.«167892_j12343736009221_1_alg».proof.Proof.Gen.KernelIdeal.Skeleton
import proofs.«167892_j12343736009221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Sage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the shapes of this layer's windows (parse-time names only): the row blocks of the two node arrays, the two weights,
-- the bias row, the output block
local notation "Srow" => S6200x64
local notation "Swt" => S64x32
local notation "Sbias" => S1x32
local notation "Sout" => S6200x32
local notation "inbRow" => inb_S6200x64_S6200x64_0_0
local notation "inbWt" => inb_S64x32_S64x32_0_0
local notation "inbBias" => inb_S1x32_S1x32_0_0
local notation "inbOut" => inb_S6200x32_S6200x32_0_0

/-- Window w's block at point t of the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block, fetched there or not (a row window moves every point,
    a weight's or the bias's index never moves): one statement per input window. -/
theorem before_0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the one store take a whole buffer -/

abbrev rrow : Rect Srow := Rect.unit (s := Srow) ![0, 0] (Shape.size Srow) inbRow
abbrev rwt : Rect Swt := Rect.unit (s := Swt) ![0, 0] (Shape.size Swt) inbWt
abbrev rb : Rect Sbias := Rect.unit (s := Sbias) ![0, 0] (Shape.size Sbias) inbBias
abbrev ro : Rect Sout := Rect.unit (s := Sout) ![0, 0] (Shape.size Sout) inbOut

/-- What the body leaves in the output's staging buffer, from the five input blocks: its one store. -/
def out (a x : Vec F Srow .f32) (wl wr : Vec F Swt .f32) (b : Vec F Sbias .f32) : Vec F Sout .f32 :=
  View.canon [⟨ro, k2_pay1 (View.ld a rrow) (View.ld x rrow) (View.ld wl rwt) (View.ld wr rwt) (View.ld b rb)⟩]

/-- The one store covers the buffer. -/
theorem cover (p0 : Vec F Sout .f32) (y : Shape.Idx Sout) :
    ∃ pc ∈ ([⟨ro, p0⟩] : List (View.Piece (Elt F) Sout .f32)), y ∈ pc.1.set :=
  View.cover_of_tiled [⟨ro, p0⟩] (Shape.size Sout) (by rfl) y

set_option maxHeartbeats 1000000 in
/-- The body on whole staging memrefs, the inputs' at contents a, x, wl, wr, b and the output's at anything, runs to
    its return leaving the inputs as they were and the output's buffer at `out a x wl wr b`. -/
theorem sound_kernel (c : Dev nD) (E : Set ℕ) (i : grid2.Coords)
    (arg0 : Memref sig .tc .vmem Srow .f32) (harg0 : arg0.IsWhole) (arg1 : Memref sig .tc .vmem Srow .f32) (harg1 : arg1.IsWhole)
    (arg2 : Memref sig .tc .vmem Swt .f32) (harg2 : arg2.IsWhole) (arg3 : Memref sig .tc .vmem Swt .f32) (harg3 : arg3.IsWhole)
    (arg4 : Memref sig .tc .vmem Sbias .f32) (harg4 : arg4.IsWhole) (arg5 : Memref sig .tc .vmem Sout .f32) (harg5 : arg5.IsWhole)
    (a x : Vec F Srow .f32) (wl wr : Vec F Swt .f32) (b : Vec F Sbias .f32) (K : PUnit → sProp 𝕄) :
    iprop(owns (c : Thread nD τ) arg0 fullShare a ∗ owns (c : Thread nD τ) arg1 fullShare x ∗ owns (c : Thread nD τ) arg2 fullShare wl
        ∗ owns (c : Thread nD τ) arg3 fullShare wr ∗ owns (c : Thread nD τ) arg4 fullShare b
        ∗ (∃ d, owns (c : Thread nD τ) arg5 fullShare d)
        ∗ (iprop(owns (c : Thread nD τ) arg0 fullShare a ∗ owns (c : Thread nD τ) arg1 fullShare x ∗ owns (c : Thread nD τ) arg2 fullShare wl
            ∗ owns (c : Thread nD τ) arg3 fullShare wr ∗ owns (c : Thread nD τ) arg4 fullShare b
            ∗ owns (c : Thread nD τ) arg5 fullShare (out a x wl wr b)) -∗ K ⟨⟩))
      ⊢ wp frame (wpE (defs₀ (F := F)) Variants.none c none) E (cc2__sage_linear_kernel i arg0 harg0 arg1 harg1 arg2 harg2 arg3 harg3 arg4 harg4 arg5 harg5) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The region's arrays as it finds them; after the body at point t each input's buffer at its block and the
    output's at `out` of the five blocks; the scoped rest and the generator register untouched; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_o (c : Dev nD) (t : Fin cfg2.N) :
    (dat V c).after 5 t = out (blk V c 0 t) (blk V c 1 t) (blk V c 2 t) (blk V c 3 t) (blk V c 4 t) := by dsimp only [dat]

theorem before_0 (c : Dev nD) (t : Fin cfg2.N) (d) : (dat V c).before 0 t d = blk V c 0 t :=
  before_0_of V (dat V c) (A_eq V c 0) (after_0 V c) t d
theorem before_1 (c : Dev nD) (t : Fin cfg2.N) (d) : (dat V c).before 1 t d = blk V c 1 t :=
  before_1_of V (dat V c) (A_eq V c 1) (after_1 V c) t d
theorem before_2 (c : Dev nD) (t : Fin cfg2.N) (d) : (dat V c).before 2 t d = blk V c 2 t :=
  before_2_of V (dat V c) (A_eq V c 2) (after_2 V c) t d
theorem before_3 (c : Dev nD) (t : Fin cfg2.N) (d) : (dat V c).before 3 t d = blk V c 3 t :=
  before_3_of V (dat V c) (A_eq V c 3) (after_3 V c) t d
theorem before_4 (c : Dev nD) (t : Fin cfg2.N) (d) : (dat V c).before 4 t d = blk V c 4 t :=
  before_4_of V (dat V c) (A_eq V c 4) (after_4 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' buffers hold their blocks, so `sound_kernel` applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_o]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.KernelIdeal.Sage2

end
-- ==== Proof.KiRun.lean ====
/-
  The whole run of the program: @main is seven items — host operations, the projection region, host operations
  (the concatenation of the node features, the edge lists, the neighbour counts, gather and scatter-add of layer 1),
  the first layer's region, host operations (gather and scatter-add of layer 2), the second layer's region, and the
  four slices. The contents of every unscoped buffer are followed through the items as a fold from the launch
  memory: a host stretch applies its operations, a region leaves its output array at the blocks its grid points
  wrote back and everything else as it found it. Each region is a segment of the launch theorem for a list of
  segments, its body obligation the one proved with the region; the theorem's conclusion is read against the final
  memory at every unscoped buffer, so it serves the frame (an argument's buffer walks back through the fold to the
  launch memory: nothing writes it) and the values (the four results are the last stretch's slices).
-/
import proofs.«167892_j12343736009221_1_alg».proof.Proof.Gen.KernelIdeal.Regions
import proofs.«167892_j12343736009221_1_alg».proof.Proof.KiProject
import proofs.«167892_j12343736009221_1_alg».proof.Proof.KiSage1
import proofs.«167892_j12343736009221_1_alg».proof.Proof.KiSage2

-- membership in a rectangle of these extents recurses once per coordinate of the long axis
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev X0 : Dev nD → Valuation τ sig (Elt F) := fun c b => m (c, b)
/-- After the first host stretch (the transposed projection weight and the bias as a row). -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b

/-- At region 0's exit: its arrays at what the pipeline leaves (an input as entered, the output's blocks written
    back one by one), every other buffer as entered. -/
def X2 (c : Dev nD) : Valuation τ sig (Elt F) :=
  Pipeline.withArrays spec0 c (X1 m c) fun w => (Project.dat (Y1 m) c).arrAt w cfg0.N
theorem X2_arr (c : Dev nD) (w : Fin cfg0.W) :
    X2 m c (Proc.devRef .tc (Pipeline.arrRef spec0 w)) = (Project.dat (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- The same read at the TensorCore's references. -/
abbrev Y2 : (c : Dev nD) → (b : Ref sig .tc) → Buf (Elt F) ((c : Thread nD τ).loc b) := fun c b => X2 m c b
theorem left_arr0 (c : Dev nD) (w : Fin cfg0.W) : (Project.dat (Y1 m) c).arrAt w cfg0.N = Y2 m c (Pipeline.arrRef spec0 w) :=
  (X2_arr m c w).symm
theorem left_rest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)

/-- After the second host stretch. -/
abbrev X3 : Dev nD → Valuation τ sig (Elt F) := fun c => StableHlo.after hostOps1 (X2 m c)
abbrev Y3 : (c : Dev nD) → (b : Ref sig .tc) → Buf (Elt F) ((c : Thread nD τ).loc b) := fun c b => X3 m c b

/-- At region 1's exit: its arrays at what the pipeline leaves (an input as entered, the output's blocks written
    back one by one), every other buffer as entered. -/
def X4 (c : Dev nD) : Valuation τ sig (Elt F) :=
  Pipeline.withArrays spec1 c (X3 m c) fun w => (Sage1.dat (Y3 m) c).arrAt w cfg1.N
theorem X4_arr (c : Dev nD) (w : Fin cfg1.W) :
    X4 m c (Proc.devRef .tc (Pipeline.arrRef spec1 w)) = (Sage1.dat (Y3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
/-- The same read at the TensorCore's references. -/
abbrev Y4 : (c : Dev nD) → (b : Ref sig .tc) → Buf (Elt F) ((c : Thread nD τ).loc b) := fun c b => X4 m c b
theorem left_arr1 (c : Dev nD) (w : Fin cfg1.W) : (Sage1.dat (Y3 m) c).arrAt w cfg1.N = Y4 m c (Pipeline.arrRef spec1 w) :=
  (X4_arr m c w).symm
theorem left_rest1 (c : Dev nD) : ∀ b, b ∉ Finset.univ.image (Pipeline.arrRef spec1) → Y4 m c b = Y3 m c b :=
  fun b hb => X4_of_ne m c b fun w e => hb (Finset.mem_image.mpr ⟨w, Finset.mem_univ _, e⟩)

/-- After the third host stretch. -/
abbrev X5 : Dev nD → Valuation τ sig (Elt F) := fun c => StableHlo.after hostOps2 (X4 m c)
abbrev Y5 : (c : Dev nD) → (b : Ref sig .tc) → Buf (Elt F) ((c : Thread nD τ).loc b) := fun c b => X5 m c b

/-- At region 2's exit: its arrays at what the pipeline leaves (an input as entered, the output's blocks written
    back one by one), every other buffer as entered. -/
def X6 (c : Dev nD) : Valuation τ sig (Elt F) :=
  Pipeline.withArrays spec2 c (X5 m c) fun w => (Sage2.dat (Y5 m) c).arrAt w cfg2.N
theorem X6_arr (c : Dev nD) (w : Fin cfg2.W) :
    X6 m c (Proc.devRef .tc (Pipeline.arrRef spec2 w)) = (Sage2.dat (Y5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
/-- The same read at the TensorCore's references. -/
abbrev Y6 : (c : Dev nD) → (b : Ref sig .tc) → Buf (Elt F) ((c : Thread nD τ).loc b) := fun c b => X6 m c b
theorem left_arr2 (c : Dev nD) (w : Fin cfg2.W) : (Sage2.dat (Y5 m) c).arrAt w cfg2.N = Y6 m c (Pipeline.arrRef spec2 w) :=
  (X6_arr m c w).symm
theorem left_rest2 (c : Dev nD) : ∀ b, b ∉ Finset.univ.image (Pipeline.arrRef spec2) → Y6 m c b = Y5 m c b :=
  fun b hb => X6_of_ne m c b fun w e => hb (Finset.mem_image.mpr ⟨w, Finset.mem_univ _, e⟩)

/-- After the last host stretch (the four slices): the contents the program ends with. -/
abbrev X7 : Dev nD → Valuation τ sig (Elt F) := fun c => StableHlo.after hostOps3 (X6 m c)

/-! ## A region changes only its output array -/

/-- The projection region leaves every buffer but its result as it found it: an input window's array is put back as
    entered, a buffer that is no window's array is not touched. -/
theorem X2_keep (c : Dev nD) (b : Ref sig .tc) (hb : b ≠ main_v2) : X2 m c (Proc.devRef .tc b) = X1 m c (Proc.devRef .tc b) := by
  by_cases h : ∃ w, Pipeline.arrRef spec0 w = b
  · obtain ⟨w, rfl⟩ := h
    rw [X2_arr]
    fin_cases w
    · exact ((Project.dat (Y1 m) c).arrAt_in 0 rfl _).trans (Project.A_eq (Y1 m) c 0)
    · exact ((Project.dat (Y1 m) c).arrAt_in 1 rfl _).trans (Project.A_eq (Y1 m) c 1)
    · exact ((Project.dat (Y1 m) c).arrAt_in 2 rfl _).trans (Project.A_eq (Y1 m) c 2)
    · exact absurd rfl hb
  · exact X2_of_ne m c b fun w e => h ⟨w, e⟩
theorem X4_keep (c : Dev nD) (b : Ref sig .tc) (hb : b ≠ main_v42) : X4 m c (Proc.devRef .tc b) = X3 m c (Proc.devRef .tc b) := by
  by_cases h : ∃ w, Pipeline.arrRef spec1 w = b
  · obtain ⟨w, rfl⟩ := h
    rw [X4_arr]
    fin_cases w
    · exact ((Sage1.dat (Y3 m) c).arrAt_in 0 rfl _).trans (Sage1.A_eq (Y3 m) c 0)
    · exact ((Sage1.dat (Y3 m) c).arrAt_in 1 rfl _).trans (Sage1.A_eq (Y3 m) c 1)
    · exact ((Sage1.dat (Y3 m) c).arrAt_in 2 rfl _).trans (Sage1.A_eq (Y3 m) c 2)
    · exact ((Sage1.dat (Y3 m) c).arrAt_in 3 rfl _).trans (Sage1.A_eq (Y3 m) c 3)
    · exact ((Sage1.dat (Y3 m) c).arrAt_in 4 rfl _).trans (Sage1.A_eq (Y3 m) c 4)
    · exact absurd rfl hb
  · exact X4_of_ne m c b fun w e => h ⟨w, e⟩
theorem X6_keep (c : Dev nD) (b : Ref sig .tc) (hb : b ≠ main_v59) : X6 m c (Proc.devRef .tc b) = X5 m c (Proc.devRef .tc b) := by
  by_cases h : ∃ w, Pipeline.arrRef spec2 w = b
  · obtain ⟨w, rfl⟩ := h
    rw [X6_arr]
    fin_cases w
    · exact ((Sage2.dat (Y5 m) c).arrAt_in 0 rfl _).trans (Sage2.A_eq (Y5 m) c 0)
    · exact ((Sage2.dat (Y5 m) c).arrAt_in 1 rfl _).trans (Sage2.A_eq (Y5 m) c 1)
    · exact ((Sage2.dat (Y5 m) c).arrAt_in 2 rfl _).trans (Sage2.A_eq (Y5 m) c 2)
    · exact ((Sage2.dat (Y5 m) c).arrAt_in 3 rfl _).trans (Sage2.A_eq (Y5 m) c 3)
    · exact ((Sage2.dat (Y5 m) c).arrAt_in 4 rfl _).trans (Sage2.A_eq (Y5 m) c 4)
    · exact absurd rfl hb
  · exact X6_of_ne m c b fun w e => h ⟨w, e⟩

/-- A buffer that no host operation writes and that is no region's result ends as launched. -/
theorem X7_keep (c : Dev nD) (b : Ref sig .tc) (h0 : b ∉ hostOps0_W) (h1 : b ≠ main_v2) (h2 : b ∉ hostOps1_W) (h3 : b ≠ main_v42)
    (h4 : b ∉ hostOps2_W) (h5 : b ≠ main_v59) (h6 : b ∉ hostOps3_W) : X7 m c (Proc.devRef .tc b) = m ((c : Thread nD τ).loc b) :=
  (StableHlo.after_of_writes_sub hostOps3 _ hostOps3_writes h6).trans <| (X6_keep m c b h5).trans <|
  (StableHlo.after_of_writes_sub hostOps2 _ hostOps2_writes h4).trans <| (X4_keep m c b h3).trans <|
  (StableHlo.after_of_writes_sub hostOps1 _ hostOps1_writes h2).trans <| (X2_keep m c b h1).trans <|
  (StableHlo.after_of_writes_sub hostOps0 _ hostOps0_writes h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Project.dat (Y1 m) c
  | ⟨1, _⟩ => fun c => Sage1.dat (Y3 m) c
  | ⟨2, _⟩ => fun c => Sage2.dat (Y5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- applying a library lemma stated over the pinned configuration unifies only when unification may unfold plain
-- definitions in a metavariable's type
set_option backward.isDefEq.respectTransparency.types false in
/-- Kernel region 0 over the thread state: entered with every unscoped buffer at `X1`, left with them at `X2`.
    Its arrays are split out of the unscoped buffers and put back at the exit contents; the generator register goes
    into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (Y1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (left_arr0 m c) (left_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- Kernel region 1 over the thread state: entered with every unscoped buffer at `X3`, left with them at `X4`.
    Its arrays are split out of the unscoped buffers and put back at the exit contents; the generator register goes
    into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (Y3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (left_arr1 m c) (left_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- Kernel region 2 over the thread state: entered with every unscoped buffer at `X5`, left with them at `X6`.
    Its arrays are split out of the unscoped buffers and put back at the exit contents; the generator register goes
    into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Sage2.body_obligation (Y5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (left_arr2 m c) (left_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)) ]
/-- @main is the run of the segments. -/
theorem main_run (c : Dev nD) : main (F := F) c = Pipeline.Seg.run (segs m) := (main_chain c).trans (by chain_rfl)

/-- The last thread state without the dues: every unscoped buffer at the last contents. -/
abbrev Tₙ (c : Dev nD) : sProp 𝕄 := StableHlo.held (c : Thread nD τ) (Pipeline.ucRefs τ sig) (X7 m c)

-- the launch theorem's implicit arguments are found by unifying its conclusion with this one, which takes unfolding
-- plain definitions in a metavariable's type
set_option backward.isDefEq.respectTransparency.types false in
/-- THE RUN: from any memory with zero counters every weakly fair execution of @main terminates, nothing faulting, and
    every final state holds each unscoped buffer at the fold's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      show iprop(StableHlo.held (c : Thread nD τ) (Pipeline.ucRefs τ sig) (X7 m c) ∗ SI s') ⊢ _
      unfold StableHlo.held
      iintro ⟨Hh, HSI⟩
      imodintro
      iapply (pointsTo_read_all (Pipeline.ucRefs τ sig) (fun b => (((c : Thread nD τ)).1, b)) (X7 m c) s')
      isplitl [Hh] <;> iassumption)
    (hQ := fun s h => h)

/-- An argument's buffer ends as launched. -/
theorem kept (ρ : Dev nD → PrngReg) (b : Ref sig .tc) (hu : ¬ (Proc.devRef .tc b : DevRef τ sig).isScoped)
    (h0 : b ∉ hostOps0_W) (h1 : b ≠ main_v2) (h2 : b ∉ hostOps1_W) (h3 : b ≠ main_v42)
    (h4 : b ∉ hostOps2_W) (h5 : b ≠ main_v59) (h6 : b ∉ hostOps3_W)
    {r : PUnit × MemSt nD τ sig (Elt F)} (h : ∀ c : Dev nD, ∀ b ∈ Pipeline.ucRefs τ sig, r.2.mem (((c : Thread nD τ)).1, b) = X7 m c b)
    (c : Dev nD) : r.2.mem ((c.tc : Thread nD τ).loc b) = m ((c.tc : Thread nD τ).loc b) :=
  (h c _ (mem_uc b hu)).trans (X7_keep m c b h0 h1 h2 h3 h4 h5 h6)

/-- A buffer nothing writes: unscoped, written by no host stretch, and no region's result. -/
def Untouched (b : Ref sig .tc) : Prop :=
  ¬ (Proc.devRef .tc b : DevRef τ sig).isScoped ∧ b ∉ hostOps0_W ∧ b ≠ main_v2 ∧ b ∉ hostOps1_W ∧ b ≠ main_v42
    ∧ b ∉ hostOps2_W ∧ b ≠ main_v59 ∧ b ∉ hostOps3_W
instance (b : Ref sig .tc) : Decidable (Untouched b) := by unfold Untouched; infer_instance

/-- Such a buffer ends as launched. -/
theorem kept_of (ρ : Dev nD → PrngReg) (b : Ref sig .tc) (hb : Untouched b)
    {r : PUnit × MemSt nD τ sig (Elt F)} (h : ∀ c : Dev nD, ∀ b ∈ Pipeline.ucRefs τ sig, r.2.mem (((c : Thread nD τ)).1, b) = X7 m c b)
    (c : Dev nD) : r.2.mem ((c.tc : Thread nD τ).loc b) = m ((c.tc : Thread nD τ).loc b) :=
  kept m ρ b hb.1 hb.2.1 hb.2.2.1 hb.2.2.2.1 hb.2.2.2.2.1 hb.2.2.2.2.2.1 hb.2.2.2.2.2.2.1 hb.2.2.2.2.2.2.2 h c

/-- A result's buffer ends at the fold's last contents. -/
theorem result_of (b : Ref sig .tc) (hu : ¬ (Proc.devRef .tc b : DevRef τ sig).isScoped)
    {r : PUnit × MemSt nD τ sig (Elt F)} (h : ∀ c : Dev nD, ∀ b ∈ Pipeline.ucRefs τ sig, r.2.mem (((c : Thread nD τ)).1, b) = X7 m c b)
    (c : Dev nD) : r.2.mem ((c.tc : Thread nD τ).loc b) = X7 m c (Proc.devRef .tc b) :=
  h c _ (mem_uc b hu)

end Cert.KernelIdeal.Run

end
-- ==== Proof.Spec.lean ====
/-
  What the three dense kernels compute, as functions of whole arrays over the extended reals, index by index; and the
  one law of extended-real arithmetic that joins the two programs' neighbour means.

  proj   x w b  at (p, q) = max (Σₖ x[p,k]·w[k,q] + b[q], 0)                       500000 × 384 by 384 × 64
  layer1 a x wl wr b at (p, q) = max ((Σₖ a[p,k]·wl[k,q] + Σₖ x[p,k]·wr[k,q]) + b[q], 0)   527000 × 64 by 64 × 64
  layer2 a x wl wr b at (p, q) = (Σₖ a[p,k]·wl[k,q] + Σₖ x[p,k]·wr[k,q]) + b[q]          527000 × 64 by 64 × 32

  The weights enter already transposed (both programs transpose them on the host); the bias enters as a function of
  the output column, so that a program holding it as a row and one holding it as a vector meet at the same term.
-/
import Idealize.ShloMosaic.PureOps.Ideal
import Idealize.ShloMosaic.Lib.ValueIdx

noncomputable section

namespace Cert.Spec

open Idealize.ShloMosaic Idealize.ShloMosaic.ValueIdx
open scoped BigOperators

/-- The node projection at row p, column q. -/
def projAt (x : (⟨2, ![500000, 384]⟩ : Shape).Idx → EReal) (w : (⟨2, ![384, 64]⟩ : Shape).Idx → EReal) (b : Fin 64 → EReal)
    (p : Fin 500000) (q : Fin 64) : EReal :=
  max ((∑ k : Fin 384, x (ix2 p k) * w (ix2 k q)) + b q) 0
/-- The node projection as one array. -/
def proj (x : (⟨2, ![500000, 384]⟩ : Shape).Idx → EReal) (w : (⟨2, ![384, 64]⟩ : Shape).Idx → EReal) (b : Fin 64 → EReal) :
    (⟨2, ![500000, 64]⟩ : Shape).Idx → EReal := fun i => projAt x w b (i 0) (i 1)

/-- The first layer's dense part at row p, column q. -/
def layer1At (a x : (⟨2, ![527000, 64]⟩ : Shape).Idx → EReal) (wl wr : (⟨2, ![64, 64]⟩ : Shape).Idx → EReal) (b : Fin 64 → EReal)
    (p : Fin 527000) (q : Fin 64) : EReal :=
  max (((∑ k : Fin 64, a (ix2 p k) * wl (ix2 k q)) + ∑ k : Fin 64, x (ix2 p k) * wr (ix2 k q)) + b q) 0
def layer1 (a x : (⟨2, ![527000, 64]⟩ : Shape).Idx → EReal) (wl wr : (⟨2, ![64, 64]⟩ : Shape).Idx → EReal) (b : Fin 64 → EReal) :
    (⟨2, ![527000, 64]⟩ : Shape).Idx → EReal := fun i => layer1At a x wl wr b (i 0) (i 1)

/-- The second layer's dense part at row p, column q (no clamp). -/
def layer2At (a x : (⟨2, ![527000, 64]⟩ : Shape).Idx → EReal) (wl wr : (⟨2, ![64, 32]⟩ : Shape).Idx → EReal) (b : Fin 32 → EReal)
    (p : Fin 527000) (q : Fin 32) : EReal :=
  ((∑ k : Fin 64, a (ix2 p k) * wl (ix2 k q)) + ∑ k : Fin 64, x (ix2 p k) * wr (ix2 k q)) + b q
def layer2 (a x : (⟨2, ![527000, 64]⟩ : Shape).Idx → EReal) (wl wr : (⟨2, ![64, 32]⟩ : Shape).Idx → EReal) (b : Fin 32 → EReal) :
    (⟨2, ![527000, 32]⟩ : Shape).Idx → EReal := fun i => layer2At a x wl wr b (i 0) (i 1)

/-- The neighbour mean: a sum times the reciprocal of a count clamped below at one is the sum divided by that
    count, for every extended real sum — the count is not zero, and off zero the quotient is the product with the
    inverse, the reciprocal being one times the inverse. No finiteness is used. -/
theorem mul_recip_eq_div (s n : EReal) : s * Ideal.div 1 (max n 1) = Ideal.div s (max n 1) := by
  have h : max n 1 ≠ 0 := fun e => absurd (e ▸ le_max_right n 1 : (1 : EReal) ≤ 0) (by norm_num)
  unfold Ideal.div
  rw [if_neg h, if_neg h, one_mul]

end Cert.Spec

end
-- ==== Proof.KiPayload.lean ====
/-
  The three dense bodies read at one output position, over the extended reals.

  Each body is a chain of whole-block operations: narrow the operands (the identity on extended reals), multiply blocks
  into a zero accumulator (the plain sum of products over the contracted coordinate), add the bias row spread over the
  rows, and (first two bodies) clamp below at zero. Read at row p, column q:

    body 0:  max (Σₖ x[p,k]·w[k,q] + b[0,q], 0)
    body 1:  max ((Σₖ a[p,k]·wl[k,q] + Σₖ x[p,k]·wr[k,q]) + b[0,q], 0)
    body 2:  (Σₖ a[p,k]·wl[k,q] + Σₖ x[p,k]·wr[k,q]) + b[0,q]
-/
import proofs.«167892_j12343736009221_1_alg».proof.Proof.Gen.KernelIdeal.Skeleton
import proofs.«167892_j12343736009221_1_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-! The product of a 5000 × 384 block by a 384 × 64 block: operand coordinates of the dimension numbers
    (contract the left operand's second axis with the right operand's first). -/

theorem lhs_k0_0 (i : S5000x64.Idx) (q : dot_S5000x384_S384x64_S5000x64_1_0_0_1_n_n.contr.Idx) :
    (dot_S5000x384_S384x64_S5000x64_1_0_0_1_n_n.lhsIdx i q 0).val = (i 0).val := by
  unfold DotDims.lhsIdx
  rw [dif_neg (show ¬(0 : Fin S5000x384.rank) ∈ dot_S5000x384_S384x64_S5000x64_1_0_0_1_n_n.lhsBatch by decide), dif_pos (show (0 : Fin S5000x384.rank) ∈ dot_S5000x384_S384x64_S5000x64_1_0_0_1_n_n.lhsNonContracting by decide)]
  rfl
theorem lhs_k0_1 (i : S5000x64.Idx) (q : dot_S5000x384_S384x64_S5000x64_1_0_0_1_n_n.contr.Idx) :
    (dot_S5000x384_S384x64_S5000x64_1_0_0_1_n_n.lhsIdx i q 1).val = (q ⟨0, by decide⟩).val :=
  dot_S5000x384_S384x64_S5000x64_1_0_0_1_n_n.lhsIdx_val_of_single rfl i q
theorem rhs_k0_0 (i : S5000x64.Idx) (q : dot_S5000x384_S384x64_S5000x64_1_0_0_1_n_n.contr.Idx) :
    (dot_S5000x384_S384x64_S5000x64_1_0_0_1_n_n.rhsIdx i q 0).val = (q ⟨0, by decide⟩).val :=
  dot_S5000x384_S384x64_S5000x64_1_0_0_1_n_n.rhsIdx_val_of_single rfl i q
theorem rhs_k0_1 (i : S5000x64.Idx) (q : dot_S5000x384_S384x64_S5000x64_1_0_0_1_n_n.contr.Idx) :
    (dot_S5000x384_S384x64_S5000x64_1_0_0_1_n_n.rhsIdx i q 1).val = (i 1).val := by
  unfold DotDims.rhsIdx
  rw [dif_neg (show ¬(1 : Fin S384x64.rank) ∈ dot_S5000x384_S384x64_S5000x64_1_0_0_1_n_n.rhsBatch by decide), dif_pos (show (1 : Fin S384x64.rank) ∈ dot_S5000x384_S384x64_S5000x64_1_0_0_1_n_n.rhsNonContracting by decide)]
  rfl

/-- Into the zero accumulator the block product at (p, q) is the sum over k of left (p, k) times right (k, q). -/
theorem mm_k0_apply (x : FVec Ideal S5000x384 .bf16) (w : FVec Ideal S384x64 .bf16) (p : Fin 5000) (q : Fin 64) :
    matmul dot_S5000x384_S384x64_S5000x64_1_0_0_1_n_n none x w (constant (F := Ideal) S5000x64 .f32 0x00000000#32) (ix2 p q)
      = ∑ k : Fin 384, x (ix2 p k) * w (ix2 k q) := by
  simp only [matmul]
  rw [Ideal.matmul_constant_zero_apply, ← Equiv.sum_comp (contrEquiv1 dot_S5000x384_S384x64_S5000x64_1_0_0_1_n_n 384 rfl rfl).symm]
  refine Finset.sum_congr rfl fun k _ => ?_
  have hk := contrEquiv1_symm_val dot_S5000x384_S384x64_S5000x64_1_0_0_1_n_n 384 rfl rfl k
  have el : dot_S5000x384_S384x64_S5000x64_1_0_0_1_n_n.lhsIdx (ix2 p q) ((contrEquiv1 dot_S5000x384_S384x64_S5000x64_1_0_0_1_n_n 384 rfl rfl).symm k) = ix2 p k := funext fun a => Fin.ext (by
    match a with
    | ⟨0, _⟩ => exact lhs_k0_0 _ _
    | ⟨1, _⟩ => exact (lhs_k0_1 _ _).trans hk)
  have er : dot_S5000x384_S384x64_S5000x64_1_0_0_1_n_n.rhsIdx (ix2 p q) ((contrEquiv1 dot_S5000x384_S384x64_S5000x64_1_0_0_1_n_n 384 rfl rfl).symm k) = ix2 k q := funext fun a => Fin.ext (by
    match a with
    | ⟨0, _⟩ => exact (rhs_k0_0 _ _).trans hk
    | ⟨1, _⟩ => exact rhs_k0_1 _ _)
  rw [el, er]

/-! The product of a 6200 × 64 block by a 64 × 64 block: operand coordinates of the dimension numbers
    (contract the left operand's second axis with the right operand's first). -/

theorem lhs_k1_0 (i : S6200x64.Idx) (q : dot_S6200x64_S64x64_S6200x64_1_0_0_1_n_n.contr.Idx) :
    (dot_S6200x64_S64x64_S6200x64_1_0_0_1_n_n.lhsIdx i q 0).val = (i 0).val := by
  unfold DotDims.lhsIdx
  rw [dif_neg (show ¬(0 : Fin S6200x64.rank) ∈ dot_S6200x64_S64x64_S6200x64_1_0_0_1_n_n.lhsBatch by decide), dif_pos (show (0 : Fin S6200x64.rank) ∈ dot_S6200x64_S64x64_S6200x64_1_0_0_1_n_n.lhsNonContracting by decide)]
  rfl
theorem lhs_k1_1 (i : S6200x64.Idx) (q : dot_S6200x64_S64x64_S6200x64_1_0_0_1_n_n.contr.Idx) :
    (dot_S6200x64_S64x64_S6200x64_1_0_0_1_n_n.lhsIdx i q 1).val = (q ⟨0, by decide⟩).val :=
  dot_S6200x64_S64x64_S6200x64_1_0_0_1_n_n.lhsIdx_val_of_single rfl i q
theorem rhs_k1_0 (i : S6200x64.Idx) (q : dot_S6200x64_S64x64_S6200x64_1_0_0_1_n_n.contr.Idx) :
    (dot_S6200x64_S64x64_S6200x64_1_0_0_1_n_n.rhsIdx i q 0).val = (q ⟨0, by decide⟩).val :=
  dot_S6200x64_S64x64_S6200x64_1_0_0_1_n_n.rhsIdx_val_of_single rfl i q
theorem rhs_k1_1 (i : S6200x64.Idx) (q : dot_S6200x64_S64x64_S6200x64_1_0_0_1_n_n.contr.Idx) :
    (dot_S6200x64_S64x64_S6200x64_1_0_0_1_n_n.rhsIdx i q 1).val = (i 1).val := by
  unfold DotDims.rhsIdx
  rw [dif_neg (show ¬(1 : Fin S64x64.rank) ∈ dot_S6200x64_S64x64_S6200x64_1_0_0_1_n_n.rhsBatch by decide), dif_pos (show (1 : Fin S64x64.rank) ∈ dot_S6200x64_S64x64_S6200x64_1_0_0_1_n_n.rhsNonContracting by decide)]
  rfl

/-- Into the zero accumulator the block product at (p, q) is the sum over k of left (p, k) times right (k, q). -/
theorem mm_k1_apply (x : FVec Ideal S6200x64 .bf16) (w : FVec Ideal S64x64 .bf16) (p : Fin 6200) (q : Fin 64) :
    matmul dot_S6200x64_S64x64_S6200x64_1_0_0_1_n_n none x w (constant (F := Ideal) S6200x64 .f32 0x00000000#32) (ix2 p q)
      = ∑ k : Fin 64, x (ix2 p k) * w (ix2 k q) := by
  simp only [matmul]
  rw [Ideal.matmul_constant_zero_apply, ← Equiv.sum_comp (contrEquiv1 dot_S6200x64_S64x64_S6200x64_1_0_0_1_n_n 64 rfl rfl).symm]
  refine Finset.sum_congr rfl fun k _ => ?_
  have hk := contrEquiv1_symm_val dot_S6200x64_S64x64_S6200x64_1_0_0_1_n_n 64 rfl rfl k
  have el : dot_S6200x64_S64x64_S6200x64_1_0_0_1_n_n.lhsIdx (ix2 p q) ((contrEquiv1 dot_S6200x64_S64x64_S6200x64_1_0_0_1_n_n 64 rfl rfl).symm k) = ix2 p k := funext fun a => Fin.ext (by
    match a with
    | ⟨0, _⟩ => exact lhs_k1_0 _ _
    | ⟨1, _⟩ => exact (lhs_k1_1 _ _).trans hk)
  have er : dot_S6200x64_S64x64_S6200x64_1_0_0_1_n_n.rhsIdx (ix2 p q) ((contrEquiv1 dot_S6200x64_S64x64_S6200x64_1_0_0_1_n_n 64 rfl rfl).symm k) = ix2 k q := funext fun a => Fin.ext (by
    match a with
    | ⟨0, _⟩ => exact (rhs_k1_0 _ _).trans hk
    | ⟨1, _⟩ => exact rhs_k1_1 _ _)
  rw [el, er]

/-! The product of a 6200 × 64 block by a 64 × 32 block: operand coordinates of the dimension numbers
    (contract the left operand's second axis with the right operand's first). -/

theorem lhs_k2_0 (i : S6200x32.Idx) (q : dot_S6200x64_S64x32_S6200x32_1_0_0_1_n_n.contr.Idx) :
    (dot_S6200x64_S64x32_S6200x32_1_0_0_1_n_n.lhsIdx i q 0).val = (i 0).val := by
  unfold DotDims.lhsIdx
  rw [dif_neg (show ¬(0 : Fin S6200x64.rank) ∈ dot_S6200x64_S64x32_S6200x32_1_0_0_1_n_n.lhsBatch by decide), dif_pos (show (0 : Fin S6200x64.rank) ∈ dot_S6200x64_S64x32_S6200x32_1_0_0_1_n_n.lhsNonContracting by decide)]
  rfl
theorem lhs_k2_1 (i : S6200x32.Idx) (q : dot_S6200x64_S64x32_S6200x32_1_0_0_1_n_n.contr.Idx) :
    (dot_S6200x64_S64x32_S6200x32_1_0_0_1_n_n.lhsIdx i q 1).val = (q ⟨0, by decide⟩).val :=
  dot_S6200x64_S64x32_S6200x32_1_0_0_1_n_n.lhsIdx_val_of_single rfl i q
theorem rhs_k2_0 (i : S6200x32.Idx) (q : dot_S6200x64_S64x32_S6200x32_1_0_0_1_n_n.contr.Idx) :
    (dot_S6200x64_S64x32_S6200x32_1_0_0_1_n_n.rhsIdx i q 0).val = (q ⟨0, by decide⟩).val :=
  dot_S6200x64_S64x32_S6200x32_1_0_0_1_n_n.rhsIdx_val_of_single rfl i q
theorem rhs_k2_1 (i : S6200x32.Idx) (q : dot_S6200x64_S64x32_S6200x32_1_0_0_1_n_n.contr.Idx) :
    (dot_S6200x64_S64x32_S6200x32_1_0_0_1_n_n.rhsIdx i q 1).val = (i 1).val := by
  unfold DotDims.rhsIdx
  rw [dif_neg (show ¬(1 : Fin S64x32.rank) ∈ dot_S6200x64_S64x32_S6200x32_1_0_0_1_n_n.rhsBatch by decide), dif_pos (show (1 : Fin S64x32.rank) ∈ dot_S6200x64_S64x32_S6200x32_1_0_0_1_n_n.rhsNonContracting by decide)]
  rfl

/-- Into the zero accumulator the block product at (p, q) is the sum over k of left (p, k) times right (k, q). -/
theorem mm_k2_apply (x : FVec Ideal S6200x64 .bf16) (w : FVec Ideal S64x32 .bf16) (p : Fin 6200) (q : Fin 32) :
    matmul dot_S6200x64_S64x32_S6200x32_1_0_0_1_n_n none x w (constant (F := Ideal) S6200x32 .f32 0x00000000#32) (ix2 p q)
      = ∑ k : Fin 64, x (ix2 p k) * w (ix2 k q) := by
  simp only [matmul]
  rw [Ideal.matmul_constant_zero_apply, ← Equiv.sum_comp (contrEquiv1 dot_S6200x64_S64x32_S6200x32_1_0_0_1_n_n 64 rfl rfl).symm]
  refine Finset.sum_congr rfl fun k _ => ?_
  have hk := contrEquiv1_symm_val dot_S6200x64_S64x32_S6200x32_1_0_0_1_n_n 64 rfl rfl k
  have el : dot_S6200x64_S64x32_S6200x32_1_0_0_1_n_n.lhsIdx (ix2 p q) ((contrEquiv1 dot_S6200x64_S64x32_S6200x32_1_0_0_1_n_n 64 rfl rfl).symm k) = ix2 p k := funext fun a => Fin.ext (by
    match a with
    | ⟨0, _⟩ => exact lhs_k2_0 _ _
    | ⟨1, _⟩ => exact (lhs_k2_1 _ _).trans hk)
  have er : dot_S6200x64_S64x32_S6200x32_1_0_0_1_n_n.rhsIdx (ix2 p q) ((contrEquiv1 dot_S6200x64_S64x32_S6200x32_1_0_0_1_n_n 64 rfl rfl).symm k) = ix2 k q := funext fun a => Fin.ext (by
    match a with
    | ⟨0, _⟩ => exact (rhs_k2_0 _ _).trans hk
    | ⟨1, _⟩ => exact rhs_k2_1 _ _)
  rw [el, er]

/-! The bias row spread over the rows of a block. -/

/-- The bias row spread over 5000 rows reads, at (p, q), the row's entry q. -/
theorem bias_k0_apply (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- The bias row spread over 6200 rows reads, at (p, q), the row's entry q. -/
theorem bias_k1_apply (b : FVec Ideal S1x64 .f32) (p : Fin 6200) (q : Fin 64) :
    broadcastTo S6200x64 b broadcasts_S1x64_S6200x64 (ix2 p q) = b (ix2 0 q) :=
  broadcastTo_apply b broadcasts_S1x64_S6200x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- The bias row spread over 6200 rows reads, at (p, q), the row's entry q. -/
theorem bias_k2_apply (b : FVec Ideal S1x32 .f32) (p : Fin 6200) (q : Fin 32) :
    broadcastTo S6200x32 b broadcasts_S1x32_S6200x32 (ix2 p q) = b (ix2 0 q) :=
  broadcastTo_apply b broadcasts_S1x32_S6200x32 (ix2 p q) (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])

/-! The three bodies at (p, q). -/

/-- The projection body: the clamped affine image of row p at column q. -/
theorem pay0_apply (x : Vec Ideal S5000x384 .f32) (w : Vec Ideal S384x64 .f32) (b : Vec Ideal S1x64 .f32) (p : Fin 5000) (q : Fin 64) :
    k0_pay1 (F := Ideal) x w b (ix2 p q) = max ((∑ k : Fin 384, x (ix2 p k) * w (ix2 k q)) + b (ix2 0 q)) 0 := by
  unfold k0_pay1
  simp only [shapeCast_self]
  rw [maximumf_apply, addf_apply, broadcast_apply, mm_k0_apply, bias_k0_apply]
  simp only [truncf_apply]
  exact congrArg (max _) Ideal.ofBits_zero_f32

/-- The first layer's body: the two products added, then the bias, then the clamp at zero. -/
theorem pay1_apply (a x : Vec Ideal S6200x64 .f32) (wl wr : Vec Ideal S64x64 .f32) (b : Vec Ideal S1x64 .f32) (p : Fin 6200) (q : Fin 64) :
    k1_pay1 (F := Ideal) a x wl wr b (ix2 p q) = max (((∑ k : Fin 64, a (ix2 p k) * wl (ix2 k q)) + ∑ k : Fin 64, x (ix2 p k) * wr (ix2 k q)) + b (ix2 0 q)) 0 := by
  unfold k1_pay1
  simp only [shapeCast_self]
  rw [maximumf_apply, addf_apply, addf_apply, broadcast_apply, mm_k1_apply, mm_k1_apply, bias_k1_apply]
  simp only [truncf_apply]
  exact congrArg (max _) Ideal.ofBits_zero_f32

/-- The second layer's body: the two products added, then the bias; no clamp. -/
theorem pay2_apply (a x : Vec Ideal S6200x64 .f32) (wl wr : Vec Ideal S64x32 .f32) (b : Vec Ideal S1x32 .f32) (p : Fin 6200) (q : Fin 32) :
    k2_pay1 (F := Ideal) a x wl wr b (ix2 p q) = ((∑ k : Fin 64, a (ix2 p k) * wl (ix2 k q)) + ∑ k : Fin 64, x (ix2 p k) * wr (ix2 k q)) + b (ix2 0 q) := by
  unfold k2_pay1
  simp only [shapeCast_self]
  rw [addf_apply, addf_apply, mm_k2_apply, mm_k2_apply, bias_k2_apply]
  simp only [truncf_apply]

end Cert.KernelIdeal.Payload

end
-- ==== Proof.KiFinal.lean ====
/-
  FROM BLOCKS TO THE ARRAY, for the node projection (the first of the three kernel regions).

  The region walks 100 points; point t stores, into rows 5000·t … 5000·t+4999 of the 500000 × 64 output, the body's
  value on the block of feature rows 5000·t … 5000·t+4999, the whole 384 × 64 weight and the 1 × 64 bias row. At a
  position (p, q) of the block that value is max (Σₖ x[5000·t+p, k]·w[k, q] + b[0, q], 0), which is the projection of
  the whole arrays at (5000·t+p, q). So every point writes back its block of ONE function of the arrays, the
  projection; row r of the output lies in the block of point r / 5000, so the blocks cover the array; hence the
  output array ends holding the projection of the arrays the region finds.
-/
import proofs.«167892_j12343736009221_1_alg».proof.Proof.KiProject
import proofs.«167892_j12343736009221_1_alg».proof.Proof.KiPayload
import proofs.«167892_j12343736009221_1_alg».proof.Proof.Spec
import Idealize.ShloMosaic.Lib.Pipeline.Value

set_option maxRecDepth 16384

noncomputable section

namespace Cert.KernelIdeal.Final

open Cert.KernelIdeal Cert.KernelIdeal.Gen Idealize.ShloMosaic Idealize.ShloMosaic.ValueIdx
open Idealize.ShloMosaic.TcCoe
open Idealize.ShloMosaic.Pipeline (Dat)
open scoped BigOperators

variable (V : (c : Dev nD) → (b : Ref sig .tc) → Buf (Elt Ideal) ((c : Thread nD τ).loc b))

/-- The offsets of a whole-block access are zero on both axes. -/
theorem zero_offsets0 : (![0, 0] : Fin 2 → Nat) = fun _ => 0 := funext fun a => by fin_cases a <;> rfl

/-! ## The node projection: 100 blocks of 5000 rows -/

/-- The projection body on one block of rows. If the feature block holds rows n·5000 … n·5000+4999 of the feature
    array, the weight block the whole weight and the bias block the whole bias row, the body's value at a position
    of the block is the projection of the arrays at that position moved down by n·5000 rows. -/
theorem proj_of_block (X : S500000x384.Idx → EReal) (W : S384x64.Idx → EReal) (B : S1x64.Idx → EReal)
    (xb : Vec Ideal S5000x384 .f32) (wb : Vec Ideal S384x64 .f32) (bb : Vec Ideal S1x64 .f32) (n : Nat)
    (hx : ∀ (p : Fin 5000) (k : Fin 384) (r : Fin 500000), r.val = n * 5000 + p.val → xb (ix2 p k) = X (ix2 r k))
    (hw : wb = W) (hb : bb = B)
    (y : S5000x64.Idx) (i : S500000x64.Idx) (hi0 : (i 0).val = n * 5000 + (y 0).val) (hi1 : (i 1).val = (y 1).val) :
    k0_pay1 (F := Ideal) xb wb bb y = Cert.Spec.proj X W (fun q => B (ix2 0 q)) i := by
  subst hw hb
  obtain ⟨p, q, rfl⟩ : ∃ (p : Fin 5000) (q : Fin 64), y = ix2 p q := ⟨y 0, y 1, eq_ix2 y⟩
  obtain ⟨r, s, rfl⟩ : ∃ (r : Fin 500000) (s : Fin 64), i = ix2 r s := ⟨i 0, i 1, eq_ix2 i⟩
  change r.val = n * 5000 + p.val at hi0
  change s.val = q.val at hi1
  obtain rfl : s = q := Fin.ext hi1
  rw [Payload.pay0_apply]
  show max ((∑ k : Fin 384, xb (ix2 p k) * wb (ix2 k s)) + bb (ix2 0 s)) 0
    = max ((∑ k : Fin 384, X (ix2 r k) * wb (ix2 k s)) + bb (ix2 0 s)) 0
  rw [Finset.sum_congr rfl fun k _ => congrArg (· * wb (ix2 k s)) (hx p k r hi0)]

/-- Each window's block index at every point of the grid: the feature and output windows move one block of rows
    per point, the weight and the bias stay at block zero. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the projection of the arrays the region finds. -/
theorem flushed0_eq (c : Dev nD) (t : Fin cfg0.N) :
    (Project.dat (F := Ideal) V c).flushed 3 t = ((cfg0.win 3).blk t).view.read (Elt Ideal)
      (Cert.Spec.proj (V c main_arg0) (V c main_v0) (fun q => V c main_v1 (ix2 0 q))) := by
  show (cfg0.win 3).cut (grid0.coords t) ((Project.dat V c).after 3 t) = _
  rw [Project.after_o]
  unfold Project.out
  rw [View.canon_unit_zero zero_offsets0]
  simp only [View.ld_unit_zero (S := S5000x384) zero_offsets0, View.ld_unit_zero (S := S384x64) zero_offsets0,
    View.ld_unit_zero (S := S1x64) zero_offsets0]
  obtain ⟨e00, e01, e10, e11, e20, e21, e30, e31⟩ := block_index0 t
  funext j
  show k0_pay1 (F := Ideal) (Project.blk V c 0 t) (Project.blk V c 1 t) (Project.blk V c 2 t) j
    = Cert.Spec.proj (V c main_arg0) (V c main_v0) (fun q => V c main_v1 (ix2 0 q)) (((cfg0.win 3).blk t).view.emb j)
  refine proj_of_block (V c main_arg0) (V c main_v0) (V c main_v1) _ _ _ t.val ?_ ?_ ?_ j _ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 384 + 1 * k.val = k.val; omega
  · funext y
    show V c main_v0 (((cfg0.win 1).blk t).view.emb y) = V c main_v0 y
    refine congrArg (V c main_v0) (funext fun a => Fin.ext ?_)
    match a with
    | ⟨0, _⟩ => show win0_1.index t (0 : Fin 2) * 384 + 1 * (y 0).val = (y 0).val; omega
    | ⟨1, _⟩ => show win0_1.index t (1 : Fin 2) * 64 + 1 * (y 1).val = (y 1).val; omega
  · funext y
    show V c main_v1 (((cfg0.win 2).blk t).view.emb y) = V c main_v1 y
    refine congrArg (V c main_v1) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · show win0_3.index t (0 : Fin 2) * 5000 + 1 * (j 0).val = t.val * 5000 + (j 0).val; omega
  · show win0_3.index t (1 : Fin 2) * 64 + 1 * (j 1).val = (j 1).val; omega

/-- An index of the output array is in point t's block iff each coordinate is in the block's range on its axis. -/
theorem mem_blk0 (t : Fin cfg0.N) (i : S500000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v2).slice (win0_3.rect t)).set ↔ _
  rw [View.set_slice_whole, Rect.mem_set_unit]
  exact Iff.rfl

/-- Every row r of the output lies in the block of the point r / 5000. -/
theorem cover0 (i : S500000x64.Idx) : ∃ t : Fin cfg0.N, (cfg0.win 3).flush t = true ∧ i ∈ ((cfg0.win 3).blk t).view.set := by
  have h0 : (i 0).val < 500000 := idx2_lt0 i
  have h1 : (i 1).val < 64 := idx2_lt1 i
  have ht : (i 0).val / 5000 < cfg0.N := by show _ < grid0.N; rw [N_0]; omega
  obtain ⟨-, -, -, -, -, -, e30, e31⟩ := block_index0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e31]; omega

/-- The projection's output array after the region: the projection of the arrays the region finds. -/
theorem final0 (c : Dev nD) : (Project.dat (F := Ideal) V c).arrAt 3 cfg0.N
    = Cert.Spec.proj (V c main_arg0) (V c main_v0) (fun q => V c main_v1 (ix2 0 q)) :=
  (Project.dat V c).arrAt_eq_of_cover 3 _ (fun t _ => flushed0_eq V c t) cover0

end Cert.KernelIdeal.Final

end
-- ==== Proof.KiChain.lean ====
/-
  The host computations between the kernel regions, as functions of arrays, in the kernel program's vocabulary.
  Node numbering is merged: products 0 … 499999, brands from 500000, categories from 520000, shops from 525000. The
  six edge lists give every edge twice (forward and reversed): `srcIdx` lists the 3,000,000 source endpoints, `dstIdx`
  the destination endpoints. A negative source index is wrapped by the number of nodes before the row gather. For a
  feature array X the neighbour sum gathers X's rows at the sources and scatter-adds them at the destinations; the
  count scatter-adds ones at the destinations; the kernel program multiplies the sum by the reciprocal of the count
  clamped below at one. The gather and the scatter-add themselves are never opened: both programs apply the same ones.
-/
import proofs.«167892_j12343736009221_1_alg».proof.KernelIdeal
import proofs.«167892_j12343736009221_1_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- The contents of a host buffer of shape S and element type e. -/
abbrev C (S : Shape) (e : EltTy) : Type := (⟨S, e⟩ : BufTy).Contents (Elt F)

/-- The merged node features: projected products, then the three embedding tables. -/
def feat (p : C (F := F) S500000x64 .f32) (e9 : C (F := F) S20000x64 .f32) (e10 : C (F := F) S5000x64 .f32) (e11 : C (F := F) S2000x64 .f32) :
    C (F := F) S527000x64 .f32 :=
  concatenate S527000x64 0 [⟨S500000x64, p⟩, ⟨S20000x64, e9⟩, ⟨S5000x64, e10⟩, ⟨S2000x64, e11⟩] concatenates_S500000x64_S20000x64_S5000x64_S2000x64_S527000x64_d0

/-- An edge list's endpoints moved into the merged numbering by a constant offset. -/
def shift (a : C (F := F) S500000 .i32) (off : BitVec 32) : C (F := F) S500000 .i32 :=
  addi a (broadcastInDim S500000 ![] bcast_S_S500000 (constantI S_ 32 off))

/-- The 3,000,000 source endpoints. -/
def srcIdx (a1 a2 a3 a4 a5 a6 : C (F := F) S500000 .i32) : C (F := F) S3000000 .i32 :=
  concatenate S3000000 0 [⟨S500000, a1⟩, ⟨S500000, shift a2 500000#32⟩, ⟨S500000, a3⟩, ⟨S500000, shift a4 520000#32⟩, ⟨S500000, a5⟩, ⟨S500000, shift a6 525000#32⟩]
    concatenates_S500000_S500000_S500000_S500000_S500000_S500000_S3000000_d0
/-- The 3,000,000 destination endpoints. -/
def dstIdx (a1 a2 a3 a4 a5 a6 : C (F := F) S500000 .i32) : C (F := F) S3000000 .i32 :=
  concatenate S3000000 0 [⟨S500000, shift a2 500000#32⟩, ⟨S500000, a1⟩, ⟨S500000, shift a4 520000#32⟩, ⟨S500000, a3⟩, ⟨S500000, shift a6 525000#32⟩, ⟨S500000, a5⟩]
    concatenates_S500000_S500000_S500000_S500000_S500000_S500000_S3000000_d0

/-- A negative index counted from the end. -/
def wrap (s : C (F := F) S3000000 .i32) : C (F := F) S3000000 .i32 :=
  select (cmpi .slt s (broadcastInDim S3000000 ![] bcast_S_S3000000 (constantI S_ 32 0#32)))
    (addi s (broadcastInDim S3000000 ![] bcast_S_S3000000 (constantI S_ 32 527000#32))) s

/-- The neighbour sum of X: its rows gathered at the sources, scatter-added at the destinations into zeros. -/
def nbrSum (X : C (F := F) S527000x64 .f32) (s d : C (F := F) S3000000 .i32) : C (F := F) S527000x64 .f32 :=
  Host.scatterAdd scatter_S527000x64_S3000000x1_S3000000x64_1_0_0_1
    (broadcastInDim S527000x64 ![] bcast_S_S527000x64 (constant S_ .f32 0x00000000#32))
    (broadcastInDim S3000000x1 ![0] bcast_S3000000_S3000000x1_0 d)
    (Host.gather gather_S527000x64_S3000000x1_S3000000x64_1_0_n_n_0_1_164 X (broadcastInDim S3000000x1 ![0] bcast_S3000000_S3000000x1_0 (wrap s)))

/-- The number of edges arriving at each node: ones scatter-added at the destinations into zeros. -/
def cntRaw (d : C (F := F) S3000000 .i32) : C (F := F) S527000 .f32 :=
  Host.scatterAdd scatter_S527000_S3000000x1_S3000000_n_0_0_1
    (broadcastInDim S527000 ![] bcast_S_S527000 (constant S_ .f32 0x00000000#32))
    (broadcastInDim S3000000x1 ![0] bcast_S3000000_S3000000x1_0 d)
    (broadcastInDim S3000000 ![] bcast_S_S3000000 (constant S_ .f32 0x3F800000#32))
/-- The count clamped below at one. -/
def cnt (d : C (F := F) S3000000 .i32) : C (F := F) S527000 .f32 :=
  maximumf (cntRaw d) (broadcastInDim S527000 ![] bcast_S_S527000 (constant S_ .f32 0x3F800000#32))
/-- Its reciprocal. -/
def inv (d : C (F := F) S3000000 .i32) : C (F := F) S527000 .f32 :=
  Host.divf (broadcastInDim S527000 ![] bcast_S_S527000 (constant S_ .f32 0x3F800000#32)) (cnt d)

/-- The neighbour mean as the kernel program computes it: the sum times the reciprocal count, row by row. -/
def agg (X : C (F := F) S527000x64 .f32) (s d : C (F := F) S3000000 .i32) : C (F := F) S527000x64 .f32 :=
  mulf (nbrSum X s d)
    (broadcastInDim S527000x64 ![0, 1] bcast_S527000x1_S527000x64_0_1 (broadcastInDim S527000x1 ![0] bcast_S527000_S527000x1_0 (inv d)))

end Cert.KernelIdeal.Chain

end
-- ==== Proof.KiHost.lean ====
/-
  What the host operations around the kernel regions write, as terms of what they read: the first stretch, the head
  of the second, and the last.

  Before the projection the program transposes the projection weight and turns the bias into a row. After it, the
  merged node features are the projection's result followed by the three embedding tables; the source endpoints are
  the six edge lists concatenated, every second one shifted into the merged numbering by its offset; the destination
  endpoints are the same six with each pair swapped. At the end the last result is cut into the four node kinds.
  Each statement reads one buffer after a stretch as a function of the buffers before it; an argument is as launched,
  nothing before having written it.
-/
import proofs.«167892_j12343736009221_1_alg».proof.Proof.KiRun
import proofs.«167892_j12343736009221_1_alg».proof.Proof.KiChain
import Idealize.ShloMosaic.Lib.StableHlo.Run
import Idealize.ShloMosaic.Lib.ValueLayout

noncomputable section

namespace Cert.KernelIdeal.HostSide

open Cert.KernelIdeal Cert.KernelIdeal.Gen Cert.KernelIdeal.Run Cert.KernelIdeal.Chain Idealize.ShloMosaic
open Idealize.ShloMosaic.TcCoe Idealize.ShloMosaic.StableHlo

variable (m : (ℓ : Loc nD τ sig) → Buf (Elt Ideal) ℓ) (c : Dev nD)

/-- The results of the operations of a stretch in one pass: each operation's result at its own buffer is its function
    of its operands' contents, at any other buffer what was there; an operand list read at a literal position is
    that operand. -/
local macro "results_pass" : tactic =>
  `(tactic| simp (disch := decide) only [after_cons, after_nil,
      nullary_result', unary_result', binary_result', ternary_result', reshape_result', nary_result',
      nullary_result_ne', unary_result_ne', binary_result_ne', ternary_result_ne', reshape_result_ne', nary_result_ne',
      Matrix.cons_val])

/-! ## The last stretch: the four slices of the second layer's result -/

theorem x7_v60 : X7 m c main_v60 = extractStridedSlice S500000x32 ![0, 0] (X6 m c main_v59) slices_S527000x32_S500000x32_0_0 := by
  show StableHlo.after hostOps3 _ (Proc.devRef .tc main_v60) = _
  after_results <;> rfl
theorem x7_v61 : X7 m c main_v61 = extractStridedSlice S20000x32 ![500000, 0] (X6 m c main_v59) slices_S527000x32_S20000x32_500000_0 := by
  show StableHlo.after hostOps3 _ (Proc.devRef .tc main_v61) = _
  after_results <;> rfl
theorem x7_v62 : X7 m c main_v62 = extractStridedSlice S5000x32 ![520000, 0] (X6 m c main_v59) slices_S527000x32_S5000x32_520000_0 := by
  show StableHlo.after hostOps3 _ (Proc.devRef .tc main_v62) = _
  after_results <;> rfl
theorem x7_v63 : X7 m c main_v63 = extractStridedSlice S2000x32 ![525000, 0] (X6 m c main_v59) slices_S527000x32_S2000x32_525000_0 := by
  show StableHlo.after hostOps3 _ (Proc.devRef .tc main_v63) = _
  after_results <;> rfl

/-! ## The first stretch: the projection weight transposed, the bias as a row -/

theorem x1_arg0 : X1 m c main_arg0 = m ((c : Thread nD τ).loc main_arg0) :=
  StableHlo.after_of_writes_sub hostOps0 _ hostOps0_writes (by decide)
theorem x1_v0 : X1 m c main_v0 = transpose S384x64 [1, 0] (m ((c : Thread nD τ).loc main_arg7)) transposes_S64x384_S384x64_1_0 := by
  show StableHlo.after hostOps0 _ (Proc.devRef .tc main_v0) = _
  after_results <;> rfl
theorem x1_v1_apply (q : Fin 64) : X1 m c main_v1 (ValueIdx.ix2 0 q) = m ((c : Thread nD τ).loc main_arg8) (ValueIdx.ix1 q) := by
  have h : X1 m c main_v1 = shapeCast S1x64 (m ((c : Thread nD τ).loc main_arg8)) shapeCasts_S64_S1x64 := by
    show StableHlo.after hostOps0 _ (Proc.devRef .tc main_v1) = _
    after_results <;> rfl
  rw [h]
  exact ValueIdx.shapeCast_a_1a_apply _ _ 0 q

/-! ## The arguments before the second stretch are as launched -/

/-- A buffer the first stretch does not write and that is not the projection's result is, before the second
    stretch, as launched. -/
private theorem x2_arg (b : Ref sig .tc) (h1 : b ≠ main_v2) (h0 : b ∉ hostOps0_W) :
    X2 m c (Proc.devRef .tc b) = m ((c : Thread nD τ).loc b) :=
  (X2_keep m c b h1).trans (StableHlo.after_of_writes_sub hostOps0 _ hostOps0_writes h0)

/-- Six lists that are the three forward lists and the three shifted ones, concatenated in the sources' order. -/
private theorem src_of (b1 b2 b3 b4 b5 b6 x1 x2 x3 x4 x5 x6 : C (F := Ideal) S500000 .i32)
    (e1 : x1 = b1) (e2 : x2 = shift b2 500000#32) (e3 : x3 = b3) (e4 : x4 = shift b4 520000#32) (e5 : x5 = b5)
    (e6 : x6 = shift b6 525000#32) :
    concatenate S3000000 0 [⟨S500000, x1⟩, ⟨S500000, x2⟩, ⟨S500000, x3⟩, ⟨S500000, x4⟩, ⟨S500000, x5⟩, ⟨S500000, x6⟩]
      concatenates_S500000_S500000_S500000_S500000_S500000_S500000_S3000000_d0 = srcIdx b1 b2 b3 b4 b5 b6 := by
  subst e1 e2 e3 e4 e5 e6; rfl
/-- The same in the destinations' order. -/
private theorem dst_of (b1 b2 b3 b4 b5 b6 x1 x2 x3 x4 x5 x6 : C (F := Ideal) S500000 .i32)
    (e1 : x1 = shift b2 500000#32) (e2 : x2 = b1) (e3 : x3 = shift b4 520000#32) (e4 : x4 = b3)
    (e5 : x5 = shift b6 525000#32) (e6 : x6 = b5) :
    concatenate S3000000 0 [⟨S500000, x1⟩, ⟨S500000, x2⟩, ⟨S500000, x3⟩, ⟨S500000, x4⟩, ⟨S500000, x5⟩, ⟨S500000, x6⟩]
      concatenates_S500000_S500000_S500000_S500000_S500000_S500000_S3000000_d0 = dstIdx b1 b2 b3 b4 b5 b6 := by
  subst e1 e2 e3 e4 e5 e6; rfl

/-! ## The second stretch: the merged features and the two endpoint lists -/

theorem x3_v3 : X3 m c main_v3 = feat (X2 m c main_v2) (m ((c : Thread nD τ).loc main_arg9)) (m ((c : Thread nD τ).loc main_arg10))
    (m ((c : Thread nD τ).loc main_arg11)) := by
  have h : X3 m c main_v3 = feat (X2 m c main_v2) (X2 m c main_arg9) (X2 m c main_arg10) (X2 m c main_arg11) := by
    show StableHlo.after hostOps1 _ (Proc.devRef .tc main_v3) = _
    after_results <;> rfl
  rw [h, x2_arg m c main_arg9 (by decide) (by decide), x2_arg m c main_arg10 (by decide) (by decide),
    x2_arg m c main_arg11 (by decide) (by decide)]

/-- The sources: the concatenation's six operands are read one by one, each a launched list or a launched list
    shifted by its offset. -/
theorem x3_v10 : X3 m c main_v10 = srcIdx (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  show StableHlo.after hostOps1 _ (Proc.devRef .tc main_v10) = _
  results_pass
  refine src_of _ _ _ _ _ _ _ _ _ _ _ _ ?_ ?_ ?_ ?_ ?_ ?_
  · results_pass; exact x2_arg m c main_arg1 (by decide) (by decide)
  · results_pass; rw [x2_arg m c main_arg2 (by decide) (by decide)]; rfl
  · results_pass; exact x2_arg m c main_arg3 (by decide) (by decide)
  · results_pass; rw [x2_arg m c main_arg4 (by decide) (by decide)]; rfl
  · results_pass; exact x2_arg m c main_arg5 (by decide) (by decide)
  · results_pass; rw [x2_arg m c main_arg6 (by decide) (by decide)]; rfl

/-- The destinations: the same six lists with each pair swapped. -/
theorem x3_v17 : X3 m c main_v17 = dstIdx (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  show StableHlo.after hostOps1 _ (Proc.devRef .tc main_v17) = _
  results_pass
  refine dst_of _ _ _ _ _ _ _ _ _ _ _ _ ?_ ?_ ?_ ?_ ?_ ?_
  · results_pass; rw [x2_arg m c main_arg2 (by decide) (by decide)]; rfl
  · results_pass; exact x2_arg m c main_arg1 (by decide) (by decide)
  · results_pass; rw [x2_arg m c main_arg4 (by decide) (by decide)]; rfl
  · results_pass; exact x2_arg m c main_arg3 (by decide) (by decide)
  · results_pass; rw [x2_arg m c main_arg6 (by decide) (by decide)]; rfl
  · results_pass; exact x2_arg m c main_arg5 (by decide) (by decide)

end Cert.KernelIdeal.HostSide

end
-- ==== Proof.KiHostB.lean ====
/-
  The kernel program's third host stretch: what the host operations between the first and the second layer's regions
  write, as terms of what they read. The stretch wraps the source endpoints, gathers the first layer's result at them,
  scatter-adds the rows at the destinations into zeros and multiplies by the reciprocal count spread along each row;
  it transposes the second layer's two weights and casts its bias to a row. It writes none of what it reads: the
  first layer's result, the endpoints and the reciprocal count are as the stretch found them, and an argument is as
  launched, since no earlier stretch and no region writes it.
-/
import proofs.«167892_j12343736009221_1_alg».proof.Proof.KiRun
import proofs.«167892_j12343736009221_1_alg».proof.Proof.KiChain
import Idealize.ShloMosaic.Lib.StableHlo.Run
import Idealize.ShloMosaic.Lib.ValueLayout

noncomputable section

namespace Cert.KernelIdeal.HostSide

open Cert.KernelIdeal Cert.KernelIdeal.Gen Cert.KernelIdeal.Run Cert.KernelIdeal.Chain
open Cert.KernelIdeal.Facts₀ Cert.KernelIdeal.Facts
open Idealize.ShloMosaic Idealize.ShloMosaic.TcCoe Idealize.SL.Sem

variable (m : (ℓ : Loc nD τ sig) → Buf (Elt Ideal) ℓ) (c : Dev nD)

/-- A buffer that neither of the first two stretches writes and that is no earlier region's result is, when the
    third stretch begins, as launched. -/
theorem x4_launch (b : Ref sig .tc) (h0 : b ∉ hostOps0_W) (h1 : b ≠ main_v2) (h2 : b ∉ hostOps1_W) (h3 : b ≠ main_v42) :
    X4 m c (Proc.devRef .tc b) = m ((c : Thread nD τ).loc b) :=
  (X4_keep m c b h3).trans <| (StableHlo.after_of_writes_sub hostOps1 _ hostOps1_writes h2).trans <|
  (X2_keep m c b h1).trans <| (StableHlo.after_of_writes_sub hostOps0 _ hostOps0_writes h0).trans rfl

/-- The stretch does not write the first layer's result. -/
theorem x5_v42 : X5 m c main_v42 = X4 m c main_v42 :=
  StableHlo.after_of_writes_sub hostOps2 _ hostOps2_writes (by decide)

/-- The second layer's neighbour mean, over the buffers the stretch reads. -/
theorem x5_v55_raw : X5 m c main_v55 =
    mulf (Chain.nbrSum (X4 m c main_v42) (X4 m c main_v10) (X4 m c main_v17))
      (broadcastInDim S527000x64 ![0, 1] Facts₀.bcast_S527000x1_S527000x64_0_1
        (broadcastInDim S527000x1 ![0] Facts₀.bcast_S527000_S527000x1_0 (X4 m c main_v25))) := by
  show StableHlo.after hostOps2 _ (Proc.devRef .tc main_v55) = _
  after_results
  unfold Chain.nbrSum Chain.wrap
  rfl

/-- The second layer's neighbour weight, transposed. -/
theorem x5_v56 : X5 m c main_v56 =
    transpose S64x32 [1, 0] (m ((c : Thread nD τ).loc main_arg15)) Facts₀.transposes_S32x64_S64x32_1_0 := by
  show StableHlo.after hostOps2 _ (Proc.devRef .tc main_v56) = _
  after_results
  rw [x4_launch m c main_arg15 (by decide) (by decide) (by decide) (by decide)]

/-- The second layer's own weight, transposed. -/
theorem x5_v57 : X5 m c main_v57 =
    transpose S64x32 [1, 0] (m ((c : Thread nD τ).loc main_arg17)) Facts₀.transposes_S32x64_S64x32_1_0 := by
  show StableHlo.after hostOps2 _ (Proc.devRef .tc main_v57) = _
  after_results
  rw [x4_launch m c main_arg17 (by decide) (by decide) (by decide) (by decide)]

/-- The second layer's bias as a row, read at a column. -/
theorem x5_v58_apply (q : Fin 32) :
    X5 m c main_v58 (ValueIdx.ix2 0 q) = m ((c : Thread nD τ).loc main_arg16) (ValueIdx.ix1 q) := by
  have e : X5 m c main_v58 = fun i => shapeCast S1x32 (m ((c : Thread nD τ).loc main_arg16)) Facts₀.shapeCasts_S32_S1x32 i := by
    show StableHlo.after hostOps2 _ (Proc.devRef .tc main_v58) = _
    after_results
    rw [x4_launch m c main_arg16 (by decide) (by decide) (by decide) (by decide)]
    rfl
  rw [e]
  exact ValueIdx.shapeCast_a_1a_apply _ _ 0 q

end Cert.KernelIdeal.HostSide

end
-- ==== Proof.KiHostC.lean ====
/-
  The kernel program's second host stretch at the first neighbour mean: the host operations between the projection
  region and the first layer's region concatenate the node features, shift and concatenate the six edge lists into the
  source and the destination endpoints, count the edges arriving at each node by scatter-adding ones, take the
  reciprocal of the count clamped below at one, wrap the sources, gather the features' rows at them, scatter-add the
  rows at the destinations and multiply by the reciprocal count spread along each row. Read at the buffer that holds
  the product, the stretch's fold is the neighbour mean of the merged features over the endpoints, every argument as
  launched: the first stretch writes none of them and the projection region writes only its result.
-/
import proofs.«167892_j12343736009221_1_alg».proof.Proof.KiRun
import proofs.«167892_j12343736009221_1_alg».proof.Proof.KiChain
import Idealize.ShloMosaic.Lib.StableHlo.Run
import Idealize.ShloMosaic.PureOps.Ideal

noncomputable section

namespace Cert.KernelIdeal.HostSide

open Cert.KernelIdeal Cert.KernelIdeal.Gen Cert.KernelIdeal.Run Cert.KernelIdeal.Chain
open Idealize.ShloMosaic Idealize.ShloMosaic.TcCoe Idealize.SL.Sem Idealize.ShloMosaic.StableHlo

variable (m : (ℓ : Loc nD τ sig) → Buf (Elt Ideal) ℓ) (c : Dev nD)

/-- One pass over a stretch's fold at one buffer: an operation's result at its own buffer is its function of its
    operands' contents, at any other buffer what was there; an operand family read at a literal position is that
    operand. -/
local macro "fold_pass" : tactic =>
  `(tactic| simp (disch := decide) only [after_cons, after_nil,
      nullary_result', unary_result', binary_result', ternary_result', reshape_result', nary_result',
      nullary_result_ne', unary_result_ne', binary_result_ne', ternary_result_ne', reshape_result_ne', nary_result_ne',
      Matrix.cons_val])

/-- A buffer that the first stretch does not write and that is not the projection region's result is, when the
    second stretch begins, as launched. -/
private theorem x2_launch (b : Ref sig .tc) (h0 : b ∉ hostOps0_W) (h1 : b ≠ main_v2) :
    X2 m c (Proc.devRef .tc b) = m ((c : Thread nD τ).loc b) :=
  (X2_keep m c b h1).trans <| (StableHlo.after_of_writes_sub hostOps0 _ hostOps0_writes h0).trans rfl

/-- The neighbour mean respects equality of the features and of the two endpoint lists. -/
private theorem mean_of (X X' : C (F := Ideal) S527000x64 .f32) (s s' d d' : C (F := Ideal) S3000000 .i32)
    (eX : X = X') (es : s = s') (ed : d = d') : agg X s d = agg X' s' d' := by
  subst eX es ed; rfl

/-- Four arrays that are the projected products and the three tables, concatenated, are the merged features. -/
private theorem feat_of (p p' : C (F := Ideal) S500000x64 .f32) (u9 u9' : C (F := Ideal) S20000x64 .f32)
    (u10 u10' : C (F := Ideal) S5000x64 .f32) (u11 u11' : C (F := Ideal) S2000x64 .f32)
    (e0 : p = p') (e1 : u9 = u9') (e2 : u10 = u10') (e3 : u11 = u11') :
    concatenate S527000x64 0 [⟨S500000x64, p⟩, ⟨S20000x64, u9⟩, ⟨S5000x64, u10⟩, ⟨S2000x64, u11⟩]
      Facts₀.concatenates_S500000x64_S20000x64_S5000x64_S2000x64_S527000x64_d0 = feat p' u9' u10' u11' := by
  subst e0 e1 e2 e3; rfl

/-- Six lists that are the three forward lists and the three shifted ones, in the sources' order, concatenated. -/
private theorem src_of (b1 b2 b3 b4 b5 b6 y1 y2 y3 y4 y5 y6 : C (F := Ideal) S500000 .i32)
    (e1 : y1 = b1) (e2 : y2 = shift b2 500000#32) (e3 : y3 = b3) (e4 : y4 = shift b4 520000#32) (e5 : y5 = b5)
    (e6 : y6 = shift b6 525000#32) :
    concatenate S3000000 0 [⟨S500000, y1⟩, ⟨S500000, y2⟩, ⟨S500000, y3⟩, ⟨S500000, y4⟩, ⟨S500000, y5⟩, ⟨S500000, y6⟩]
      Facts₀.concatenates_S500000_S500000_S500000_S500000_S500000_S500000_S3000000_d0 = srcIdx b1 b2 b3 b4 b5 b6 := by
  subst e1 e2 e3 e4 e5 e6; rfl

/-- The same six lists in the destinations' order. -/
private theorem dst_of (b1 b2 b3 b4 b5 b6 y1 y2 y3 y4 y5 y6 : C (F := Ideal) S500000 .i32)
    (e1 : y1 = shift b2 500000#32) (e2 : y2 = b1) (e3 : y3 = shift b4 520000#32) (e4 : y4 = b3)
    (e5 : y5 = shift b6 525000#32) (e6 : y6 = b5) :
    concatenate S3000000 0 [⟨S500000, y1⟩, ⟨S500000, y2⟩, ⟨S500000, y3⟩, ⟨S500000, y4⟩, ⟨S500000, y5⟩, ⟨S500000, y6⟩]
      Facts₀.concatenates_S500000_S500000_S500000_S500000_S500000_S500000_S3000000_d0 = dstIdx b1 b2 b3 b4 b5 b6 := by
  subst e1 e2 e3 e4 e5 e6; rfl

/-- The first neighbour mean: the merged features' rows gathered at the sources, scatter-added at the destinations,
    times the reciprocal of the clamped count. -/
theorem x3_v38 : X3 m c main_v38 =
    Chain.agg (Chain.feat (X2 m c main_v2) (m ((c : Thread nD τ).loc main_arg9)) (m ((c : Thread nD τ).loc main_arg10))
        (m ((c : Thread nD τ).loc main_arg11)))
      (Chain.srcIdx (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)))
      (Chain.dstIdx (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  show StableHlo.after hostOps1 _ (Proc.devRef .tc main_v38) = _
  fold_pass
  refine mean_of _ _ _ _ _ _ ?_ ?_ ?_
  · refine feat_of _ _ _ _ _ _ _ _ ?_ ?_ ?_ ?_
    · rfl
    · exact x2_launch m c main_arg9 (by decide) (by decide)
    · exact x2_launch m c main_arg10 (by decide) (by decide)
    · exact x2_launch m c main_arg11 (by decide) (by decide)
  · refine src_of _ _ _ _ _ _ _ _ _ _ _ _ ?_ ?_ ?_ ?_ ?_ ?_
    · fold_pass; exact x2_launch m c main_arg1 (by decide) (by decide)
    · fold_pass; rw [x2_launch m c main_arg2 (by decide) (by decide)]; rfl
    · fold_pass; exact x2_launch m c main_arg3 (by decide) (by decide)
    · fold_pass; rw [x2_launch m c main_arg4 (by decide) (by decide)]; rfl
    · fold_pass; exact x2_launch m c main_arg5 (by decide) (by decide)
    · fold_pass; rw [x2_launch m c main_arg6 (by decide) (by decide)]; rfl
  · refine dst_of _ _ _ _ _ _ _ _ _ _ _ _ ?_ ?_ ?_ ?_ ?_ ?_
    · fold_pass; rw [x2_launch m c main_arg2 (by decide) (by decide)]; rfl
    · fold_pass; exact x2_launch m c main_arg1 (by decide) (by decide)
    · fold_pass; rw [x2_launch m c main_arg4 (by decide) (by decide)]; rfl
    · fold_pass; exact x2_launch m c main_arg3 (by decide) (by decide)
    · fold_pass; rw [x2_launch m c main_arg6 (by decide) (by decide)]; rfl
    · fold_pass; exact x2_launch m c main_arg5 (by decide) (by decide)

end Cert.KernelIdeal.HostSide

end
-- ==== Proof.KiHostD.lean ====
/-
  The kernel program's second host stretch, three of its results as terms of the launch contents: the first layer's
  two weights transposed, and its bias as a row read at a column. The stretch reads each from an argument that nothing
  before it writes, so each is as launched.
-/
import proofs.«167892_j12343736009221_1_alg».proof.Proof.KiRun
import proofs.«167892_j12343736009221_1_alg».proof.Proof.KiChain
import Idealize.ShloMosaic.Lib.StableHlo.Run
import Idealize.ShloMosaic.Lib.ValueLayout

noncomputable section

namespace Cert.KernelIdeal.HostSide

open Cert.KernelIdeal Cert.KernelIdeal.Gen Cert.KernelIdeal.Run Cert.KernelIdeal.Chain
open Cert.KernelIdeal.Facts₀ Cert.KernelIdeal.Facts
open Idealize.ShloMosaic Idealize.ShloMosaic.TcCoe Idealize.SL.Sem

variable (m : (ℓ : Loc nD τ sig) → Buf (Elt Ideal) ℓ) (c : Dev nD)

/-- A buffer that the first stretch does not write and that is not the projection's result is, when the second
    stretch begins, as launched. -/
private theorem x2_arg (b : Ref sig .tc) (h0 : b ∉ hostOps0_W) (h1 : b ≠ main_v2) :
    X2 m c (Proc.devRef .tc b) = m ((c : Thread nD τ).loc b) :=
  (X2_keep m c b h1).trans <| (StableHlo.after_of_writes_sub hostOps0 _ hostOps0_writes h0).trans rfl

/-- The first layer's neighbour weight, transposed. -/
theorem x3_v39 : X3 m c main_v39 =
    transpose S64x64 [1, 0] (m ((c : Thread nD τ).loc main_arg12)) Facts₀.transposes_S64x64_S64x64_1_0 := by
  show StableHlo.after hostOps1 _ (Proc.devRef .tc main_v39) = _
  after_results
  rw [x2_arg m c main_arg12 (by decide) (by decide)]

/-- The first layer's own weight, transposed. -/
theorem x3_v40 : X3 m c main_v40 =
    transpose S64x64 [1, 0] (m ((c : Thread nD τ).loc main_arg14)) Facts₀.transposes_S64x64_S64x64_1_0 := by
  show StableHlo.after hostOps1 _ (Proc.devRef .tc main_v40) = _
  after_results
  rw [x2_arg m c main_arg14 (by decide) (by decide)]

/-- The first layer's bias as a row, read at a column. -/
theorem x3_v41_apply (q : Fin 64) :
    X3 m c main_v41 (ValueIdx.ix2 0 q) = m ((c : Thread nD τ).loc main_arg13) (ValueIdx.ix1 q) := by
  have e : X3 m c main_v41 = fun i => shapeCast S1x64 (m ((c : Thread nD τ).loc main_arg13)) Facts₀.shapeCasts_S64_S1x64 i := by
    show StableHlo.after hostOps1 _ (Proc.devRef .tc main_v41) = _
    after_results
    rw [x2_arg m c main_arg13 (by decide) (by decide)]
    rfl
  rw [e]
  exact ValueIdx.shapeCast_a_1a_apply _ _ 0 q

end Cert.KernelIdeal.HostSide

end
-- ==== Proof.KiHostE.lean ====
/-
  The kernel program's second host stretch at the reciprocal count: the host operations between the projection region
  and the first layer's region shift and concatenate the six edge lists into the destination endpoints, count the edges
  arriving at each node by scatter-adding ones into zeros, clamp the count below at one and divide one by it. Read at
  the buffer that holds the quotient, the stretch's fold is the reciprocal of the clamped count over the destinations,
  every edge list as launched: the first stretch writes none of them and the projection region writes only its result.
-/
import proofs.«167892_j12343736009221_1_alg».proof.Proof.KiRun
import proofs.«167892_j12343736009221_1_alg».proof.Proof.KiChain
import Idealize.ShloMosaic.Lib.StableHlo.Run
import Idealize.ShloMosaic.PureOps.Ideal

noncomputable section

namespace Cert.KernelIdeal.HostSide

open Cert.KernelIdeal Cert.KernelIdeal.Gen Cert.KernelIdeal.Run Cert.KernelIdeal.Chain
open Idealize.ShloMosaic Idealize.ShloMosaic.TcCoe Idealize.SL.Sem Idealize.ShloMosaic.StableHlo

variable (m : (ℓ : Loc nD τ sig) → Buf (Elt Ideal) ℓ) (c : Dev nD)

/-- One pass over a stretch's fold at one buffer: an operation's result at its own buffer is its function of its
    operands' contents, at any other buffer what was there; an operand family read at a literal position is that
    operand. -/
local macro "fold_pass" : tactic =>
  `(tactic| simp (disch := decide) only [after_cons, after_nil,
      nullary_result', unary_result', binary_result', ternary_result', reshape_result', nary_result',
      nullary_result_ne', unary_result_ne', binary_result_ne', ternary_result_ne', reshape_result_ne', nary_result_ne',
      Matrix.cons_val])

/-- A buffer that the first stretch does not write and that is not the projection region's result is, when the
    second stretch begins, as launched. -/
private theorem x2_launch (b : Ref sig .tc) (h0 : b ∉ hostOps0_W) (h1 : b ≠ main_v2) :
    X2 m c (Proc.devRef .tc b) = m ((c : Thread nD τ).loc b) :=
  (X2_keep m c b h1).trans <| (StableHlo.after_of_writes_sub hostOps0 _ hostOps0_writes h0).trans rfl

/-- The reciprocal count respects equality of the destination lists. -/
private theorem inv_of (d d' : C (F := Ideal) S3000000 .i32) (ed : d = d') : inv d = inv d' := by
  subst ed; rfl

/-- Six lists that are the three shifted lists and the three forward ones, in the destinations' order, concatenated. -/
private theorem dst_of (b1 b2 b3 b4 b5 b6 y1 y2 y3 y4 y5 y6 : C (F := Ideal) S500000 .i32)
    (e1 : y1 = shift b2 500000#32) (e2 : y2 = b1) (e3 : y3 = shift b4 520000#32) (e4 : y4 = b3)
    (e5 : y5 = shift b6 525000#32) (e6 : y6 = b5) :
    concatenate S3000000 0 [⟨S500000, y1⟩, ⟨S500000, y2⟩, ⟨S500000, y3⟩, ⟨S500000, y4⟩, ⟨S500000, y5⟩, ⟨S500000, y6⟩]
      Facts₀.concatenates_S500000_S500000_S500000_S500000_S500000_S500000_S3000000_d0 = dstIdx b1 b2 b3 b4 b5 b6 := by
  subst e1 e2 e3 e4 e5 e6; rfl

/-- The reciprocal of the count of arriving edges clamped below at one. -/
theorem x3_v25 : X3 m c main_v25 =
    Chain.inv (Chain.dstIdx (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) := by
  show StableHlo.after hostOps1 _ (Proc.devRef .tc main_v25) = _
  fold_pass
  refine inv_of _ _ ?_
  refine dst_of _ _ _ _ _ _ _ _ _ _ _ _ ?_ ?_ ?_ ?_ ?_ ?_
  · fold_pass; rw [x2_launch m c main_arg2 (by decide) (by decide)]; rfl
  · fold_pass; exact x2_launch m c main_arg1 (by decide) (by decide)
  · fold_pass; rw [x2_launch m c main_arg4 (by decide) (by decide)]; rfl
  · fold_pass; exact x2_launch m c main_arg3 (by decide) (by decide)
  · fold_pass; rw [x2_launch m c main_arg6 (by decide) (by decide)]; rfl
  · fold_pass; exact x2_launch m c main_arg5 (by decide) (by decide)

end Cert.KernelIdeal.HostSide

end
-- ==== Proof.KiFinalSage.lean ====
/-
  FROM BLOCKS TO THE ARRAY, first layer. The region runs the dense body at 85 points; point t reads rows
  6200·t … 6200·t + 6199 of the aggregated neighbours and of the node features, the two whole weights and the bias
  row, and writes back rows 6200·t … 6200·t + 6199 of the output. Here: what point t writes back is block t of ONE
  function of the input arrays — at (r, q): max ((Σₖ agg[r,k]·wl[k,q] + Σₖ x[r,k]·wr[k,q]) + b[0,q], 0) —, the 85
  blocks tile the 527000 rows (row r lies in block r / 6200), and so the output array ends holding that function.
-/
import proofs.«167892_j12343736009221_1_alg».proof.Proof.KiSage1
import proofs.«167892_j12343736009221_1_alg».proof.Proof.KiPayload
import proofs.«167892_j12343736009221_1_alg».proof.Proof.Spec
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

theorem zero_offsets1 : (![0, 0] : Fin 2 → Nat) = fun _ => 0 := funext fun a => by fin_cases a <;> rfl

/-- One block of the first layer, read at (p, q): when the two row blocks are the rows of the node arrays that start at
    row r − p (so that block row p is array row r), and the weights and the bias row are the whole arrays, the body's
    value is the layer's dense part at (r, q). -/
theorem layer1_of_block (A X : Vec Ideal S527000x64 .f32) (WL WR : Vec Ideal S64x64 .f32) (B : Vec Ideal S1x64 .f32)
    (a x : Vec Ideal S6200x64 .f32) (wl wr : Vec Ideal S64x64 .f32) (b : Vec Ideal S1x64 .f32)
    (r : Fin 527000) (p : Fin 6200) (q : Fin 64)
    (ha : ∀ k : Fin 64, a (ix2 p k) = A (ix2 r k)) (hx : ∀ k : Fin 64, x (ix2 p k) = X (ix2 r k))
    (hwl : wl = WL) (hwr : wr = WR) (hb : b = B) :
    k1_pay1 (F := Ideal) a x wl wr b (ix2 p q) = Cert.Spec.layer1At A X WL WR (fun q => B (ix2 0 q)) r q := by
  subst hwl hwr hb
  rw [Payload.pay1_apply]
  unfold Cert.Spec.layer1At
  simp only [ha, hx]

/-- The index maps over the grid: the two node windows and the output move one block of rows per point, the weights
    and the bias row stay at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer's dense part of the arrays as the region finds them. -/
theorem flushed1_eq (c : Dev nD) (t : Fin cfg1.N) :
    (Sage1.dat (F := Ideal) V c).flushed 5 t = ((cfg1.win 5).blk t).view.read (Elt Ideal)
      (Cert.Spec.layer1 (V c main_v38) (V c main_v3) (V c main_v39) (V c main_v40) (fun q => V c main_v41 (ix2 0 q))) := by
  show (cfg1.win 5).cut (grid1.coords t) ((Sage1.dat V c).after 5 t) = _
  rw [Sage1.after_o]
  unfold Sage1.out
  rw [View.canon_unit_zero zero_offsets1]
  simp only [View.ld_unit_zero (S := S6200x64) zero_offsets1, View.ld_unit_zero (S := S64x64) zero_offsets1, View.ld_unit_zero (S := S1x64) zero_offsets1]
  funext j
  obtain ⟨p, q, rfl⟩ : ∃ (p : Fin 6200) (q : Fin 64), j = ix2 p q := ⟨j 0, j 1, eq_ix2 j⟩
  obtain ⟨e00, e01, e10, e11, e20, e21, e30, e31, e40, e41, e50, e51⟩ := block_index1 t
  have ht : t.val < 85 := t.isLt
  have hp : p.val < 6200 := p.isLt
  have hr : 6200 * t.val + p.val < 527000 := by omega
  refine (layer1_of_block (V c main_v38) (V c main_v3) (V c main_v39) (V c main_v40) (V c main_v41)
    (Sage1.blk V c 0 t) (Sage1.blk V c 1 t) (Sage1.blk V c 2 t) (Sage1.blk V c 3 t) (Sage1.blk V c 4 t)
    ⟨6200 * t.val + p.val, hr⟩ p q ?_ ?_ ?_ ?_ ?_).trans ?_
  · intro k
    show V c main_v38 (((cfg1.win 0).blk t).view.emb (ix2 p k)) = V c main_v38 (ix2 ⟨6200 * t.val + p.val, hr⟩ k)
    refine congrArg (V c main_v38) (funext fun a => Fin.ext ?_)
    match a with
    | ⟨0, _⟩ => show win1_0.index t (0 : Fin 2) * 6200 + 1 * p.val = 6200 * t.val + p.val; omega
    | ⟨1, _⟩ => show win1_0.index t (1 : Fin 2) * 64 + 1 * k.val = k.val; omega
  · intro k
    show V c main_v3 (((cfg1.win 1).blk t).view.emb (ix2 p k)) = V c main_v3 (ix2 ⟨6200 * t.val + p.val, hr⟩ k)
    refine congrArg (V c main_v3) (funext fun a => Fin.ext ?_)
    match a with
    | ⟨0, _⟩ => show win1_1.index t (0 : Fin 2) * 6200 + 1 * p.val = 6200 * t.val + p.val; omega
    | ⟨1, _⟩ => show win1_1.index t (1 : Fin 2) * 64 + 1 * k.val = k.val; omega
  · funext y
    show V c main_v39 (((cfg1.win 2).blk t).view.emb y) = V c main_v39 y
    refine congrArg (V c main_v39) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_v40 (((cfg1.win 3).blk t).view.emb y) = V c main_v40 y
    refine congrArg (V c main_v40) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_v41 (((cfg1.win 4).blk t).view.emb y) = V c main_v41 y
    refine congrArg (V c main_v41) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  · show _ = Cert.Spec.layer1At (V c main_v38) (V c main_v3) (V c main_v39) (V c main_v40) (fun q => V c main_v41 (ix2 0 q))
      ((((cfg1.win 5).blk t).view.emb (ix2 p q)) 0) ((((cfg1.win 5).blk t).view.emb (ix2 p q)) 1)
    have h0 : (((cfg1.win 5).blk t).view.emb (ix2 p q)) 0 = (⟨6200 * t.val + p.val, hr⟩ : Fin 527000) :=
      Fin.ext (by show win1_5.index t (0 : Fin 2) * 6200 + 1 * p.val = 6200 * t.val + p.val; omega)
    have h1 : (((cfg1.win 5).blk t).view.emb (ix2 p q)) 1 = q :=
      Fin.ext (by show win1_5.index t (1 : Fin 2) * 64 + 1 * q.val = q.val; omega)
    rw [h0, h1]

/-- An index of the output array is in point t's block iff each coordinate is in the block's range on its axis. -/
theorem mem_blk1 (t : Fin cfg1.N) (i : S527000x64.Idx) :
    i ∈ ((cfg1.win 5).blk t).view.set ↔ ∀ a : Fin 2, win1_5.index t a * S6200x64.size a ≤ (i a).val
      ∧ (i a).val < win1_5.index t a * S6200x64.size a + S6200x64.size a := by
  show i ∈ ((View.whole main_v42).slice (win1_5.rect t)).set ↔ _
  rw [View.set_slice_whole, Rect.mem_set_unit]
  exact Iff.rfl

/-- Every row of the output is in the block of the point its row number divided by 6200 names: 85 blocks of 6200 rows
    tile the 527000 rows. -/
theorem cover1 (i : S527000x64.Idx) : ∃ t : Fin cfg1.N, (cfg1.win 5).flush t = true ∧ i ∈ ((cfg1.win 5).blk t).view.set := by
  have hi0 : (i 0).val < 527000 := (i 0).isLt
  have hi1 : (i 1).val < 64 := (i 1).isLt
  have hlt : (i 0).val / 6200 < 85 := by omega
  obtain ⟨-, -, -, -, -, -, -, -, -, -, e50, e51⟩ := block_index1 ⟨(i 0).val / 6200, hlt⟩
  refine ⟨⟨(i 0).val / 6200, hlt⟩, flush1_5 _, ?_⟩
  rw [mem_blk1]
  intro a
  match a with
  | ⟨0, _⟩ =>
    show win1_5.index ⟨(i 0).val / 6200, hlt⟩ (0 : Fin 2) * 6200 ≤ (i 0).val
      ∧ (i 0).val < win1_5.index ⟨(i 0).val / 6200, hlt⟩ (0 : Fin 2) * 6200 + 6200
    rw [e50]
    show (i 0).val / 6200 * 6200 ≤ (i 0).val ∧ (i 0).val < (i 0).val / 6200 * 6200 + 6200
    omega
  | ⟨1, _⟩ =>
    show win1_5.index ⟨(i 0).val / 6200, hlt⟩ (1 : Fin 2) * 64 ≤ (i 1).val
      ∧ (i 1).val < win1_5.index ⟨(i 0).val / 6200, hlt⟩ (1 : Fin 2) * 64 + 64
    rw [e51]
    omega

/-- After the region the output array holds the first layer's dense part of the arrays as the region finds them. -/
theorem final1 (c : Dev nD) : (Sage1.dat (F := Ideal) V c).arrAt 5 cfg1.N
    = Cert.Spec.layer1 (V c main_v38) (V c main_v3) (V c main_v39) (V c main_v40) (fun q => V c main_v41 (ix2 0 q)) :=
  (Sage1.dat (F := Ideal) V c).arrAt_eq_of_cover 5 _ (fun t _ => flushed1_eq V c t) cover1

end Cert.KernelIdeal.Final

end
-- ==== Proof.KiFinalSage2.lean ====
/-
  FROM BLOCKS TO THE ARRAY, for the second layer's dense part (the third of the three kernel regions).

  The region walks 85 points; point t stores, into rows 6200·t … 6200·t+6199 of the 527000 × 32 output, the body's
  value on the blocks of rows 6200·t … 6200·t+6199 of the aggregated neighbours and of the node features, the two
  whole 64 × 32 weights and the 1 × 32 bias row. At a position (p, q) of the block that value is
  (Σₖ a[6200·t+p, k]·wl[k, q] + Σₖ x[6200·t+p, k]·wr[k, q]) + b[0, q], which is the layer's dense part of the whole
  arrays at (6200·t+p, q). So every point writes back its block of ONE function of the arrays; row r of the output
  lies in the block of point r / 6200, so the blocks cover the array; hence the output array ends holding the
  layer's dense part of the arrays the region finds.
-/
import proofs.«167892_j12343736009221_1_alg».proof.Proof.KiSage2
import proofs.«167892_j12343736009221_1_alg».proof.Proof.KiPayload
import proofs.«167892_j12343736009221_1_alg».proof.Proof.Spec
import Idealize.ShloMosaic.Lib.Pipeline.Value

set_option maxRecDepth 16384

noncomputable section

namespace Cert.KernelIdeal.Final

open Cert.KernelIdeal Cert.KernelIdeal.Gen Idealize.ShloMosaic Idealize.ShloMosaic.ValueIdx
open Idealize.ShloMosaic.TcCoe
open Idealize.ShloMosaic.Pipeline (Dat)
open scoped BigOperators

variable (V : (c : Dev nD) → (b : Ref sig .tc) → Buf (Elt Ideal) ((c : Thread nD τ).loc b))

/-- The offsets of a whole-block access are zero on both axes. -/
theorem zero_offsets2 : (![0, 0] : Fin 2 → Nat) = fun _ => 0 := funext fun a => by fin_cases a <;> rfl

/-! ## The second layer's dense part: 85 blocks of 6200 rows -/

/-- The layer's body on one block of rows. If the two row blocks hold rows n·6200 … n·6200+6199 of the aggregated
    neighbours and of the node features, the weight blocks the whole weights and the bias block the whole bias row,
    the body's value at a position of the block is the layer's dense part of the arrays at that position moved down
    by n·6200 rows. -/
theorem layer2_of_block (A X : S527000x64.Idx → EReal) (Wl Wr : S64x32.Idx → EReal) (B : S1x32.Idx → EReal)
    (ab xb : Vec Ideal S6200x64 .f32) (wlb wrb : Vec Ideal S64x32 .f32) (bb : Vec Ideal S1x32 .f32) (n : Nat)
    (ha : ∀ (p : Fin 6200) (k : Fin 64) (r : Fin 527000), r.val = n * 6200 + p.val → ab (ix2 p k) = A (ix2 r k))
    (hx : ∀ (p : Fin 6200) (k : Fin 64) (r : Fin 527000), r.val = n * 6200 + p.val → xb (ix2 p k) = X (ix2 r k))
    (hwl : wlb = Wl) (hwr : wrb = Wr) (hb : bb = B)
    (y : S6200x32.Idx) (i : S527000x32.Idx) (hi0 : (i 0).val = n * 6200 + (y 0).val) (hi1 : (i 1).val = (y 1).val) :
    k2_pay1 (F := Ideal) ab xb wlb wrb bb y = Cert.Spec.layer2 A X Wl Wr (fun q => B (ix2 0 q)) i := by
  subst hwl hwr hb
  obtain ⟨p, q, rfl⟩ : ∃ (p : Fin 6200) (q : Fin 32), y = ix2 p q := ⟨y 0, y 1, eq_ix2 y⟩
  obtain ⟨r, s, rfl⟩ : ∃ (r : Fin 527000) (s : Fin 32), i = ix2 r s := ⟨i 0, i 1, eq_ix2 i⟩
  change r.val = n * 6200 + p.val at hi0
  change s.val = q.val at hi1
  obtain rfl : s = q := Fin.ext hi1
  rw [Payload.pay2_apply]
  show ((∑ k : Fin 64, ab (ix2 p k) * wlb (ix2 k s)) + ∑ k : Fin 64, xb (ix2 p k) * wrb (ix2 k s)) + bb (ix2 0 s)
    = ((∑ k : Fin 64, A (ix2 r k) * wlb (ix2 k s)) + ∑ k : Fin 64, X (ix2 r k) * wrb (ix2 k s)) + bb (ix2 0 s)
  rw [Finset.sum_congr rfl fun k _ => congrArg (· * wlb (ix2 k s)) (ha p k r hi0),
    Finset.sum_congr rfl fun k _ => congrArg (· * wrb (ix2 k s)) (hx p k r hi0)]

/-- Each window's block index at every point of the grid: the two row windows and the output window move one block
    of rows per point, the two weights and the bias stay at block zero. -/
theorem block_index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer's dense part of the arrays the region finds. -/
theorem flushed2_eq (c : Dev nD) (t : Fin cfg2.N) :
    (Sage2.dat (F := Ideal) V c).flushed 5 t = ((cfg2.win 5).blk t).view.read (Elt Ideal)
      (Cert.Spec.layer2 (V c main_v55) (V c main_v42) (V c main_v56) (V c main_v57) (fun q => V c main_v58 (ix2 0 q))) := by
  show (cfg2.win 5).cut (grid2.coords t) ((Sage2.dat V c).after 5 t) = _
  rw [Sage2.after_o]
  unfold Sage2.out
  rw [View.canon_unit_zero zero_offsets2]
  simp only [View.ld_unit_zero (S := S6200x64) zero_offsets2, View.ld_unit_zero (S := S64x32) zero_offsets2,
    View.ld_unit_zero (S := S1x32) zero_offsets2]
  obtain ⟨e00, e01, e10, e11, e20, e21, e30, e31, e40, e41, e50, e51⟩ := block_index2 t
  funext j
  show k2_pay1 (F := Ideal) (Sage2.blk V c 0 t) (Sage2.blk V c 1 t) (Sage2.blk V c 2 t) (Sage2.blk V c 3 t) (Sage2.blk V c 4 t) j
    = Cert.Spec.layer2 (V c main_v55) (V c main_v42) (V c main_v56) (V c main_v57) (fun q => V c main_v58 (ix2 0 q))
        (((cfg2.win 5).blk t).view.emb j)
  refine layer2_of_block (V c main_v55) (V c main_v42) (V c main_v56) (V c main_v57) (V c main_v58) _ _ _ _ _ t.val
    ?_ ?_ ?_ ?_ ?_ j _ ?_ ?_
  · intro p k r hr
    show V c main_v55 (((cfg2.win 0).blk t).view.emb (ix2 p k)) = V c main_v55 (ix2 r k)
    refine congrArg (V c main_v55) (funext fun a => Fin.ext ?_)
    match a with
    | ⟨0, _⟩ => show win2_0.index t (0 : Fin 2) * 6200 + 1 * p.val = r.val; omega
    | ⟨1, _⟩ => show win2_0.index t (1 : Fin 2) * 64 + 1 * k.val = k.val; omega
  · intro p k r hr
    show V c main_v42 (((cfg2.win 1).blk t).view.emb (ix2 p k)) = V c main_v42 (ix2 r k)
    refine congrArg (V c main_v42) (funext fun a => Fin.ext ?_)
    match a with
    | ⟨0, _⟩ => show win2_1.index t (0 : Fin 2) * 6200 + 1 * p.val = r.val; omega
    | ⟨1, _⟩ => show win2_1.index t (1 : Fin 2) * 64 + 1 * k.val = k.val; omega
  · funext y
    show V c main_v56 (((cfg2.win 2).blk t).view.emb y) = V c main_v56 y
    refine congrArg (V c main_v56) (funext fun a => Fin.ext ?_)
    match a with
    | ⟨0, _⟩ => show win2_2.index t (0 : Fin 2) * 64 + 1 * (y 0).val = (y 0).val; omega
    | ⟨1, _⟩ => show win2_2.index t (1 : Fin 2) * 32 + 1 * (y 1).val = (y 1).val; omega
  · funext y
    show V c main_v57 (((cfg2.win 3).blk t).view.emb y) = V c main_v57 y
    refine congrArg (V c main_v57) (funext fun a => Fin.ext ?_)
    match a with
    | ⟨0, _⟩ => show win2_3.index t (0 : Fin 2) * 64 + 1 * (y 0).val = (y 0).val; omega
    | ⟨1, _⟩ => show win2_3.index t (1 : Fin 2) * 32 + 1 * (y 1).val = (y 1).val; omega
  · funext y
    show V c main_v58 (((cfg2.win 4).blk t).view.emb y) = V c main_v58 y
    refine congrArg (V c main_v58) (funext fun a => Fin.ext ?_)
    match a with
    | ⟨0, _⟩ => show win2_4.index t (0 : Fin 2) * 1 + 1 * (y 0).val = (y 0).val; omega
    | ⟨1, _⟩ => show win2_4.index t (1 : Fin 2) * 32 + 1 * (y 1).val = (y 1).val; omega
  · show win2_5.index t (0 : Fin 2) * 6200 + 1 * (j 0).val = t.val * 6200 + (j 0).val; omega
  · show win2_5.index t (1 : Fin 2) * 32 + 1 * (j 1).val = (j 1).val; omega

/-- An index of the output array is in point t's block iff each coordinate is in the block's range on its axis. -/
theorem mem_blk2 (t : Fin cfg2.N) (i : S527000x32.Idx) :
    i ∈ ((cfg2.win 5).blk t).view.set ↔ ∀ a : Fin 2, win2_5.index t a * S6200x32.size a ≤ (i a).val
      ∧ (i a).val < win2_5.index t a * S6200x32.size a + S6200x32.size a := by
  show i ∈ ((View.whole main_v59).slice (win2_5.rect t)).set ↔ _
  rw [View.set_slice_whole, Rect.mem_set_unit]
  exact Iff.rfl

/-- Every row r of the output lies in the block of the point r / 6200. -/
theorem cover2 (i : S527000x32.Idx) : ∃ t : Fin cfg2.N, (cfg2.win 5).flush t = true ∧ i ∈ ((cfg2.win 5).blk t).view.set := by
  have h0 : (i 0).val < 527000 := idx2_lt0 i
  have h1 : (i 1).val < 32 := idx2_lt1 i
  have ht : (i 0).val / 6200 < cfg2.N := by show _ < grid2.N; rw [N_2]; omega
  obtain ⟨-, -, -, -, -, -, -, -, -, -, e50, e51⟩ := block_index2 ⟨(i 0).val / 6200, ht⟩
  refine ⟨⟨(i 0).val / 6200, ht⟩, flush2_5 _, ?_⟩
  rw [mem_blk2]
  intro a
  match a with
  | ⟨0, _⟩ =>
    show win2_5.index ⟨(i 0).val / 6200, ht⟩ (0 : Fin 2) * 6200 ≤ (i 0).val
      ∧ (i 0).val < win2_5.index ⟨(i 0).val / 6200, ht⟩ (0 : Fin 2) * 6200 + 6200
    rw [e50]; show (i 0).val / 6200 * 6200 ≤ (i 0).val ∧ (i 0).val < (i 0).val / 6200 * 6200 + 6200; omega
  | ⟨1, _⟩ =>
    show win2_5.index ⟨(i 0).val / 6200, ht⟩ (1 : Fin 2) * 32 ≤ (i 1).val
      ∧ (i 1).val < win2_5.index ⟨(i 0).val / 6200, ht⟩ (1 : Fin 2) * 32 + 32
    rw [e51]; omega

/-- The second layer's output array after the region: the layer's dense part of the arrays the region finds. -/
theorem final2 (c : Dev nD) : (Sage2.dat (F := Ideal) V c).arrAt 5 cfg2.N
    = Cert.Spec.layer2 (V c main_v55) (V c main_v42) (V c main_v56) (V c main_v57) (fun q => V c main_v58 (ix2 0 q)) :=
  (Sage2.dat V c).arrAt_eq_of_cover 5 _ (fun t _ => flushed2_eq V c t) cover2

end Cert.KernelIdeal.Final

end
-- ==== Proof.RefStages.lean ====
/-
  The reference program's dense stages are the specification functions.

  The reference computes, on the host and one operation at a time,
    the node projection        max (x · w + b, 0),
    the first layer            max (((a · wl) + b) + x · wr, 0),
    the second layer           ((a · wl) + b) + x · wr,
  where a is a neighbour sum divided, row by row, by the neighbour count clamped below at one. Read at one index,
  each product is a finite sum over the contracted axis, each bias a function of the output column alone, and the
  zero of the clamp the extended real zero; the specification's order (a · wl + x · wr) + b differs from the
  reference's by one exchange of summands in a commutative monoid. The neighbour sums and counts themselves are
  scatter-additions whose values are never looked at here.
-/
import proofs.«167892_j12343736009221_1_alg».proof.Proof.Gen.ReferenceIdeal.Read
import proofs.«167892_j12343736009221_1_alg».proof.Proof.Spec
import Idealize.ShloMosaic.PureOps.Ideal
import Idealize.ShloMosaic.PureOps.Ideal.Laws
import Idealize.ShloMosaic.Lib.ValueIdx

noncomputable section

namespace Cert.RefStages

open Cert.ReferenceIdeal Cert.ReferenceIdeal.Read Idealize.ShloMosaic Idealize.ShloMosaic.ValueIdx
open scoped BigOperators

variable (x0 : (⟨S500000x384, .f32⟩ : BufTy).Contents (Elt Ideal))
  (x1 x2 x3 x4 x5 x6 : (⟨S500000, .i32⟩ : BufTy).Contents (Elt Ideal))
  (x7 : (⟨S64x384, .f32⟩ : BufTy).Contents (Elt Ideal)) (x8 : (⟨S64, .f32⟩ : BufTy).Contents (Elt Ideal))
  (x9 : (⟨S20000x64, .f32⟩ : BufTy).Contents (Elt Ideal)) (x10 : (⟨S5000x64, .f32⟩ : BufTy).Contents (Elt Ideal))
  (x11 : (⟨S2000x64, .f32⟩ : BufTy).Contents (Elt Ideal)) (x12 : (⟨S64x64, .f32⟩ : BufTy).Contents (Elt Ideal))
  (x13 : (⟨S64, .f32⟩ : BufTy).Contents (Elt Ideal)) (x14 : (⟨S64x64, .f32⟩ : BufTy).Contents (Elt Ideal))
  (x15 : (⟨S32x64, .f32⟩ : BufTy).Contents (Elt Ideal)) (x16 : (⟨S32, .f32⟩ : BufTy).Contents (Elt Ideal))
  (x17 : (⟨S32x64, .f32⟩ : BufTy).Contents (Elt Ideal))

/-- The single-precision word of one denotes the extended real one. -/
theorem ofBits_one_f32 : Ideal.ofBits .f32 0x3F800000#32 = 1 := by
  simp [Ideal.ofBits, Ideal.ieee, -EReal.coe_mul]; norm_num

/-- The node projection: a product, a bias broadcast along the rows, a clamp at zero. -/
theorem v5_eq : val_main_v5 (F := Ideal) x0 x7 x8 =
    Cert.Spec.proj x0 (val_main_v0 (F := Ideal) x7) (fun q => x8 (ix1 q)) := by
  funext i
  obtain ⟨p, q, rfl⟩ : ∃ (p : Fin 500000) (q : Fin 64), i = ix2 p q := ⟨i 0, i 1, eq_ix2 i⟩
  have eb : idx_main_v2 (idx_main_v3 (ix2 p q)) = ix1 q :=
    funext fun a => Fin.ext (by match a with | ⟨0, _⟩ => rfl)
  have el : ∀ k : Fin 384, lidx_main_v1 (ix2 p q) k = ix2 p k := fun k =>
    funext fun a => Fin.ext (by match a with | ⟨0, _⟩ => rfl | ⟨1, _⟩ => rfl)
  have er : ∀ k : Fin 384, ridx_main_v1 (ix2 p q) k = ix2 k q := fun k =>
    funext fun a => Fin.ext (by match a with | ⟨0, _⟩ => rfl | ⟨1, _⟩ => rfl)
  rw [val_main_v5_apply, val_main_v4_apply, val_main_v1_apply, val_main_v3_apply, val_main_v2_apply,
    val_main_call0_v0_apply, val_main_call0_cst_apply]
  simp only [eb, el, er, Ideal.addf_def, Ideal.maximumf_def, Ideal.ofBits_def, Ideal.ofBits_zero_f32]
  rfl

/-- The neighbour mean of the first layer: the sum over the count clamped below at one, the count read at the row. -/
theorem v39_apply (i : S527000x64.Idx) : val_main_v39 (F := Ideal) x0 x1 x2 x3 x4 x5 x6 x7 x8 x9 x10 x11 i =
    Ideal.div (val_main_v30 (F := Ideal) x0 x1 x2 x3 x4 x5 x6 x7 x8 x9 x10 x11 i)
      (max (val_main_v34 (F := Ideal) x1 x2 x3 x4 x5 x6 (ix1 (i 0))) 1) := by
  have e : idx_main_v37 (idx_main_v38 i) = ix1 (i 0) :=
    funext fun a => Fin.ext (by match a with | ⟨0, _⟩ => rfl)
  rw [val_main_v39_apply, val_main_v38_apply, val_main_v37_apply, val_main_v36_apply, val_main_v35_apply,
    val_main_cst_9_apply]
  simp only [e, Ideal.hostDivf_def, Ideal.maximumf_def, Ideal.ofBits_def, ofBits_one_f32]
  rfl

/-- The neighbour mean of the second layer, likewise. -/
theorem v67_apply (i : S527000x64.Idx) :
    val_main_v67 (F := Ideal) x0 x1 x2 x3 x4 x5 x6 x7 x8 x9 x10 x11 x12 x13 x14 i =
    Ideal.div (val_main_v58 (F := Ideal) x0 x1 x2 x3 x4 x5 x6 x7 x8 x9 x10 x11 x12 x13 x14 i)
      (max (val_main_v62 (F := Ideal) x1 x2 x3 x4 x5 x6 (ix1 (i 0))) 1) := by
  have e : idx_main_v65 (idx_main_v66 i) = ix1 (i 0) :=
    funext fun a => Fin.ext (by match a with | ⟨0, _⟩ => rfl)
  rw [val_main_v67_apply, val_main_v66_apply, val_main_v65_apply, val_main_v64_apply, val_main_v63_apply,
    val_main_cst_15_apply]
  simp only [e, Ideal.hostDivf_def, Ideal.maximumf_def, Ideal.ofBits_def, ofBits_one_f32]
  rfl

/-- The first layer: the reference adds the bias between the two products; one exchange of summands gives the
    specification's order. -/
theorem v48_eq : val_main_v48 (F := Ideal) x0 x1 x2 x3 x4 x5 x6 x7 x8 x9 x10 x11 x12 x13 x14 =
    Cert.Spec.layer1 (val_main_v39 (F := Ideal) x0 x1 x2 x3 x4 x5 x6 x7 x8 x9 x10 x11)
      (val_main_v6 (F := Ideal) x0 x7 x8 x9 x10 x11) (val_main_v40 (F := Ideal) x12) (val_main_v45 (F := Ideal) x14)
      (fun q => x13 (ix1 q)) := by
  funext i
  obtain ⟨p, q, rfl⟩ : ∃ (p : Fin 527000) (q : Fin 64), i = ix2 p q := ⟨i 0, i 1, eq_ix2 i⟩
  have eb : idx_main_v42 (idx_main_v43 (ix2 p q)) = ix1 q :=
    funext fun a => Fin.ext (by match a with | ⟨0, _⟩ => rfl)
  have el : ∀ k : Fin 64, lidx_main_v41 (ix2 p q) k = ix2 p k := fun k =>
    funext fun a => Fin.ext (by match a with | ⟨0, _⟩ => rfl | ⟨1, _⟩ => rfl)
  have er : ∀ k : Fin 64, ridx_main_v41 (ix2 p q) k = ix2 k q := fun k =>
    funext fun a => Fin.ext (by match a with | ⟨0, _⟩ => rfl | ⟨1, _⟩ => rfl)
  have el' : ∀ k : Fin 64, lidx_main_v46 (ix2 p q) k = ix2 p k := fun k =>
    funext fun a => Fin.ext (by match a with | ⟨0, _⟩ => rfl | ⟨1, _⟩ => rfl)
  have er' : ∀ k : Fin 64, ridx_main_v46 (ix2 p q) k = ix2 k q := fun k =>
    funext fun a => Fin.ext (by match a with | ⟨0, _⟩ => rfl | ⟨1, _⟩ => rfl)
  rw [val_main_v48_apply, val_main_v47_apply, val_main_v44_apply, val_main_v41_apply, val_main_v43_apply,
    val_main_v42_apply, val_main_v46_apply, val_main_call1_v0_apply, val_main_call1_cst_apply]
  simp only [eb, el, er, el', er', Ideal.addf_def, Ideal.maximumf_def, Ideal.ofBits_def, Ideal.ofBits_zero_f32]
  rw [add_right_comm]
  rfl

/-- The second layer: the same exchange, and no clamp. -/
theorem v75_eq : val_main_v75 (F := Ideal) x0 x1 x2 x3 x4 x5 x6 x7 x8 x9 x10 x11 x12 x13 x14 x15 x16 x17 =
    Cert.Spec.layer2 (val_main_v67 (F := Ideal) x0 x1 x2 x3 x4 x5 x6 x7 x8 x9 x10 x11 x12 x13 x14)
      (val_main_v48 (F := Ideal) x0 x1 x2 x3 x4 x5 x6 x7 x8 x9 x10 x11 x12 x13 x14) (val_main_v68 (F := Ideal) x15)
      (val_main_v73 (F := Ideal) x17) (fun q => x16 (ix1 q)) := by
  funext i
  obtain ⟨p, q, rfl⟩ : ∃ (p : Fin 527000) (q : Fin 32), i = ix2 p q := ⟨i 0, i 1, eq_ix2 i⟩
  have eb : idx_main_v70 (idx_main_v71 (ix2 p q)) = ix1 q :=
    funext fun a => Fin.ext (by match a with | ⟨0, _⟩ => rfl)
  have el : ∀ k : Fin 64, lidx_main_v69 (ix2 p q) k = ix2 p k := fun k =>
    funext fun a => Fin.ext (by match a with | ⟨0, _⟩ => rfl | ⟨1, _⟩ => rfl)
  have er : ∀ k : Fin 64, ridx_main_v69 (ix2 p q) k = ix2 k q := fun k =>
    funext fun a => Fin.ext (by match a with | ⟨0, _⟩ => rfl | ⟨1, _⟩ => rfl)
  have el' : ∀ k : Fin 64, lidx_main_v74 (ix2 p q) k = ix2 p k := fun k =>
    funext fun a => Fin.ext (by match a with | ⟨0, _⟩ => rfl | ⟨1, _⟩ => rfl)
  have er' : ∀ k : Fin 64, ridx_main_v74 (ix2 p q) k = ix2 k q := fun k =>
    funext fun a => Fin.ext (by match a with | ⟨0, _⟩ => rfl | ⟨1, _⟩ => rfl)
  rw [val_main_v75_apply, val_main_v72_apply, val_main_v69_apply, val_main_v71_apply, val_main_v70_apply,
    val_main_v74_apply]
  simp only [eb, el, er, el', er', Ideal.addf_def]
  rw [add_right_comm]
  rfl

end Cert.RefStages

end
-- ==== Proof.RefChain.lean ====
/-
  The reference program's structural stages are the kernel program's host-chain functions, and the neighbour-mean law.

  Both programs transpose the weights, concatenate the node features, shift and concatenate the six edge lists into
  3,000,000 source and destination endpoints, gather the rows at the sources, scatter-add them at the destinations,
  count the arriving edges by scatter-adding ones, and cut the result into its four node kinds. Each of these stages of
  the reference is, operation by operation, the same function as the kernel program's, the two vocabularies naming the
  same literal shapes and dimension records. Where they differ is the neighbour mean: the kernel program multiplies the
  sum by the reciprocal of the count clamped below at one, the reference divides the sum by that clamped count; off zero
  the quotient is the product with the inverse, so the two agree at every extended real.
-/
import proofs.«167892_j12343736009221_1_alg».proof.Proof.Gen.ReferenceIdeal.Read
import proofs.«167892_j12343736009221_1_alg».proof.Proof.RefStages
import proofs.«167892_j12343736009221_1_alg».proof.Proof.KiChain
import proofs.«167892_j12343736009221_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.RefChain

open Cert.ReferenceIdeal Cert.ReferenceIdeal.Read Idealize.ShloMosaic Idealize.ShloMosaic.ValueIdx

variable (x0 : (⟨S500000x384, .f32⟩ : BufTy).Contents (Elt Ideal))
  (x1 x2 x3 x4 x5 x6 : (⟨S500000, .i32⟩ : BufTy).Contents (Elt Ideal))
  (x7 : (⟨S64x384, .f32⟩ : BufTy).Contents (Elt Ideal)) (x8 : (⟨S64, .f32⟩ : BufTy).Contents (Elt Ideal))
  (x9 : (⟨S20000x64, .f32⟩ : BufTy).Contents (Elt Ideal)) (x10 : (⟨S5000x64, .f32⟩ : BufTy).Contents (Elt Ideal))
  (x11 : (⟨S2000x64, .f32⟩ : BufTy).Contents (Elt Ideal)) (x12 : (⟨S64x64, .f32⟩ : BufTy).Contents (Elt Ideal))
  (x13 : (⟨S64, .f32⟩ : BufTy).Contents (Elt Ideal)) (x14 : (⟨S64x64, .f32⟩ : BufTy).Contents (Elt Ideal))
  (x15 : (⟨S32x64, .f32⟩ : BufTy).Contents (Elt Ideal)) (x16 : (⟨S32, .f32⟩ : BufTy).Contents (Elt Ideal))
  (x17 : (⟨S32x64, .f32⟩ : BufTy).Contents (Elt Ideal))

/-! ## The weights transposed -/

theorem v0_eq : val_main_v0 (F := Ideal) x7 =
    transpose Cert.KernelIdeal.S384x64 [1, 0] x7 Cert.KernelIdeal.Facts₀.transposes_S64x384_S384x64_1_0 := by
  unfold val_main_v0; rfl
theorem v40_eq : val_main_v40 (F := Ideal) x12 =
    transpose Cert.KernelIdeal.S64x64 [1, 0] x12 Cert.KernelIdeal.Facts₀.transposes_S64x64_S64x64_1_0 := by
  unfold val_main_v40; rfl
theorem v45_eq : val_main_v45 (F := Ideal) x14 =
    transpose Cert.KernelIdeal.S64x64 [1, 0] x14 Cert.KernelIdeal.Facts₀.transposes_S64x64_S64x64_1_0 := by
  unfold val_main_v45; rfl
theorem v68_eq : val_main_v68 (F := Ideal) x15 =
    transpose Cert.KernelIdeal.S64x32 [1, 0] x15 Cert.KernelIdeal.Facts₀.transposes_S32x64_S64x32_1_0 := by
  unfold val_main_v68; rfl
theorem v73_eq : val_main_v73 (F := Ideal) x17 =
    transpose Cert.KernelIdeal.S64x32 [1, 0] x17 Cert.KernelIdeal.Facts₀.transposes_S32x64_S64x32_1_0 := by
  unfold val_main_v73; rfl

/-! ## The merged node features and the edge endpoints -/

theorem v6_eq : val_main_v6 (F := Ideal) x0 x7 x8 x9 x10 x11 =
    Cert.KernelIdeal.Chain.feat (val_main_v5 (F := Ideal) x0 x7 x8) x9 x10 x11 := by
  unfold val_main_v6 Cert.KernelIdeal.Chain.feat; rfl

theorem v13_eq : val_main_v13 (F := Ideal) x1 x2 x3 x4 x5 x6 = Cert.KernelIdeal.Chain.srcIdx x1 x2 x3 x4 x5 x6 := by
  unfold val_main_v13 val_main_v8 val_main_v10 val_main_v12 val_main_v7 val_main_v9 val_main_v11 val_main_c val_main_c_0
    val_main_c_1 Cert.KernelIdeal.Chain.srcIdx Cert.KernelIdeal.Chain.shift
  rfl

theorem v20_eq : val_main_v20 (F := Ideal) x1 x2 x3 x4 x5 x6 = Cert.KernelIdeal.Chain.dstIdx x1 x2 x3 x4 x5 x6 := by
  unfold val_main_v20 val_main_v15 val_main_v17 val_main_v19 val_main_v14 val_main_v16 val_main_v18 val_main_c_2
    val_main_c_3 val_main_c_4 Cert.KernelIdeal.Chain.dstIdx Cert.KernelIdeal.Chain.shift
  rfl

/-! ## The result cut into its four node kinds -/

theorem v76_eq : val_main_v76 (F := Ideal) x0 x1 x2 x3 x4 x5 x6 x7 x8 x9 x10 x11 x12 x13 x14 x15 x16 x17 =
    extractStridedSlice Cert.KernelIdeal.S500000x32 ![0, 0] (val_main_v75 (F := Ideal) x0 x1 x2 x3 x4 x5 x6 x7 x8 x9 x10 x11 x12 x13 x14 x15 x16 x17)
      Cert.KernelIdeal.Facts₀.slices_S527000x32_S500000x32_0_0 := by
  unfold val_main_v76; rfl
theorem v77_eq : val_main_v77 (F := Ideal) x0 x1 x2 x3 x4 x5 x6 x7 x8 x9 x10 x11 x12 x13 x14 x15 x16 x17 =
    extractStridedSlice Cert.KernelIdeal.S20000x32 ![500000, 0] (val_main_v75 (F := Ideal) x0 x1 x2 x3 x4 x5 x6 x7 x8 x9 x10 x11 x12 x13 x14 x15 x16 x17)
      Cert.KernelIdeal.Facts₀.slices_S527000x32_S20000x32_500000_0 := by
  unfold val_main_v77; rfl
theorem v78_eq : val_main_v78 (F := Ideal) x0 x1 x2 x3 x4 x5 x6 x7 x8 x9 x10 x11 x12 x13 x14 x15 x16 x17 =
    extractStridedSlice Cert.KernelIdeal.S5000x32 ![520000, 0] (val_main_v75 (F := Ideal) x0 x1 x2 x3 x4 x5 x6 x7 x8 x9 x10 x11 x12 x13 x14 x15 x16 x17)
      Cert.KernelIdeal.Facts₀.slices_S527000x32_S5000x32_520000_0 := by
  unfold val_main_v78; rfl
theorem v79_eq : val_main_v79 (F := Ideal) x0 x1 x2 x3 x4 x5 x6 x7 x8 x9 x10 x11 x12 x13 x14 x15 x16 x17 =
    extractStridedSlice Cert.KernelIdeal.S2000x32 ![525000, 0] (val_main_v75 (F := Ideal) x0 x1 x2 x3 x4 x5 x6 x7 x8 x9 x10 x11 x12 x13 x14 x15 x16 x17)
      Cert.KernelIdeal.Facts₀.slices_S527000x32_S2000x32_525000_0 := by
  unfold val_main_v79; rfl

/-! ## The neighbour sums and the counts -/

theorem v34_eq : val_main_v34 (F := Ideal) x1 x2 x3 x4 x5 x6 =
    Cert.KernelIdeal.Chain.cntRaw (Cert.KernelIdeal.Chain.dstIdx x1 x2 x3 x4 x5 x6) := by
  unfold val_main_v34 val_main_v33 val_main_v32 val_main_v31 val_main_cst_8 val_main_cst_7
  rw [v20_eq]
  unfold Cert.KernelIdeal.Chain.cntRaw
  rfl

theorem v62_eq : val_main_v62 (F := Ideal) x1 x2 x3 x4 x5 x6 =
    Cert.KernelIdeal.Chain.cntRaw (Cert.KernelIdeal.Chain.dstIdx x1 x2 x3 x4 x5 x6) := by
  unfold val_main_v62 val_main_v61 val_main_v60 val_main_v59 val_main_cst_14 val_main_cst_13
  rw [v20_eq]
  unfold Cert.KernelIdeal.Chain.cntRaw
  rfl

/-- The sources with a negative index counted from the end, first layer. -/
theorem v25_eq : val_main_v25 (F := Ideal) x1 x2 x3 x4 x5 x6 =
    Cert.KernelIdeal.Chain.wrap (Cert.KernelIdeal.Chain.srcIdx x1 x2 x3 x4 x5 x6) := by
  unfold val_main_v25 val_main_v22 val_main_v24 val_main_v21 val_main_v23 val_main_c_5 val_main_c_6
  rw [v13_eq]
  unfold Cert.KernelIdeal.Chain.wrap
  rfl

/-- The same, second layer. -/
theorem v53_eq : val_main_v53 (F := Ideal) x1 x2 x3 x4 x5 x6 =
    Cert.KernelIdeal.Chain.wrap (Cert.KernelIdeal.Chain.srcIdx x1 x2 x3 x4 x5 x6) := by
  unfold val_main_v53 val_main_v50 val_main_v52 val_main_v49 val_main_v51 val_main_c_10 val_main_c_11
  rw [v13_eq]
  unfold Cert.KernelIdeal.Chain.wrap
  rfl

theorem v30_eq : val_main_v30 (F := Ideal) x0 x1 x2 x3 x4 x5 x6 x7 x8 x9 x10 x11 =
    Cert.KernelIdeal.Chain.nbrSum (val_main_v6 (F := Ideal) x0 x7 x8 x9 x10 x11)
      (Cert.KernelIdeal.Chain.srcIdx x1 x2 x3 x4 x5 x6) (Cert.KernelIdeal.Chain.dstIdx x1 x2 x3 x4 x5 x6) := by
  unfold val_main_v30 val_main_v29 val_main_v28 val_main_v27 val_main_v26 val_main_cst
  rw [v20_eq, v25_eq]
  unfold Cert.KernelIdeal.Chain.nbrSum
  rfl

theorem v58_eq : val_main_v58 (F := Ideal) x0 x1 x2 x3 x4 x5 x6 x7 x8 x9 x10 x11 x12 x13 x14 =
    Cert.KernelIdeal.Chain.nbrSum (val_main_v48 (F := Ideal) x0 x1 x2 x3 x4 x5 x6 x7 x8 x9 x10 x11 x12 x13 x14)
      (Cert.KernelIdeal.Chain.srcIdx x1 x2 x3 x4 x5 x6) (Cert.KernelIdeal.Chain.dstIdx x1 x2 x3 x4 x5 x6) := by
  unfold val_main_v58 val_main_v57 val_main_v56 val_main_v55 val_main_v54 val_main_cst_12
  rw [v20_eq, v53_eq]
  unfold Cert.KernelIdeal.Chain.nbrSum
  rfl

/-! ## The neighbour mean -/

/-- The reciprocal count spread along each row, read at an index: one over the count at the row clamped below at one. -/
theorem recip_apply (d : (⟨Cert.KernelIdeal.S3000000, .i32⟩ : BufTy).Contents (Elt Ideal)) (i : S527000x64.Idx) :
    broadcastInDim Cert.KernelIdeal.S527000x64 ![0, 1] Cert.KernelIdeal.Facts₀.bcast_S527000x1_S527000x64_0_1
      (broadcastInDim Cert.KernelIdeal.S527000x1 ![0] Cert.KernelIdeal.Facts₀.bcast_S527000_S527000x1_0
        (Cert.KernelIdeal.Chain.inv (F := Ideal) d)) i =
    Ideal.div 1 (max (Cert.KernelIdeal.Chain.cntRaw (F := Ideal) d (ix1 (i 0))) 1) := by
  rw [broadcastInDim_apply _ Cert.KernelIdeal.Facts₀.bcast_S527000x1_S527000x64_0_1 _ i (ix2 (i 0) 0) (fun a => match a with
      | ⟨0, _⟩ => by show (i 0).val = if (527000 : Nat) = 1 then 0 else (i 0).val; rw [if_neg (by decide)]
      | ⟨1, _⟩ => by show 0 = if (1 : Nat) = 1 then 0 else (i 1).val; rw [if_pos rfl]),
    broadcastInDim_apply _ Cert.KernelIdeal.Facts₀.bcast_S527000_S527000x1_0 _ (ix2 (i 0) 0) (ix1 (i 0)) (fun a => match a with
      | ⟨0, _⟩ => by show (i 0).val = if (527000 : Nat) = 1 then 0 else (i 0).val; rw [if_neg (by decide)])]
  unfold Cert.KernelIdeal.Chain.inv Cert.KernelIdeal.Chain.cnt
  rw [hostDivf_apply, maximumf_apply,
    broadcastInDim_apply _ Cert.KernelIdeal.Facts₀.bcast_S_S527000 _ (ix1 (i 0)) ix0 (fun a => a.elim0),
    constant_apply, Cert.RefStages.ofBits_one_f32]

/-- First layer: the sum times the reciprocal clamped count is the sum divided by the clamped count. -/
theorem agg_v6 : Cert.KernelIdeal.Chain.agg (val_main_v6 (F := Ideal) x0 x7 x8 x9 x10 x11)
      (Cert.KernelIdeal.Chain.srcIdx x1 x2 x3 x4 x5 x6) (Cert.KernelIdeal.Chain.dstIdx x1 x2 x3 x4 x5 x6) =
    val_main_v39 (F := Ideal) x0 x1 x2 x3 x4 x5 x6 x7 x8 x9 x10 x11 := by
  funext i
  rw [Cert.RefStages.v39_apply, v30_eq, v34_eq]
  unfold Cert.KernelIdeal.Chain.agg
  rw [mulf_apply, recip_apply]
  exact Cert.Spec.mul_recip_eq_div _ _

/-- Second layer, likewise. -/
theorem agg_v48 : Cert.KernelIdeal.Chain.agg (val_main_v48 (F := Ideal) x0 x1 x2 x3 x4 x5 x6 x7 x8 x9 x10 x11 x12 x13 x14)
      (Cert.KernelIdeal.Chain.srcIdx x1 x2 x3 x4 x5 x6) (Cert.KernelIdeal.Chain.dstIdx x1 x2 x3 x4 x5 x6) =
    val_main_v67 (F := Ideal) x0 x1 x2 x3 x4 x5 x6 x7 x8 x9 x10 x11 x12 x13 x14 := by
  funext i
  rw [Cert.RefStages.v67_apply, v58_eq, v62_eq]
  unfold Cert.KernelIdeal.Chain.agg
  rw [mulf_apply, recip_apply]
  exact Cert.Spec.mul_recip_eq_div _ _

end Cert.RefChain

end
-- ==== Proof.Bridge.lean ====
/-
  The kernel program's results are the reference's stages. Through the fold of the kernel program's run each
  region's output array is the specification function of its input arrays; the host stretches between the regions
  write the chain functions of what they read; and the reference's stages are the same specification and chain
  functions of the same arguments. So, walking forward: the projection's result is the reference's clamped
  projection; the merged features agree; the first neighbour mean agrees (sum times reciprocal count against sum
  divided by count); the first layer's result is the reference's first layer; the second neighbour mean, the second
  layer, and the four slices likewise.
-/
import proofs.«167892_j12343736009221_1_alg».proof.Proof.KiRun
import proofs.«167892_j12343736009221_1_alg».proof.Proof.KiFinal
import proofs.«167892_j12343736009221_1_alg».proof.Proof.KiHost
import proofs.«167892_j12343736009221_1_alg».proof.Proof.KiHostB
import proofs.«167892_j12343736009221_1_alg».proof.Proof.KiHostC
import proofs.«167892_j12343736009221_1_alg».proof.Proof.KiHostD
import proofs.«167892_j12343736009221_1_alg».proof.Proof.KiHostE
import proofs.«167892_j12343736009221_1_alg».proof.Proof.KiFinalSage
import proofs.«167892_j12343736009221_1_alg».proof.Proof.KiFinalSage2
import proofs.«167892_j12343736009221_1_alg».proof.Proof.RefStages
import proofs.«167892_j12343736009221_1_alg».proof.Proof.RefChain

noncomputable section

namespace Cert.Bridge

open Cert.KernelIdeal Cert.KernelIdeal.Gen Cert.KernelIdeal.Run Cert.KernelIdeal.HostSide Cert.KernelIdeal.Final
open Cert.ReferenceIdeal.Read Cert.RefStages Cert.RefChain
open Idealize.ShloMosaic Idealize.ShloMosaic.TcCoe Idealize.ShloMosaic.ValueIdx

variable (m : (ℓ : Loc nD τ sig) → Buf (Elt Ideal) ℓ) (c : Dev nD)

/-! The eighteen argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)

/-- The projection region's result is the reference's clamped projection. -/
theorem proj_eq : X2 m c (Proc.devRef .tc main_v2) = val_main_v5 (F := Ideal) (a0 m c) (a7 m c) (a8 m c) := by
  refine (X2_arr m c 3).trans ((final0 (Y1 m) c).trans ?_)
  rw [v5_eq, v0_eq]
  dsimp only [Y1]
  rw [x1_arg0, x1_v0]
  exact congrArg (Spec.proj _ _) (funext fun q => x1_v1_apply m c q)

/-- The merged node features agree. -/
theorem feat_eq : X3 m c (Proc.devRef .tc main_v3) = val_main_v6 (F := Ideal) (a0 m c) (a7 m c) (a8 m c) (a9 m c) (a10 m c) (a11 m c) := by
  rw [x3_v3, proj_eq, v6_eq]

/-- The first neighbour mean agrees. -/
theorem agg1_eq : X3 m c (Proc.devRef .tc main_v38) = val_main_v39 (F := Ideal) (a0 m c) (a1 m c) (a2 m c) (a3 m c) (a4 m c) (a5 m c) (a6 m c) (a7 m c) (a8 m c) (a9 m c) (a10 m c) (a11 m c) := by
  rw [x3_v38, proj_eq, ← v6_eq, agg_v6]

/-- The first layer's result is the reference's first layer. -/
theorem layer1_eq : X4 m c (Proc.devRef .tc main_v42) = val_main_v48 (F := Ideal) (a0 m c) (a1 m c) (a2 m c) (a3 m c) (a4 m c) (a5 m c) (a6 m c) (a7 m c) (a8 m c) (a9 m c) (a10 m c) (a11 m c) (a12 m c) (a13 m c) (a14 m c) := by
  refine (X4_arr m c 5).trans ((final1 (Y3 m) c).trans ?_)
  rw [v48_eq, v40_eq, v45_eq]
  dsimp only [Y3]
  rw [agg1_eq, feat_eq, x3_v39, x3_v40]
  exact congrArg (Spec.layer1 _ _ _ _) (funext fun q => x3_v41_apply m c q)

/-- The second neighbour mean agrees. -/
theorem agg2_eq : X5 m c (Proc.devRef .tc main_v55) = val_main_v67 (F := Ideal) (a0 m c) (a1 m c) (a2 m c) (a3 m c) (a4 m c) (a5 m c) (a6 m c) (a7 m c) (a8 m c) (a9 m c) (a10 m c) (a11 m c) (a12 m c) (a13 m c) (a14 m c) := by
  rw [x5_v55_raw, X4_keep m c main_v10 (by decide), X4_keep m c main_v17 (by decide), X4_keep m c main_v25 (by decide),
    x3_v10, x3_v17, x3_v25, layer1_eq, ← agg_v48]
  rfl

/-- The second layer's result is the reference's second layer. -/
theorem layer2_eq : X6 m c (Proc.devRef .tc main_v59) = val_main_v75 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  refine (X6_arr m c 5).trans ((final2 (Y5 m) c).trans ?_)
  rw [v75_eq, v68_eq, v73_eq]
  dsimp only [Y5]
  rw [agg2_eq, x5_v42, layer1_eq, x5_v56, x5_v57]
  exact congrArg (Spec.layer2 _ _ _ _) (funext fun q => x5_v58_apply m c q)

/-- The four results: the slices of the second layer's result. -/
theorem res0_eq : X7 m c (Proc.devRef .tc main_v60) = val_main_v76 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  rw [x7_v60, layer2_eq, v76_eq]
theorem res1_eq : X7 m c (Proc.devRef .tc main_v61) = val_main_v77 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  rw [x7_v61, layer2_eq, v77_eq]
theorem res2_eq : X7 m c (Proc.devRef .tc main_v62) = val_main_v78 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  rw [x7_v62, layer2_eq, v78_eq]
theorem res3_eq : X7 m c (Proc.devRef .tc main_v63) = val_main_v79 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  rw [x7_v63, layer2_eq, v79_eq]

end Cert.Bridge

end
-- ==== Proof.lean ====
/-
  The certificate: a two-layer mean-aggregation graph network over a merged graph of 527000 nodes — node projection,
  two rounds of neighbour averaging each followed by a dense layer — computed by three tiled kernels with the
  gather and scatter-add on the host, against the same network in plain host operations.

  The three frames. The kernel program, at words and at extended reals, runs as seven items (Proof/KbRun.lean,
  Proof/KiRun.lean): every weakly fair execution terminates without a fault and ends with every unscoped buffer at
  a fold of the launch memory through the items; no item writes an argument, so each ends as launched. The
  reference is a straight line of host operations; its generated run states the same of it.
  Nothing was rewritten by idealization, so there is nothing to preserve.
  The values. Over the extended reals each kernel region leaves the specification function of its inputs
  (Proof/KiFinal.lean over Proof/KiPayload.lean: a matrix product into a zero accumulator is the plain sum, a change
  of float format the identity), the reference's dense stages are the same functions with the bias added before the
  second product (commutativity and associativity of the sum), and the two neighbour means — a sum times the
  reciprocal of a count clamped below at one, and the sum divided by that count — are equal at every extended real
  because the clamped count is not zero (Proof/Spec.lean). Gather and scatter-add are the same operations of the
  same operands on both sides and are never opened (Proof/Bridge.lean).
-/
import proofs.«167892_j12343736009221_1_alg».proof.Defs
import proofs.«167892_j12343736009221_1_alg».proof.Proof.Gen.Kernel
import proofs.«167892_j12343736009221_1_alg».proof.Proof.Gen.KernelIdeal
import proofs.«167892_j12343736009221_1_alg».proof.Proof.Gen.ReferenceIdeal
import proofs.«167892_j12343736009221_1_alg».proof.Proof.Gen.Pre_finite_inputs
import proofs.«167892_j12343736009221_1_alg».proof.Proof.Gen.ReferenceIdeal.Run
import proofs.«167892_j12343736009221_1_alg».proof.Proof.Gen.ReferenceIdeal.Read
import proofs.«167892_j12343736009221_1_alg».proof.Proof.KbRun
import proofs.«167892_j12343736009221_1_alg».proof.Proof.KiRun
import proofs.«167892_j12343736009221_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ =>
  (θ_run Cert.Kernel.defs _ _).mono (fun r h c =>
    ⟨Cert.Kernel.Run.kept_of m ρ Cert.Kernel.main_arg0 (by decide) h c,
      Cert.Kernel.Run.kept_of m ρ Cert.Kernel.main_arg1 (by decide) h c,
      Cert.Kernel.Run.kept_of m ρ Cert.Kernel.main_arg2 (by decide) h c,
      Cert.Kernel.Run.kept_of m ρ Cert.Kernel.main_arg3 (by decide) h c,
      Cert.Kernel.Run.kept_of m ρ Cert.Kernel.main_arg4 (by decide) h c,
      Cert.Kernel.Run.kept_of m ρ Cert.Kernel.main_arg5 (by decide) h c,
      Cert.Kernel.Run.kept_of m ρ Cert.Kernel.main_arg6 (by decide) h c,
      Cert.Kernel.Run.kept_of m ρ Cert.Kernel.main_arg7 (by decide) h c,
      Cert.Kernel.Run.kept_of m ρ Cert.Kernel.main_arg8 (by decide) h c,
      Cert.Kernel.Run.kept_of m ρ Cert.Kernel.main_arg9 (by decide) h c,
      Cert.Kernel.Run.kept_of m ρ Cert.Kernel.main_arg10 (by decide) h c,
      Cert.Kernel.Run.kept_of m ρ Cert.Kernel.main_arg11 (by decide) h c,
      Cert.Kernel.Run.kept_of m ρ Cert.Kernel.main_arg12 (by decide) h c,
      Cert.Kernel.Run.kept_of m ρ Cert.Kernel.main_arg13 (by decide) h c,
      Cert.Kernel.Run.kept_of m ρ Cert.Kernel.main_arg14 (by decide) h c,
      Cert.Kernel.Run.kept_of m ρ Cert.Kernel.main_arg15 (by decide) h c,
      Cert.Kernel.Run.kept_of m ρ Cert.Kernel.main_arg16 (by decide) h c,
      Cert.Kernel.Run.kept_of m ρ Cert.Kernel.main_arg17 (by decide) h c⟩)
    (Cert.Kernel.Run.run_all (F := Bits) m ρ)

/-- So does the idealized kernel program. -/
theorem frame_ki : Cert.frame_KernelIdeal := fun m ρ _ =>
  (θ_run Cert.KernelIdeal.defs _ _).mono (fun r h c =>
    ⟨Cert.KernelIdeal.Run.kept_of m ρ Cert.KernelIdeal.main_arg0 (by decide) h c,
      Cert.KernelIdeal.Run.kept_of m ρ Cert.KernelIdeal.main_arg1 (by decide) h c,
      Cert.KernelIdeal.Run.kept_of m ρ Cert.KernelIdeal.main_arg2 (by decide) h c,
      Cert.KernelIdeal.Run.kept_of m ρ Cert.KernelIdeal.main_arg3 (by decide) h c,
      Cert.KernelIdeal.Run.kept_of m ρ Cert.KernelIdeal.main_arg4 (by decide) h c,
      Cert.KernelIdeal.Run.kept_of m ρ Cert.KernelIdeal.main_arg5 (by decide) h c,
      Cert.KernelIdeal.Run.kept_of m ρ Cert.KernelIdeal.main_arg6 (by decide) h c,
      Cert.KernelIdeal.Run.kept_of m ρ Cert.KernelIdeal.main_arg7 (by decide) h c,
      Cert.KernelIdeal.Run.kept_of m ρ Cert.KernelIdeal.main_arg8 (by decide) h c,
      Cert.KernelIdeal.Run.kept_of m ρ Cert.KernelIdeal.main_arg9 (by decide) h c,
      Cert.KernelIdeal.Run.kept_of m ρ Cert.KernelIdeal.main_arg10 (by decide) h c,
      Cert.KernelIdeal.Run.kept_of m ρ Cert.KernelIdeal.main_arg11 (by decide) h c,
      Cert.KernelIdeal.Run.kept_of m ρ Cert.KernelIdeal.main_arg12 (by decide) h c,
      Cert.KernelIdeal.Run.kept_of m ρ Cert.KernelIdeal.main_arg13 (by decide) h c,
      Cert.KernelIdeal.Run.kept_of m ρ Cert.KernelIdeal.main_arg14 (by decide) h c,
      Cert.KernelIdeal.Run.kept_of m ρ Cert.KernelIdeal.main_arg15 (by decide) h c,
      Cert.KernelIdeal.Run.kept_of m ρ Cert.KernelIdeal.main_arg16 (by decide) h c,
      Cert.KernelIdeal.Run.kept_of m ρ Cert.KernelIdeal.main_arg17 (by decide) h c⟩)
    (Cert.KernelIdeal.Run.run_all (F := Ideal) m ρ)

/-- The reference's frame is its run with the results dropped. -/
theorem frame_r : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

set_option maxHeartbeats 400000 in
/-- The reference's result 0, run from a memory that agrees with the kernel program's on the arguments, is the kernel
    program's result 0. -/
theorem ref_res0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v76 m' c = Cert.KernelIdeal.Run.X7 m c (Proc.devRef .tc Cert.KernelIdeal.main_v60) := by
  rw [Cert.ReferenceIdeal.Read.val_main_v76_eq, e0, e1, e2, e3, e4, e5, e6, e7, e8, e9, e10, e11, e12, e13, e14, e15, e16, e17]
  exact (Cert.Bridge.res0_eq m c).symm

set_option maxHeartbeats 400000 in
/-- The reference's result 1, run from a memory that agrees with the kernel program's on the arguments, is the kernel
    program's result 1. -/
theorem ref_res1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v77 m' c = Cert.KernelIdeal.Run.X7 m c (Proc.devRef .tc Cert.KernelIdeal.main_v61) := by
  rw [Cert.ReferenceIdeal.Read.val_main_v77_eq, e0, e1, e2, e3, e4, e5, e6, e7, e8, e9, e10, e11, e12, e13, e14, e15, e16, e17]
  exact (Cert.Bridge.res1_eq m c).symm

set_option maxHeartbeats 400000 in
/-- The reference's result 2, run from a memory that agrees with the kernel program's on the arguments, is the kernel
    program's result 2. -/
theorem ref_res2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v78 m' c = Cert.KernelIdeal.Run.X7 m c (Proc.devRef .tc Cert.KernelIdeal.main_v62) := by
  rw [Cert.ReferenceIdeal.Read.val_main_v78_eq, e0, e1, e2, e3, e4, e5, e6, e7, e8, e9, e10, e11, e12, e13, e14, e15, e16, e17]
  exact (Cert.Bridge.res2_eq m c).symm

set_option maxHeartbeats 400000 in
/-- The reference's result 3, run from a memory that agrees with the kernel program's on the arguments, is the kernel
    program's result 3. -/
theorem ref_res3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v79 m' c = Cert.KernelIdeal.Run.X7 m c (Proc.devRef .tc Cert.KernelIdeal.main_v63) := by
  rw [Cert.ReferenceIdeal.Read.val_main_v79_eq, e0, e1, e2, e3, e4, e5, e6, e7, e8, e9, e10, e11, e12, e13, e14, e15, e16, e17]
  exact (Cert.Bridge.res3_eq m c).symm

/-- From memories agreeing on the arguments both idealized programs run, and the four results are equal: the kernel
    program's are the last fold's four slices, which are the reference's four result stages. -/
theorem algebraic : Cert.algebraic_KernelIdeal_ReferenceIdeal := by
  intro m ρ m' ρ' _ hagree
  refine ⟨fun c => Cert.KernelIdeal.Run.X7 m c (Proc.devRef .tc Cert.KernelIdeal.main_v60),
    fun c => Cert.KernelIdeal.Run.X7 m c (Proc.devRef .tc Cert.KernelIdeal.main_v61),
    fun c => Cert.KernelIdeal.Run.X7 m c (Proc.devRef .tc Cert.KernelIdeal.main_v62),
    fun c => Cert.KernelIdeal.Run.X7 m c (Proc.devRef .tc Cert.KernelIdeal.main_v63), ?_, ?_⟩
  · exact (θ_run Cert.KernelIdeal.defs _ _).mono (fun r h c =>
      ⟨Cert.KernelIdeal.Run.result_of m Cert.KernelIdeal.main_v60 (by decide) h c,
      Cert.KernelIdeal.Run.result_of m Cert.KernelIdeal.main_v61 (by decide) h c,
      Cert.KernelIdeal.Run.result_of m Cert.KernelIdeal.main_v62 (by decide) h c,
      Cert.KernelIdeal.Run.result_of m Cert.KernelIdeal.main_v63 (by decide) h c,
      Cert.KernelIdeal.Run.kept_of m ρ Cert.KernelIdeal.main_arg0 (by decide) h c,
      Cert.KernelIdeal.Run.kept_of m ρ Cert.KernelIdeal.main_arg1 (by decide) h c,
      Cert.KernelIdeal.Run.kept_of m ρ Cert.KernelIdeal.main_arg2 (by decide) h c,
      Cert.KernelIdeal.Run.kept_of m ρ Cert.KernelIdeal.main_arg3 (by decide) h c,
      Cert.KernelIdeal.Run.kept_of m ρ Cert.KernelIdeal.main_arg4 (by decide) h c,
      Cert.KernelIdeal.Run.kept_of m ρ Cert.KernelIdeal.main_arg5 (by decide) h c,
      Cert.KernelIdeal.Run.kept_of m ρ Cert.KernelIdeal.main_arg6 (by decide) h c,
      Cert.KernelIdeal.Run.kept_of m ρ Cert.KernelIdeal.main_arg7 (by decide) h c,
      Cert.KernelIdeal.Run.kept_of m ρ Cert.KernelIdeal.main_arg8 (by decide) h c,
      Cert.KernelIdeal.Run.kept_of m ρ Cert.KernelIdeal.main_arg9 (by decide) h c,
      Cert.KernelIdeal.Run.kept_of m ρ Cert.KernelIdeal.main_arg10 (by decide) h c,
      Cert.KernelIdeal.Run.kept_of m ρ Cert.KernelIdeal.main_arg11 (by decide) h c,
      Cert.KernelIdeal.Run.kept_of m ρ Cert.KernelIdeal.main_arg12 (by decide) h c,
      Cert.KernelIdeal.Run.kept_of m ρ Cert.KernelIdeal.main_arg13 (by decide) h c,
      Cert.KernelIdeal.Run.kept_of m ρ Cert.KernelIdeal.main_arg14 (by decide) h c,
      Cert.KernelIdeal.Run.kept_of m ρ Cert.KernelIdeal.main_arg15 (by decide) h c,
      Cert.KernelIdeal.Run.kept_of m ρ Cert.KernelIdeal.main_arg16 (by decide) h c,
      Cert.KernelIdeal.Run.kept_of m ρ Cert.KernelIdeal.main_arg17 (by decide) h c⟩)
      (Cert.KernelIdeal.Run.run_all (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17⟩ := hagree c
    refine ⟨(h c).1.trans ?_, (h c).2.1.trans ?_, (h c).2.2.1.trans ?_, (h c).2.2.2.1.trans ?_, (h c).2.2.2.2⟩
    · exact ref_res0 m m' c e0 e1 e2 e3 e4 e5 e6 e7 e8 e9 e10 e11 e12 e13 e14 e15 e16 e17
    · exact ref_res1 m m' c e0 e1 e2 e3 e4 e5 e6 e7 e8 e9 e10 e11 e12 e13 e14 e15 e16 e17
    · exact ref_res2 m m' c e0 e1 e2 e3 e4 e5 e6 e7 e8 e9 e10 e11 e12 e13 e14 e15 e16 e17
    · exact ref_res3 m m' c e0 e1 e2 e3 e4 e5 e6 e7 e8 e9 e10 e11 e12 e13 e14 e15 e16 e17

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
